-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x256 .f32) (main_arg1 : FVec F S4096x256 .f32) (main_arg2 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x8192 : Shape := ⟨2, ![1, 8192]⟩
abbrev S8192x256 : Shape := ⟨2, ![8192, 256]⟩
abbrev S4096x4096 : Shape := ⟨2, ![4096, 4096]⟩
abbrev S256x256 : Shape := ⟨2, ![256, 256]⟩
abbrev S256x1 : Shape := ⟨2, ![256, 1]⟩
abbrev S1x256 : Shape := ⟨2, ![1, 256]⟩
abbrev S512x256 : Shape := ⟨2, ![512, 256]⟩
abbrev S256x512 : Shape := ⟨2, ![256, 512]⟩
abbrev S1x512 : Shape := ⟨2, ![1, 512]⟩
abbrev S1x1 : Shape := ⟨2, ![1, 1]⟩
abbrev S256x4096 : Shape := ⟨2, ![256, 4096]⟩
abbrev S256 : Shape := ⟨1, ![256]⟩
abbrev S1 : Shape := ⟨1, ![1]⟩
abbrev S16777216 : Shape := ⟨1, ![16777216]⟩

abbrev nBuf : Space → Nat
  | .hbm => 22
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S1x8192, .f32⟩
  | .hbm, ⟨14, _⟩ => ⟨S4096x256, .bf16⟩
  | .hbm, ⟨15, _⟩ => ⟨S4096x256, .bf16⟩
  | .hbm, ⟨16, _⟩ => ⟨S8192x256, .bf16⟩
  | .hbm, ⟨17, _⟩ => ⟨S4096x4096, .f32⟩
  | .hbm, ⟨18, _⟩ => ⟨S1x4096, .f32⟩
  | .hbm, ⟨19, _⟩ => ⟨S1x1, .f32⟩
  | .hbm, ⟨20, _⟩ => ⟨S_, .f32⟩
  | .hbm, ⟨21, _⟩ => ⟨S16777216, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x1, .f32⟩
  | .local _ .vmem, ⟨7, _⟩ => ⟨S256x1, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x4096, .f32⟩
  | .local _ .vmem, ⟨15, _⟩ => ⟨S256x4096, .f32⟩
  | .local _ .vmem, ⟨16, _⟩ => ⟨S1x4096, .f32⟩
  | .local _ .vmem, ⟨17, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.addi arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.addi arg1 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.addi arg1 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.addi arg1 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_9 : BitVec 32 := 0#32
  let v23 : BitVec 1 := Scalar.cmpi .eq arg0 c0_i32_9
  let v24 : BitVec 32 := Scalar.extui v23
  let c0_i32_10 : BitVec 32 := 0#32
  let v25 : BitVec 1 := Scalar.cmpi .ne v24 c0_i32_10
  v25

def k1_cond3 (i : grid1.Coords) : BitVec 1 :=
  let arg0 : BitVec 32 := BitVec.ofNat 32 (i 0).val
  let c0_i32_11 : BitVec 32 := 0#32
  let v26 : BitVec 1 := Scalar.cmpi .ne arg0 c0_i32_11
  let v27 : BitVec 32 := Scalar.extui v26
  let c0_i32_12 : BitVec 32 := 0#32
  let v28 : BitVec 1 := Scalar.cmpi .ne v27 c0_i32_12
  v28

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  reducesTo_S4096x256_S4096_d1 : S4096x256.ReducesTo [1] S4096
  h_S_ : 0 < S_.numel
  shapeCasts_S4096_S4096x1 : S4096.ShapeCasts S4096x1
  shapeCasts_S4096_S1x4096 : S4096.ShapeCasts S1x4096
  concatenates_S1x4096_S1x4096_S1x8192_d1 : Shape.Concatenates [S1x4096, S1x4096] S1x8192 1
  bitsLt_bf16_f32 : FTy.bits .bf16 < FTy.bits .f32
  concatenates_S4096x256_S4096x256_S8192x256_d0 : Shape.Concatenates [S4096x256, S4096x256] S8192x256 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S256x256_S256x256_S512x256_d0 : Shape.Concatenates [S256x256, S256x256] S512x256 0
  transposes_S512x256_p1_0_S256x512 : S512x256.Transposes [1, 0] S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  concatenates_S1x256_S1x256_S1x512_d1 : Shape.Concatenates [S1x256, S1x256] S1x512 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  shapeCasts_S1x512_S1x512 : S1x512.ShapeCasts S1x512
  broadcasts_S1x512_S256x512 : S1x512.Broadcasts S256x512
  iota_S256x512_d0_w32 : S256x512.Iotas .tc 32 [0]
  rotates_S256x512_d1 : S256x512.Rotates 1 none
  slices_S256x512_o0_0_S256x256 : S256x512.Slices ![0, 0] S256x256
  transposes_S256x256_p1_0_S256x256 : S256x256.Transposes [1, 0] S256x256
  inb_S1x1_S1x1_0_0 : ∀ a, (![0, 0] : Fin 2 → Nat) a + S1x1.size a ≤ S1x1.size a
  h_S1x1 : 0 < S1x1.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S256x4096_o0_0_S1x4096 : S256x4096.Slices ![0, 0] S1x4096
  reduces_S1x4096_S1 : S1x4096.Reduces [1] S1
  shapeCasts_S1x1_S1x1 : S1x1.ShapeCasts S1x1
  shapeCasts_S1x1_S_ : S1x1.ShapeCasts S_
  shapeCasts_S4096x4096_S16777216 : S4096x4096.ShapeCasts S16777216
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x256.size a
  hwx0_1 : ∀ i : grid0.Coords, EltTy.bits .bf16 = 32 ∨ (Rect.block (s := S8192x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .bf16 = 32 ∨ (Rect.block (s := S8192x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S4096x4096.size a
  hwx0_6 : ∀ i : grid0.Coords, EltTy.bits .f32 = 32 ∨ (Rect.block (s := S4096x4096) S256x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v9) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) && !(k1_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S_ : Shape := ⟨0, ![]⟩
abbrev S4096x4096 : Shape := ⟨2, ![4096, 4096]⟩
abbrev S1x4096 : Shape := ⟨2, ![1, 4096]⟩
abbrev S4096x1 : Shape := ⟨2, ![4096, 1]⟩
abbrev S4096x4096x1 : Shape := ⟨3, ![4096, 4096, 1]⟩
abbrev S4096x4096x2 : Shape := ⟨3, ![4096, 4096, 2]⟩
abbrev S16777216 : Shape := ⟨1, ![16777216]⟩
abbrev S16773120 : Shape := ⟨1, ![16773120]⟩

abbrev nBuf : Space → Nat
  | .hbm => 111
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096, .i32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i1⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .i32⟩
  | .hbm, ⟨34, _⟩ => ⟨S_, .i1⟩
  | .hbm, ⟨35, _⟩ => ⟨S4096x4096, .i1⟩
  | .hbm, ⟨36, _⟩ => ⟨S4096x4096, .i1⟩
  | .hbm, ⟨37, _⟩ => ⟨S4096x4096, .i1⟩
  | .hbm, ⟨38, _⟩ => ⟨S4096x4096, .i32⟩
  | .hbm, ⟨39, _⟩ => ⟨S4096x4096, .i32⟩
  | .hbm, ⟨40, _⟩ => ⟨S4096x4096, .i32⟩
  | .hbm, ⟨41, _⟩ => ⟨S1x4096, .i32⟩
  | .hbm, ⟨42, _⟩ => ⟨S_, .i32⟩
  | .hbm, ⟨43, _⟩ => ⟨S1x4096, .i32⟩
  | .hbm, ⟨44, _⟩ => ⟨S1x4096, .i1⟩
  | .hbm, ⟨45, _⟩ => ⟨S_, .i32⟩
  | .hbm, ⟨46, _⟩ => ⟨S1x4096, .i32⟩
  | .hbm, ⟨47, _⟩ => ⟨S1x4096, .i32⟩
  | .hbm, ⟨48, _⟩ => ⟨S1x4096, .i32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S_, .i32⟩
  | .hbm, ⟨53, _⟩ => ⟨S4096x4096, .i32⟩
  | .hbm, ⟨54, _⟩ => ⟨S4096x4096, .i32⟩
  | .hbm, ⟨55, _⟩ => ⟨S4096x4096, .i32⟩
  | .hbm, ⟨56, _⟩ => ⟨S4096x4096, .i32⟩
  | .hbm, ⟨57, _⟩ => ⟨S4096x4096x1, .i32⟩
  | .hbm, ⟨58, _⟩ => ⟨S4096x4096x1, .i32⟩
  | .hbm, ⟨59, _⟩ => ⟨S4096x4096x2, .i32⟩
  | .hbm, ⟨60, _⟩ => ⟨S4096x4096, .f32⟩
  | .hbm, ⟨61, _⟩ => ⟨S1x4096, .f32⟩
  | .hbm, ⟨62, _⟩ => ⟨S_, .i32⟩
  | .hbm, ⟨63, _⟩ => ⟨S4096x4096, .i32⟩
  | .hbm, ⟨64, _⟩ => ⟨S4096x4096, .i1⟩
  | .hbm, ⟨65, _⟩ => ⟨S_, .i32⟩
  | .hbm, ⟨66, _⟩ => ⟨S4096x4096, .i32⟩
  | .hbm, ⟨67, _⟩ => ⟨S4096x4096, .i32⟩
  | .hbm, ⟨68, _⟩ => ⟨S4096x4096, .i32⟩
  | .hbm, ⟨69, _⟩ => ⟨S4096x4096x1, .i32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S16777216, .f32⟩
  | .hbm, ⟨84, _⟩ => ⟨S_, .f32⟩
  | .hbm, ⟨85, _⟩ => ⟨S16773120, .f32⟩
  | .hbm, ⟨86, _⟩ => ⟨S16777216, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S16773120, .f32⟩
  | .hbm, ⟨91, _⟩ => ⟨S16777216, .f32⟩
  | .hbm, ⟨92, _⟩ => ⟨S16777216, .f32⟩
  | .hbm, ⟨93, _⟩ => ⟨S_, .f32⟩
  | .hbm, ⟨94, _⟩ => ⟨S16777216, .f32⟩
  | .hbm, ⟨95, _⟩ => ⟨S16777216, .f32⟩
  | .hbm, ⟨96, _⟩ => ⟨S16777216, .f32⟩
  | .hbm, ⟨97, _⟩ => ⟨S16777216, .f32⟩
  | .hbm, ⟨98, _⟩ => ⟨S_, .f32⟩
  | .hbm, ⟨99, _⟩ => ⟨S16777216, .f32⟩
  | .hbm, ⟨100, _⟩ => ⟨S16777216, .f32⟩
  | .hbm, ⟨101, _⟩ => ⟨S16777216, .f32⟩
  | .hbm, ⟨102, _⟩ => ⟨S_, .f32⟩
  | .hbm, ⟨103, _⟩ => ⟨S16777216, .f32⟩
  | .hbm, ⟨104, _⟩ => ⟨S16777216, .f32⟩
  | .hbm, ⟨105, _⟩ => ⟨S16777216, .f32⟩
  | .hbm, ⟨106, _⟩ => ⟨S16777216, .f32⟩
  | .hbm, ⟨107, _⟩ => ⟨S16777216, .f32⟩
  | .hbm, ⟨108, _⟩ => ⟨S_, .f32⟩
  | .hbm, ⟨109, _⟩ => ⟨S_, .f32⟩
  | .hbm, ⟨110, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_c_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_cst_12 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_13 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_16 : Ref sig .tc := ⟨.hbm, 108, rfl⟩
abbrev main_v67 : Ref sig .tc := ⟨.hbm, 109, rfl⟩
abbrev main_v68 : Ref sig .tc := ⟨.hbm, 110, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S_S1x4096 : S_.BroadcastsInDim S1x4096 (![] : Fin 0 → Fin S1x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  shapeCasts_S4096x4096_S16777216 : S4096x4096.ShapeCasts S16777216
  bcast_S_S16773120 : S_.BroadcastsInDim S16773120 (![] : Fin 0 → Fin S16773120.rank)
  concatenates_S4096_S16773120_S16777216_d0 : Shape.Concatenates [S4096, S16773120] S16777216 0
  bcast_S_S4096 : S_.BroadcastsInDim S4096 (![] : Fin 0 → Fin S4096.rank)
  bcast_S_S16777216 : S_.BroadcastsInDim S16777216 (![] : Fin 0 → Fin S16777216.rank)
  reducesTo_S16777216_S_d0 : S16777216.ReducesTo [0] S_
  dot_S4096x256_S4096x256_S4096x4096_1_1_0_0_n_n_wf : DotDims.WF S4096x256 S4096x256 S4096x4096 [1] [1] [0] [0] [] []
  gather_S4096x4096_S4096x4096x2_S4096x4096_n_01_n_n_01_2_11_wf : GatherDims.WF S4096x4096 S4096x4096x2 S4096x4096 [] [0, 1] [] [0, 1] [] 2 ![1, 1]
  gather_S4096_S4096x4096x1_S4096x4096_n_0_n_n_0_2_1_wf : GatherDims.WF S4096 S4096x4096x1 S4096x4096 [] [0] [] [0] [] 2 ![1]

variable [Facts₀]

def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf
def gather_S4096x4096_S4096x4096x2_S4096x4096_n_01_n_n_01_2_11 : GatherDims S4096x4096 S4096x4096x2 S4096x4096 where
  offsetDims := []
  collapsedSliceDims := [0, 1]
  operandBatchingDims := []
  startIndicesBatchingDims := []
  startIndexMap := [0, 1]
  indexVectorDim := 2
  sliceSizes := ![1, 1]
  wf := gather_S4096x4096_S4096x4096x2_S4096x4096_n_01_n_n_01_2_11_wf
def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf

class Facts : Prop extends Facts₀ where

variable [Facts]
-- ==== Proof.Bits.KDefs.lean ====
/-
  What the two pipelined regions of the kernel's program compute, point by point, and the proof data both the
  frame and the value proofs are stated over.

  Region 0 runs a 16 × 16 grid.  At a point its body reads six input blocks — a 256-row block of the first matrix, two
  consecutive 256-row blocks of the second matrix doubled along its rows, the matching block of the first norms and two
  consecutive blocks of the second norms doubled — and stores ONE 256 × 256 block: `blk0` of the six.  The doubled
  matrix and the doubled norms are each read through two windows, so each of those two arrays is held half by one
  window and half by the other.

  Region 1 runs 16 points in order over 256-row slabs of region 0's result and keeps a 1 × 1 running sum in its
  output block: the first point stores `accA` of its slab and the labels, every later point `accB` of its slab and
  what the point before left.
-/
import proofs.«418415_j74801150427885_3_alg».proof.Proof.Gen.Kernel.Launch
import proofs.«418415_j74801150427885_3_alg».proof.Proof.Gen.Kernel.Skeleton
import proofs.«418415_j74801150427885_3_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.Sem
open Idealize.ShloMosaic.Rounds
open Idealize.ShloMosaic.Pipeline (Dat)
open Cert.Kernel Cert.Kernel.Gen

variable {F : FTy → Type} [FloatOps F]

-- the buffer contents on each core when a region is entered: the parameter both regions are stated at
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row index of every entry of a 256 × 512 tile. -/
abbrev rowIota : IVec S256x512 32 := iota .tc S256x512 32 [0] Facts₀.iota_S256x512_d0_w32

/-- The 256 × 256 block region 0's body stores, from its six input blocks (in window order: the block of the first
    matrix, the two blocks of the doubled second matrix, the first norms, the two blocks of the doubled second norms). -/
def blk0 (x0 x1 x2 : Vec F S256x256 .bf16) (x3 : Vec F S256x1 .f32) (x4 x5 : Vec F S1x256 .f32) : Vec F S256x256 .f32 :=
  k0_pay1 (k0_pay3 rowIota (k0_pay2 x0 x1 x2 x4 x5 x3) 508#32) (k0_pay4 (F := F))

/-- The proof data of region 0 on core `c`: the arrays as the region finds them; after the body each input's buffer
    at its block and the output's at `blk0` of the point's input blocks; the scoped rest and the generator register
    untouched; nothing owed; the two arrays read through two windows each held in halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blk0 (iblk0 V c 0 t) (iblk0 V c 1 t) (iblk0 V c 2 t) (iblk0 V c 3 t) (iblk0 V c 4 t) (iblk0 V c 5 t)
  Φ _ := Pipeline.ΦA spec0 c
  q w := match w with
    | ⟨1, _⟩ => fullShare.left
    | ⟨2, _⟩ => fullShare.right
    | ⟨4, _⟩ => fullShare.left
    | ⟨5, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = blk0 (iblk0 V c 0 t) (iblk0 V c 1 t) (iblk0 V c 2 t) (iblk0 V c 3 t) (iblk0 V c 4 t) (iblk0 V c 5 t) := by
  dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the first point leaves in the 1 × 1 output block: zero, plus its slab's partial sum and the correction over the labels. -/
def accA (x0 : Vec F S256x4096 .f32) (lab : Vec F S1x4096 .f32) : Vec F S1x1 .f32 := k1_pay5 x0 lab (k1_pay1 (F := F))

/-- What a later point leaves: what it found, plus its slab's partial sum. -/
def accB (x0 : Vec F S256x4096 .f32) (prev : Vec F S1x1 .f32) : Vec F S1x1 .f32 := k1_pay6 x0 prev

/-- The running sum after the body at position `n`. -/
def acc1 (c : Dev nD) : (n : ℕ) → n < cfg1.N → Vec F S1x1 .f32
  | 0, hn => accA (iblk1 V c 0 ⟨0, hn⟩) (iblk1 V c 1 ⟨0, hn⟩)
  | n + 1, hn => accB (iblk1 V c 0 ⟨n + 1, hn⟩) (acc1 c n (Nat.lt_of_succ_lt hn))

theorem acc1_zero (c : Dev nD) (hn : 0 < cfg1.N) :
    acc1 V c 0 hn = accA (iblk1 V c 0 ⟨0, hn⟩) (iblk1 V c 1 ⟨0, hn⟩) := rfl
theorem acc1_succ (c : Dev nD) (n : ℕ) (hn : n + 1 < cfg1.N) :
    acc1 V c (n + 1) hn = accB (iblk1 V c 0 ⟨n + 1, hn⟩) (acc1 V c n (Nat.lt_of_succ_lt hn)) := rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.Kernel.Hand

end
-- ==== Proof.Bits.KChain.lean ====
/-
  The contents of the kernel program's unscoped buffers on each core at the boundaries of its five segments: at
  launch; after the first stretch of host lines; after the first region, which changes the 4096 × 4096 matrix only;
  after the second stretch; after the second region, which changes the 1 × 1 sum only; after the last stretch.
-/
import proofs.«418415_j74801150427885_3_alg».proof.Proof.Bits.KDefs
import Idealize.ShloMosaic.Lib.StableHlo.Run

noncomputable section

namespace Cert.Kernel.Hand

open Idealize.ShloMosaic Idealize.ShloMosaic.TcCoe
open Idealize.SL Idealize.SL.RA Idealize.SL.Sem
open Idealize.ShloMosaic.Pipeline (Dat)
open Cert.Kernel Cert.Kernel.Gen

variable {F : FTy → Type} [FloatOps F]

variable (m : (ℓ : Loc nD τ sig) → Buf (Elt F) ℓ)

/-- At launch. -/
abbrev W0 : Dev nD → Valuation τ sig (Elt F) := fun c b => m ((c : Dev nD), b)
/-- After the first stretch of host lines: what the first region finds. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c (Proc.devRef .tc b)
/-- After the first region: its result matrix at what the write-backs leave, everything else as found. -/
def W2 (c : Dev nD) : Valuation τ sig (Elt F) :=
  Function.update (W1 m c) (Proc.devRef .tc main_v12) ((dat0 (V1 m) c).arrAt 6 cfg0.N)
/-- After the second stretch: what the second region finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c (Proc.devRef .tc b)
/-- After the second region: its 1 × 1 result at what the last write-back leaves, everything else as found. -/
def W4 (c : Dev nD) : Valuation τ sig (Elt F) :=
  Function.update (W3 m c) (Proc.devRef .tc main_v14) ((dat1 (V3 m) c).arrAt 2 cfg1.N)
/-- After the last stretch: the final contents. -/
abbrev W5 : Dev nD → Valuation τ sig (Elt F) := fun c => StableHlo.after hostOps2 (W4 m c)

theorem W2_v12 (c : Dev nD) : W2 m c (Proc.devRef .tc main_v12) = (dat0 (V1 m) c).arrAt 6 cfg0.N := by
  unfold W2; exact Function.update_self ..
theorem W2_of_ne (c : Dev nD) (b : Ref sig .tc) (hb : b ≠ main_v12) :
    W2 m c (Proc.devRef .tc b) = W1 m c (Proc.devRef .tc b) := by
  unfold W2; exact Function.update_of_ne (StableHlo.devRef_ne_of_ne hb) ..
theorem W4_v14 (c : Dev nD) : W4 m c (Proc.devRef .tc main_v14) = (dat1 (V3 m) c).arrAt 2 cfg1.N := by
  unfold W4; exact Function.update_self ..
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) ..

end Cert.Kernel.Hand

end
-- ==== Proof.Bits.K0Body.lean ====
/-
  The body obligation of the first pipelined region: at every point of the 16 × 16 grid the body, handed the six input
  windows' staging buffers at their blocks and the output window's staging buffer at anything, leaves the inputs as they
  were and the output buffer at `blk0` of the six blocks.
-/
import proofs.«418415_j74801150427885_3_alg».proof.Proof.Bits.KDefs
import Idealize.ShloMosaic.Lib.Tactic
import Idealize.ShloMosaic.Lib.Pipeline.FrameBody
import Idealize.ShloMosaic.Lib.Pipeline.Value
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the store go through the whole-block rectangle at offset zero -/

/-- The offsets of every access, spelt as the constant zero. -/
theorem hz2 : (![0, 0] : Fin 2 → Nat) = fun _ => 0 := funext fun a => by fin_cases a <;> rfl

/-- The rectangle of the one store: the whole 256 × 256 block. -/
abbrev rA : Rect S256x256 := Rect.unit (s := S256x256) ![0, 0] S256x256.size Facts₀.inb_S256x256_S256x256_0_0

/-- The one store covers the output block. -/
theorem cover0 (p0 : Vec F S256x256 .f32) (y : S256x256.Idx) :
    ∃ pc ∈ ([⟨rA, p0⟩] : List (View.Piece (Elt F) S256x256 .f32)), y ∈ pc.1.set :=
  ⟨_, List.mem_singleton_self _, View.mem_set_unit_zero (S := S256x256) hz2 Facts₀.inb_S256x256_S256x256_0_0 y⟩

/-! ## The body's triple -/

set_option maxHeartbeats 1000000 in
/-- The body on whole staging memrefs, the six inputs' at read contents `x0 … x5` and the output's at anything, runs to the
    continuation holding the inputs' as they were and the output's at `blk0 x0 … x5`: each load through the whole-block
    rectangle reads the buffer's contents, the value loaded from the output buffer is dropped, and the one store over the
    whole block leaves its payload, which is `blk0` of the six loaded blocks. -/
theorem sound_kernel0 (c : Dev nD) (E : Set ℕ) (i : grid0.Coords)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x1 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x256 .f32) (harg8 : arg8.IsWhole)
    (x0 x1 x2 : Vec F S256x256 .bf16) (x3 : Vec F S256x1 .f32) (x4 x5 : Vec F S1x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (blk0 x0 x1 x2 x3 x4 x5)) -∗ K ⟨⟩))
      ⊢ wp frame (wpE (defs₀ (F := F)) Variants.none c none) E
          (cc0__kernel_a i arg2 harg2 arg3 harg3 arg4 harg4 arg5 harg5 arg6 harg6 arg7 harg7 arg8 harg8) K := by
  simp only [cc0__kernel_a_eq_skeleton, k0_part1_eq_skeleton, k0_part2_eq_skeleton]
  unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0 _), View.canon_unit_zero (S := S256x256) hz2]
  sl_unfold_words
  unfold blk0
  simp only [View.readAt_eq_ld, View.ld_unit_zero (S := S256x256) hz2, View.ld_unit_zero (S := S256x1) hz2,
    View.ld_unit_zero (S := S1x256) hz2]

/-! ## What the body finds in the input windows' buffers -/

/-- Input window 0 is uncut, never idle, and the body leaves its block in place: its current staging buffer holds the
    window's block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 is uncut, never idle, and the body leaves its block in place: its current staging buffer holds the
    window's block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 is uncut, never idle, and the body leaves its block in place: its current staging buffer holds the
    window's block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 is uncut, never idle, and the body leaves its block in place: its current staging buffer holds the
    window's block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4 is uncut, never idle, and the body leaves its block in place: its current staging buffer holds the
    window's block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- Input window 5 is uncut, never idle, and the body leaves its block in place: its current staging buffer holds the
    window's block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 0, at every point. -/
theorem body_obligation0 (c : Dev nD) :
    Idealize.ShloMosaic.Pipeline.BodyObligation (dat0 (F := F) V c) (defs₀ (F := F)) Variants.none () Set.univ := fun t => by
  rw [bigSep_W0, bigSep_W0]
  exact sound_body0 V c t

end Cert.Kernel.Hand

end
-- ==== Proof.Bits.K1Body.lean ====
/-
  The body obligation of the second pipelined region: sixteen points run in order over 256-row slabs, the running
  sum kept in the 1 × 1 output block from point to point.  The body branches three times on the grid coordinate;
  on the grid only two combinations occur — the first point (zero the block, then add the slab's partial sum and the
  labels' correction) and every later point (add the slab's partial sum to what the point before left).  Each
  combination's triple is proved over arbitrary whole buffers with the stored value read back in closed form, and
  the obligation at a point follows from what the windows' buffers hold there.
-/
import proofs.«418415_j74801150427885_3_alg».proof.Proof.Bits.KDefs
import Idealize.ShloMosaic.Lib.Tactic
import Idealize.ShloMosaic.Lib.Pipeline.FrameBody
import Idealize.ShloMosaic.Lib.Pipeline.Frame
import Idealize.ShloMosaic.Lib.Pipeline.Value
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions of the body, in closed form over the grid -/

/-- The first condition holds at the first point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- So does the second. -/
theorem hcond1_2 : ∀ t : Fin cfg1.N, k1_cond2 (grid1.coords t) = 1#1 ↔ t.val = 0 :=
  (by decide +kernel : ∀ t : Fin grid1.N, k1_cond2 (grid1.coords t) = 1#1 ↔ t.val = 0)
/-- The third holds at every other point. -/
theorem hcond1_3 : ∀ t : Fin cfg1.N, k1_cond3 (grid1.coords t) = 1#1 ↔ t.val ≠ 0 :=
  (by decide +kernel : ∀ t : Fin grid1.N, k1_cond3 (grid1.coords t) = 1#1 ↔ t.val ≠ 0)

/-- Whatever the coordinate, the first or the third condition holds: the output block is stored into at every point. -/
theorem live1_2 : ∀ i : grid1.Coords, cfg1.idle 2 i = false :=
  (by decide +kernel : ∀ i : grid1.Coords, idle1 2 i = false)

/-- The offsets of a whole-buffer access are zero. -/
theorem hz2b : (![0, 0] : Fin 2 → ℕ) = fun _ => 0 := by
  funext a; fin_cases a <;> rfl

/-! ## The body's triple, case by case -/

set_option maxHeartbeats 1000000 in
/-- A LATER POINT (only the third condition holds). On whole buffers — the slab's at `x0`, the labels' at `x1`, the
    output block's at what the point before left, `p` — the body runs to the continuation holding the two inputs'
    as they were and the output block's at `accB x0 p`: its one store covers the block, and both loads read it whole. -/
theorem runB (c : Dev nD) (E : Set ℕ) (i : grid1.Coords)
    (arg1 : Memref sig .tc .vmem S256x4096 .f32) (harg1 : arg1.IsWhole)
    (arg2 : Memref sig .tc .vmem S1x4096 .f32) (harg2 : arg2.IsWhole)
    (arg3 : Memref sig .tc .vmem S1x1 .f32) (harg3 : arg3.IsWhole)
    (hc1 : ¬k1_cond1 i = 1#1) (hc2 : ¬k1_cond2 i = 1#1) (hc3 : k1_cond3 i = 1#1)
    (x0 : Vec F S256x4096 .f32) (x1 : Vec F S1x4096 .f32) (p : Vec F S1x1 .f32) (K : PUnit → sProp 𝕄) :
    iprop(owns (c : Thread nD τ) arg1 fullShare x0 ∗ owns (c : Thread nD τ) arg2 fullShare x1
        ∗ owns (c : Thread nD τ) arg3 fullShare p
        ∗ (iprop(owns (c : Thread nD τ) arg1 fullShare x0 ∗ owns (c : Thread nD τ) arg2 fullShare x1
            ∗ owns (c : Thread nD τ) arg3 fullShare (accB x0 p)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero (S := S1x1) hz2b inb_S1x1_S1x1_0_0 y⟩),
    View.canon_unit_zero hz2b]
  unfold accB
  simp only [View.readAt_eq_ld, View.ld_unit_zero (S := S256x4096) hz2b, View.ld_unit_zero (S := S1x1) hz2b]

set_option maxHeartbeats 1000000 in
/-- THE FIRST POINT (the first two conditions hold, the third fails). On whole buffers — the slab's at `x0`, the
    labels' at `x1`, the output block's at anything — the body runs to the continuation holding the two inputs' as they
    were and the output block's at `accA x0 x1`: the block is first stored at zero, the zero is read back, and the
    second store, which covers the block, puts the first partial sum there. -/
theorem runA (c : Dev nD) (E : Set ℕ) (i : grid1.Coords)
    (arg1 : Memref sig .tc .vmem S256x4096 .f32) (harg1 : arg1.IsWhole)
    (arg2 : Memref sig .tc .vmem S1x4096 .f32) (harg2 : arg2.IsWhole)
    (arg3 : Memref sig .tc .vmem S1x1 .f32) (harg3 : arg3.IsWhole)
    (hc1 : k1_cond1 i = 1#1) (hc2 : k1_cond2 i = 1#1) (hc3 : ¬k1_cond3 i = 1#1)
    (x0 : Vec F S256x4096 .f32) (x1 : Vec F S1x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accA x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero (S := S1x1) hz2b inb_S1x1_S1x1_0_0 y⟩),
    View.canon_cons_unit_zero (S := S1x1) hz2b]
  unfold accA
  sl_unfold_words
  simp only [View.readAt_eq_ld, View.ld_unit_zero (S := S256x4096) hz2b, View.ld_unit_zero (S := S1x4096) hz2b,
    View.readCov_unit_zero (S := S1x1) _ hz2b]

/-! ## What the windows' current buffers hold when the body is called -/

variable (V : (c : Dev nD) → (b : Ref sig .tc) → Buf (Elt F) ((c : Thread nD τ).loc b))

/-- The slab window's current buffer holds the point's slab: it is fetched at every point and only read. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The labels window's current buffer holds the labels at every point: fetched at the first, its block index never
    moves and the body only reads it. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a later point the output block's buffer holds what the body left at the point before: the block is written
    back at the last point only, and the body stores into it at every point. -/
theorem before1_2 (c : Dev nD) (t : Fin cfg1.N) (h0 : t.val ≠ 0) (d) :
    (dat1 V c).before 2 t d = acc1 V c (t.val - 1) (Nat.lt_of_le_of_lt (Nat.sub_le _ _) t.isLt) := by
  have hN : t.val < 16 := lt_of_lt_of_eq t.isLt (show cfg1.N = 16 from N_1)
  rw [Dat.before_out_kept _ 2 rfl t h0 (Bool.eq_false_iff.mpr fun h => by have := (flush1_2 _).mp h; dsimp only at this; omega)
    live1_2 (fun _ _ => rfl)]
  dsimp only [dat1]

/-- The running sum at the first point. -/
theorem acc1_first (c : Dev nD) (t : Fin cfg1.N) (h0 : t.val = 0) :
    acc1 V c t.val t.isLt = accA (iblk1 V c 0 t) (iblk1 V c 1 t) := by
  obtain ⟨n, hn⟩ := t
  cases n with
  | zero => exact rfl
  | succ n => exact absurd h0 (Nat.succ_ne_zero n)

/-- The running sum at a later point, from the point before. -/
theorem acc1_later (c : Dev nD) (t : Fin cfg1.N) (h0 : t.val ≠ 0) :
    acc1 V c t.val t.isLt = accB (iblk1 V c 0 t) (acc1 V c (t.val - 1) (Nat.lt_of_le_of_lt (Nat.sub_le _ _) t.isLt)) := by
  obtain ⟨n, hn⟩ := t
  cases n with
  | zero => exact absurd rfl h0
  | succ n => exact rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; at the first point the first two conditions hold and
    the third fails, at a later point the other way round, where the output block's buffer holds the running sum the
    point before left; the matching triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [acc1_first V c t h0]
    iintro ⟨HΦ, Ho, ⟨%d0, H0⟩, ⟨%d1, H1⟩, ⟨%d2, H2⟩⟩
    iapply (runA c Set.univ (grid1.coords t) _ _ _ _ _ _ ((hcond1_1 t).mpr h0) ((hcond1_2 t).mpr h0)
      (fun h => (hcond1_3 t).mp h h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_later V c t h0]
    simp only [before1_2 V c t h0]
    iintro ⟨HΦ, Ho, ⟨%d0, H0⟩, ⟨%d1, H1⟩, ⟨%d2, H2⟩⟩
    iapply (runB c Set.univ (grid1.coords t) _ _ _ _ _ _ (fun h => h0 ((hcond1_1 t).mp h)) (fun h => h0 ((hcond1_2 t).mp h))
      ((hcond1_3 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the second pipelined region, at every point. -/
theorem body_obligation1 (c : Dev nD) :
    Idealize.ShloMosaic.Pipeline.BodyObligation (dat1 (F := F) V c) (defs₀ (F := F)) Variants.none () Set.univ := fun t => by
  rw [bigSep_W1, bigSep_W1]
  rw [live1_2 (cfg1.grid.coords t)]
  exact sound_body1 V c t

end Cert.Kernel.Hand

end
-- ==== Proof.Bits.K0Share.lean ====
/-
  Region 0's seven windows read five buffers: the doubled second matrix and the doubled second norms are each read
  through two windows.  The five buffers, each whole at the full share, are the same resource as the seven windows'
  arrays at the shares the region's proof data names: the two buffers read twice are held as the left and the right
  half of the full share, one half per window, and a full share is the composite of its two halves.
-/
import proofs.«418415_j74801150427885_3_alg».proof.Proof.Bits.KDefs
import Idealize.ShloMosaic.Lib.Pipeline.Kit
import Idealize.ShloMosaic.Lib.Pipeline.Launch
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The five buffers behind the seven windows, one by one, each named by the first window that reads it. -/
theorem k0share_arrBufs (c : Dev nD) (Vc : (b : Ref sig .tc) → Buf (Elt F) ((c : Thread nD τ).loc b)) :
    (Pipeline.arrBufs spec0 c Vc : sProp 𝕄)
      = bigSepL [Pipeline.arrRef spec0 0, Pipeline.arrRef spec0 1, Pipeline.arrRef spec0 3, Pipeline.arrRef spec0 4, Pipeline.arrRef spec0 6]
          fun b => (((c : Thread nD τ).loc b) ↦{fullShare} Vc b) := by
  unfold Pipeline.arrBufs
  exact bigSep_eq_bigSepL_of_eq _ (by decide) (by decide) _

/-- The windows' arrays, each a whole buffer, at the contents of the buffer behind it. -/
theorem k0share_arrays (V : (c : Dev nD) → (b : Ref sig .tc) → Buf (Elt F) ((c : Thread nD τ).loc b)) (c : Dev nD)
    (Vc : (b : Ref sig .tc) → Buf (Elt F) ((c : Thread nD τ).loc b)) :
    ((dat0 V c).arrays (fun w => Vc (Pipeline.arrRef spec0 w)) : sProp 𝕄)
      = bigSep Finset.univ fun w : Fin 7 => (((c : Thread nD τ).loc (Pipeline.arrRef spec0 w)) ↦{(dat0 V c).share w} Vc (Pipeline.arrRef spec0 w)) := by
  unfold Dat.arrays
  exact bigSep_congr fun w _ => by rw [(arr_whole0 w).set_eq_univ]

section Shares
variable (V : (c : Dev nD) → (b : Ref sig .tc) → Buf (Elt F) ((c : Thread nD τ).loc b)) (c : Dev nD)
theorem k0share_q0 : (dat0 V c).share 0 = fullShare := rfl
theorem k0share_q1 : (dat0 V c).share 1 = fullShare.left := rfl
theorem k0share_q2 : (dat0 V c).share 2 = fullShare.right := rfl
theorem k0share_q3 : (dat0 V c).share 3 = fullShare := rfl
theorem k0share_q4 : (dat0 V c).share 4 = fullShare.left := rfl
theorem k0share_q5 : (dat0 V c).share 5 = fullShare.right := rfl
theorem k0share_q6 : (dat0 V c).share 6 = fullShare := rfl
end Shares

/-- Seven holders over five buffers: the second and the fourth buffer each split into halves, the rest as they are. -/
theorem k0share_split (c : Dev nD) (Vc : (b : Ref sig .tc) → Buf (Elt F) ((c : Thread nD τ).loc b))
    (r0 r1 r2 r3 r4 r5 r6 : Ref sig .tc) (h21 : r2 = r1) (h54 : r5 = r4) :
    (iprop((((c : Thread nD τ).loc r0) ↦{fullShare} Vc r0) ∗ (((c : Thread nD τ).loc r1) ↦{fullShare} Vc r1)
        ∗ (((c : Thread nD τ).loc r3) ↦{fullShare} Vc r3) ∗ (((c : Thread nD τ).loc r4) ↦{fullShare} Vc r4)
        ∗ (((c : Thread nD τ).loc r6) ↦{fullShare} Vc r6)) : sProp 𝕄)
      ⊢ iprop((((c : Thread nD τ).loc r0) ↦{fullShare} Vc r0) ∗ (((c : Thread nD τ).loc r1) ↦{fullShare.left} Vc r1)
        ∗ (((c : Thread nD τ).loc r2) ↦{fullShare.right} Vc r2) ∗ (((c : Thread nD τ).loc r3) ↦{fullShare} Vc r3)
        ∗ (((c : Thread nD τ).loc r4) ↦{fullShare.left} Vc r4) ∗ (((c : Thread nD τ).loc r5) ↦{fullShare.right} Vc r5)
        ∗ (((c : Thread nD τ).loc r6) ↦{fullShare} Vc r6)) := by
  subst h21 h54
  iintro ⟨H0, H1, H3, H4, H6⟩
  ihave H1' := (pointsTo_share (PosShare.mem_left_op_right fullShare)).1 $$ H1
  icases H1' with ⟨H1l, H1r⟩
  ihave H4' := (pointsTo_share (PosShare.mem_left_op_right fullShare)).1 $$ H4
  icases H4' with ⟨H4l, H4r⟩
  isplitl [H0]; · iexact H0
  isplitl [H1l]; · iexact H1l
  isplitl [H1r]; · iexact H1r
  isplitl [H3]; · iexact H3
  isplitl [H4l]; · iexact H4l
  isplitl [H4r]; · iexact H4r
  iexact H6

/-- And back: the halves joined. -/
theorem k0share_join (c : Dev nD) (Vc : (b : Ref sig .tc) → Buf (Elt F) ((c : Thread nD τ).loc b))
    (r0 r1 r2 r3 r4 r5 r6 : Ref sig .tc) (h21 : r2 = r1) (h54 : r5 = r4) :
    (iprop((((c : Thread nD τ).loc r0) ↦{fullShare} Vc r0) ∗ (((c : Thread nD τ).loc r1) ↦{fullShare.left} Vc r1)
        ∗ (((c : Thread nD τ).loc r2) ↦{fullShare.right} Vc r2) ∗ (((c : Thread nD τ).loc r3) ↦{fullShare} Vc r3)
        ∗ (((c : Thread nD τ).loc r4) ↦{fullShare.left} Vc r4) ∗ (((c : Thread nD τ).loc r5) ↦{fullShare.right} Vc r5)
        ∗ (((c : Thread nD τ).loc r6) ↦{fullShare} Vc r6)) : sProp 𝕄)
      ⊢ iprop((((c : Thread nD τ).loc r0) ↦{fullShare} Vc r0) ∗ (((c : Thread nD τ).loc r1) ↦{fullShare} Vc r1)
        ∗ (((c : Thread nD τ).loc r3) ↦{fullShare} Vc r3) ∗ (((c : Thread nD τ).loc r4) ↦{fullShare} Vc r4)
        ∗ (((c : Thread nD τ).loc r6) ↦{fullShare} Vc r6)) := by
  subst h21 h54
  iintro ⟨H0, H1l, H1r, H3, H4l, H4r, H6⟩
  isplitl [H0]; · iexact H0
  isplitl [H1l H1r]
  · iapply (pointsTo_share (PosShare.mem_left_op_right fullShare)).2
    isplitl [H1l]; · iexact H1l
    iexact H1r
  isplitl [H3]; · iexact H3
  isplitl [H4l H4r]
  · iapply (pointsTo_share (PosShare.mem_left_op_right fullShare)).2
    isplitl [H4l]; · iexact H4l
    iexact H4r
  iexact H6

/-- The five buffers, each whole at the full share, are the seven windows' arrays at their shares. -/
theorem arrays_split0 (V : (c : Dev nD) → (b : Ref sig .tc) → Buf (Elt F) ((c : Thread nD τ).loc b)) (c : Dev nD)
    (Vc : (b : Ref sig .tc) → Buf (Elt F) ((c : Thread nD τ).loc b))
    (G : (w : Fin cfg0.W) → Buf (Elt F) ((spec0 w).arr.view.loc (c : Thread nD τ))) (hG : ∀ w, G w = Vc (Pipeline.arrRef spec0 w)) :
    (Pipeline.arrBufs spec0 c Vc : sProp 𝕄) ⊢ (dat0 V c).arrays G := by
  obtain rfl : G = fun w => Vc (Pipeline.arrRef spec0 w) := funext hG
  rw [k0share_arrBufs, k0share_arrays, bigSep_W0]
  simp only [k0share_q0, k0share_q1, k0share_q2, k0share_q3, k0share_q4, k0share_q5, k0share_q6, bigSepL_cons_cons, bigSepL_singleton]
  exact k0share_split c Vc (Pipeline.arrRef spec0 0) (Pipeline.arrRef spec0 1) (Pipeline.arrRef spec0 2) (Pipeline.arrRef spec0 3) (Pipeline.arrRef spec0 4) (Pipeline.arrRef spec0 5) (Pipeline.arrRef spec0 6) rfl rfl

/-- And the seven windows' arrays at their shares are the five buffers, each whole at the full share. -/
theorem arrays_join0 (V : (c : Dev nD) → (b : Ref sig .tc) → Buf (Elt F) ((c : Thread nD τ).loc b)) (c : Dev nD)
    (Vc : (b : Ref sig .tc) → Buf (Elt F) ((c : Thread nD τ).loc b))
    (G : (w : Fin cfg0.W) → Buf (Elt F) ((spec0 w).arr.view.loc (c : Thread nD τ))) (hG : ∀ w, G w = Vc (Pipeline.arrRef spec0 w)) :
    (dat0 V c).arrays G ⊢ (Pipeline.arrBufs spec0 c Vc : sProp 𝕄) := by
  obtain rfl : G = fun w => Vc (Pipeline.arrRef spec0 w) := funext hG
  rw [k0share_arrBufs, k0share_arrays, bigSep_W0]
  simp only [k0share_q0, k0share_q1, k0share_q2, k0share_q3, k0share_q4, k0share_q5, k0share_q6, bigSepL_cons_cons, bigSepL_singleton]
  exact k0share_join c Vc (Pipeline.arrRef spec0 0) (Pipeline.arrRef spec0 1) (Pipeline.arrRef spec0 2) (Pipeline.arrRef spec0 3) (Pipeline.arrRef spec0 4) (Pipeline.arrRef spec0 5) (Pipeline.arrRef spec0 6) rfl rfl

end Cert.Kernel.Hand

end
-- ==== Proof.Bits.KRun.lean ====
/-
  The run of the kernel program's @main: fourteen host lines, the first pipelined region, one host line, the second
  pipelined region, two host lines; every weakly fair execution from any memory with zero counters terminates, and in
  every final state each unscoped buffer of each core holds what the fold through the five segments computes.
-/
import proofs.«418415_j74801150427885_3_alg».proof.Proof.Bits.KDefs
import proofs.«418415_j74801150427885_3_alg».proof.Proof.Bits.KChain
import proofs.«418415_j74801150427885_3_alg».proof.Proof.Bits.K0Body
import proofs.«418415_j74801150427885_3_alg».proof.Proof.Bits.K1Body
import proofs.«418415_j74801150427885_3_alg».proof.Proof.Bits.K0Share
import proofs.«418415_j74801150427885_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no segment writes ends as launched -/

/-- A buffer that no host line writes and that is neither region's result holds at the end what it held at launch. -/
theorem W5_of (c : Dev nD) (r : Ref sig .tc) (h5 : r ∉ hostOps2_W) (h4 : r ≠ main_v14) (h3 : r ∉ hostOps1_W)
    (h2 : r ≠ main_v12) (h1 : r ∉ hostOps0_W) : W5 m c (Proc.devRef .tc r) = m ((c : Thread nD τ).loc r) :=
  calc W5 m c (Proc.devRef .tc r)
    _ = W4 m c (Proc.devRef .tc r) := StableHlo.after_of_writes_sub hostOps2 _ hostOps2_writes h5
    _ = W3 m c (Proc.devRef .tc r) := W4_of_ne m c r h4
    _ = W2 m c (Proc.devRef .tc r) := StableHlo.after_of_writes_sub hostOps1 _ hostOps1_writes h3
    _ = W1 m c (Proc.devRef .tc r) := W2_of_ne m c r h2
    _ = W0 m c (Proc.devRef .tc r) := StableHlo.after_of_writes_sub hostOps0 _ hostOps0_writes h1
    _ = m ((c : Thread nD τ).loc r) := rfl

theorem W5_main_arg0 (c : Dev nD) : W5 m c (Proc.devRef .tc main_arg0) = m ((c : Thread nD τ).loc main_arg0) :=
  W5_of m c main_arg0 (by decide) (by decide) (by decide) (by decide) (by decide)
theorem W5_main_arg1 (c : Dev nD) : W5 m c (Proc.devRef .tc main_arg1) = m ((c : Thread nD τ).loc main_arg1) :=
  W5_of m c main_arg1 (by decide) (by decide) (by decide) (by decide) (by decide)
theorem W5_main_arg2 (c : Dev nD) : W5 m c (Proc.devRef .tc main_arg2) = m ((c : Thread nD τ).loc main_arg2) :=
  W5_of m c main_arg2 (by decide) (by decide) (by decide) (by decide) (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host lines as a segment: over the unscoped references from the contents `W`, `R` riding along; it
    leaves those references at the contents after the lines. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W5 m c) ∗ ∃ r, prngReg c r)

/-! ## Region 0: its arrays out of the unscoped buffers and back -/

/-- At the first region's exit each window's array holds what the exit contents say: an input's as entered, the
    result's at what the write-backs leave. -/
theorem exit0 (c : Dev nD) : ∀ w : Fin cfg0.W, (dat0 (V1 m) c).arrAt w cfg0.N = W2 m c (Proc.devRef .tc (Pipeline.arrRef spec0 w))
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => ((dat0 (V1 m) c).arrAt_in 4 rfl _).trans ((A_eq0 (V1 m) c 4).trans (W2_of_ne m c _ (by decide)).symm)
  | ⟨5, _⟩ => ((dat0 (V1 m) c).arrAt_in 5 rfl _).trans ((A_eq0 (V1 m) c 5).trans (W2_of_ne m c _ (by decide)).symm)
  | ⟨6, _⟩ => (W2_v12 m c).symm
  | ⟨_ + 7, h⟩ => absurd h (Nat.not_lt.2 (Nat.le_add_left _ _))

/-- Entering the first region: all the unscoped buffers at the entry contents are the windows' arrays, dealt among
    the windows, and the buffers that are no window's array. -/
theorem enter0 (c : Dev nD) :
    (StableHlo.held (c : Thread nD τ) (Pipeline.ucRefs τ sig) (W1 m c) : sProp 𝕄)
      ⊢ iprop((dat0 (V1 m) c).arrays ((dat0 (V1 m) c).arrAt · 0) ∗ Pipeline.unscopedRest spec0 c (V1 m c)) := by
  rw [← Pipeline.unscopedBufs_held (Ix := Unit) (Name := ℕ) (U := UR sig nD τ) (Lvl := ℕ) c (W1 m c)]
  rw [Pipeline.unscopedBufs_split₀ cfgs 0 winFacts₀0.arr_unscoped c (V1 m c)]
  exact sep_mono (arrays_split0 (V1 m) c (V1 m c) _ fun w => A_eq0 (V1 m) c w) .rfl

/-- Leaving it: the windows' holdings joined, with the buffers that are no window's array, are all the unscoped
    buffers at the exit contents. -/
theorem leave0 (c : Dev nD) :
    iprop((dat0 (V1 m) c).arrays ((dat0 (V1 m) c).arrAt · cfg0.N) ∗ Pipeline.unscopedRest spec0 c (V1 m c))
      ⊢ (StableHlo.held (c : Thread nD τ) (Pipeline.ucRefs τ sig) (W2 m c) : sProp 𝕄) := by
  have hZ : (Pipeline.unscopedRest spec0 c (V1 m c) : sProp 𝕄)
      = Pipeline.unscopedRest spec0 c (fun b => W2 m c (Proc.devRef .tc b)) := by
    unfold Pipeline.unscopedRest
    exact bigSep_congr fun b hb => by
      beta_reduce
      rw [W2_of_ne m c b fun e => (Finset.mem_sdiff.mp hb).2 (Finset.mem_image.mpr ⟨6, Finset.mem_univ _, e.symm⟩)]
  rw [← Pipeline.unscopedBufs_held (Ix := Unit) (Name := ℕ) (U := UR sig nD τ) (Lvl := ℕ) c (W2 m c)]
  rw [Pipeline.unscopedBufs_split₀ cfgs 0 winFacts₀0.arr_unscoped c (fun b => W2 m c (Proc.devRef .tc b)), hZ]
  exact sep_mono (arrays_join0 (V1 m) c (fun b => W2 m c (Proc.devRef .tc b)) _ (exit0 m c)) .rfl

/-! ## Region 1: its arrays are distinct buffers -/

/-- The second region's exit contents read at the TensorCore's references. -/
abbrev V4 : (c : Dev nD) → (b : Ref sig .tc) → Buf (Elt F) ((c : Thread nD τ).loc b) := fun c b => W4 m c (Proc.devRef .tc b)

/-- At the second region's exit each window's array holds what the exit contents say. -/
theorem exit1 (c : Dev nD) : ∀ w : Fin cfg1.W, (dat1 (V3 m) c).arrAt w cfg1.N = V4 m c (Pipeline.arrRef spec1 w)
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => (W4_v14 m c).symm
  | ⟨_ + 3, h⟩ => absurd h (Nat.not_lt.2 (Nat.le_add_left _ _))
/-- Every buffer that is no window's array is at the exit as at the entry. -/
theorem rest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ## The regions as segments -/

set_option backward.isDefEq.respectTransparency.types false in
/-- The first region over the thread state: entered from every unscoped buffer at `W1`, left at `W2`. Its arrays
    are dealt out of the unscoped buffers and joined back at the exit contents; the generator register goes into the
    pipeline's invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its arrays,
    distinct buffers, are split out of the unscoped buffers and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: at the compiled mesh, from any memory with zero counters, every weakly fair execution of @main on the
    TensorCores terminates, nothing faulting, and every final state has each unscoped buffer of each core at the last
    boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KDefs.lean ====
/-
  What the two pipelined regions of the kernel's program compute, point by point, and the proof data both the
  frame and the value proofs are stated over.

  Region 0 runs a 16 × 16 grid.  At a point its body reads six input blocks — a 256-row block of the first matrix, two
  consecutive 256-row blocks of the second matrix doubled along its rows, the matching block of the first norms and two
  consecutive blocks of the second norms doubled — and stores ONE 256 × 256 block: `blk0` of the six.  The doubled
  matrix and the doubled norms are each read through two windows, so each of those two arrays is held half by one
  window and half by the other.

  Region 1 runs 16 points in order over 256-row slabs of region 0's result and keeps a 1 × 1 running sum in its
  output block: the first point stores `accA` of its slab and the labels, every later point `accB` of its slab and
  what the point before left.
-/
import proofs.«418415_j74801150427885_3_alg».proof.Proof.Gen.KernelIdeal.Launch
import proofs.«418415_j74801150427885_3_alg».proof.Proof.Gen.KernelIdeal.Skeleton
import proofs.«418415_j74801150427885_3_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.Sem
open Idealize.ShloMosaic.Rounds
open Idealize.ShloMosaic.Pipeline (Dat)
open Cert.KernelIdeal Cert.KernelIdeal.Gen

variable {F : FTy → Type} [FloatOps F]

-- the buffer contents on each core when a region is entered: the parameter both regions are stated at
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row index of every entry of a 256 × 512 tile. -/
abbrev rowIota : IVec S256x512 32 := iota .tc S256x512 32 [0] Facts₀.iota_S256x512_d0_w32

/-- The 256 × 256 block region 0's body stores, from its six input blocks (in window order: the block of the first
    matrix, the two blocks of the doubled second matrix, the first norms, the two blocks of the doubled second norms). -/
def blk0 (x0 x1 x2 : Vec F S256x256 .bf16) (x3 : Vec F S256x1 .f32) (x4 x5 : Vec F S1x256 .f32) : Vec F S256x256 .f32 :=
  k0_pay1 (k0_pay3 rowIota (k0_pay2 x0 x1 x2 x4 x5 x3) 508#32) (k0_pay4 (F := F))

/-- The proof data of region 0 on core `c`: the arrays as the region finds them; after the body each input's buffer
    at its block and the output's at `blk0` of the point's input blocks; the scoped rest and the generator register
    untouched; nothing owed; the two arrays read through two windows each held in halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blk0 (iblk0 V c 0 t) (iblk0 V c 1 t) (iblk0 V c 2 t) (iblk0 V c 3 t) (iblk0 V c 4 t) (iblk0 V c 5 t)
  Φ _ := Pipeline.ΦA spec0 c
  q w := match w with
    | ⟨1, _⟩ => fullShare.left
    | ⟨2, _⟩ => fullShare.right
    | ⟨4, _⟩ => fullShare.left
    | ⟨5, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = blk0 (iblk0 V c 0 t) (iblk0 V c 1 t) (iblk0 V c 2 t) (iblk0 V c 3 t) (iblk0 V c 4 t) (iblk0 V c 5 t) := by
  dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the first point leaves in the 1 × 1 output block: zero, plus its slab's partial sum and the correction over the labels. -/
def accA (x0 : Vec F S256x4096 .f32) (lab : Vec F S1x4096 .f32) : Vec F S1x1 .f32 := k1_pay5 x0 lab (k1_pay1 (F := F))

/-- What a later point leaves: what it found, plus its slab's partial sum. -/
def accB (x0 : Vec F S256x4096 .f32) (prev : Vec F S1x1 .f32) : Vec F S1x1 .f32 := k1_pay6 x0 prev

/-- The running sum after the body at position `n`. -/
def acc1 (c : Dev nD) : (n : ℕ) → n < cfg1.N → Vec F S1x1 .f32
  | 0, hn => accA (iblk1 V c 0 ⟨0, hn⟩) (iblk1 V c 1 ⟨0, hn⟩)
  | n + 1, hn => accB (iblk1 V c 0 ⟨n + 1, hn⟩) (acc1 c n (Nat.lt_of_succ_lt hn))

theorem acc1_zero (c : Dev nD) (hn : 0 < cfg1.N) :
    acc1 V c 0 hn = accA (iblk1 V c 0 ⟨0, hn⟩) (iblk1 V c 1 ⟨0, hn⟩) := rfl
theorem acc1_succ (c : Dev nD) (n : ℕ) (hn : n + 1 < cfg1.N) :
    acc1 V c (n + 1) hn = accB (iblk1 V c 0 ⟨n + 1, hn⟩) (acc1 V c n (Nat.lt_of_succ_lt hn)) := rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

end Cert.KernelIdeal.Hand

end
-- ==== Proof.KChain.lean ====
/-
  The contents of the kernel program's unscoped buffers on each core at the boundaries of its five segments: at
  launch; after the first stretch of host lines; after the first region, which changes the 4096 × 4096 matrix only;
  after the second stretch; after the second region, which changes the 1 × 1 sum only; after the last stretch.
-/
import proofs.«418415_j74801150427885_3_alg».proof.Proof.KDefs
import Idealize.ShloMosaic.Lib.StableHlo.Run

noncomputable section

namespace Cert.KernelIdeal.Hand

open Idealize.ShloMosaic Idealize.ShloMosaic.TcCoe
open Idealize.SL Idealize.SL.RA Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- At launch. -/
abbrev W0 : Dev nD → Valuation τ sig (Elt F) := fun c b => m ((c : Dev nD), b)
/-- After the first stretch of host lines: what the first region finds. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c (Proc.devRef .tc b)
/-- After the first region: its result matrix at what the write-backs leave, everything else as found. -/
def W2 (c : Dev nD) : Valuation τ sig (Elt F) :=
  Function.update (W1 m c) (Proc.devRef .tc main_v12) ((dat0 (V1 m) c).arrAt 6 cfg0.N)
/-- After the second stretch: what the second region finds. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c (Proc.devRef .tc b)
/-- After the second region: its 1 × 1 result at what the last write-back leaves, everything else as found. -/
def W4 (c : Dev nD) : Valuation τ sig (Elt F) :=
  Function.update (W3 m c) (Proc.devRef .tc main_v14) ((dat1 (V3 m) c).arrAt 2 cfg1.N)
/-- After the last stretch: the final contents. -/
abbrev W5 : Dev nD → Valuation τ sig (Elt F) := fun c => StableHlo.after hostOps2 (W4 m c)

theorem W2_v12 (c : Dev nD) : W2 m c (Proc.devRef .tc main_v12) = (dat0 (V1 m) c).arrAt 6 cfg0.N := by
  unfold W2; exact Function.update_self ..
theorem W2_of_ne (c : Dev nD) (b : Ref sig .tc) (hb : b ≠ main_v12) :
    W2 m c (Proc.devRef .tc b) = W1 m c (Proc.devRef .tc b) := by
  unfold W2; exact Function.update_of_ne (StableHlo.devRef_ne_of_ne hb) ..
theorem W4_v14 (c : Dev nD) : W4 m c (Proc.devRef .tc main_v14) = (dat1 (V3 m) c).arrAt 2 cfg1.N := by
  unfold W4; exact Function.update_self ..
theorem W4_of_ne (c : Dev nD) (b : Ref sig .tc) (hb : b ≠ main_v14) :
    W4 m c (Proc.devRef .tc b) = W3 m c (Proc.devRef .tc b) := by
  unfold W4; exact Function.update_of_ne (StableHlo.devRef_ne_of_ne hb) ..

end Cert.KernelIdeal.Hand

end
-- ==== Proof.K0Body.lean ====
/-
  The body obligation of the first pipelined region: at every point of the 16 × 16 grid the body, handed the six input
  windows' staging buffers at their blocks and the output window's staging buffer at anything, leaves the inputs as they
  were and the output buffer at `blk0` of the six blocks.
-/
import proofs.«418415_j74801150427885_3_alg».proof.Proof.KDefs
import Idealize.ShloMosaic.Lib.Tactic
import Idealize.ShloMosaic.Lib.Pipeline.FrameBody
import Idealize.ShloMosaic.Lib.Pipeline.Value
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the store go through the whole-block rectangle at offset zero -/

/-- The offsets of every access, spelt as the constant zero. -/
theorem hz2 : (![0, 0] : Fin 2 → Nat) = fun _ => 0 := funext fun a => by fin_cases a <;> rfl

/-- The rectangle of the one store: the whole 256 × 256 block. -/
abbrev rA : Rect S256x256 := Rect.unit (s := S256x256) ![0, 0] S256x256.size Facts₀.inb_S256x256_S256x256_0_0

/-- The one store covers the output block. -/
theorem cover0 (p0 : Vec F S256x256 .f32) (y : S256x256.Idx) :
    ∃ pc ∈ ([⟨rA, p0⟩] : List (View.Piece (Elt F) S256x256 .f32)), y ∈ pc.1.set :=
  ⟨_, List.mem_singleton_self _, View.mem_set_unit_zero (S := S256x256) hz2 Facts₀.inb_S256x256_S256x256_0_0 y⟩

/-! ## The body's triple -/

set_option maxHeartbeats 1000000 in
/-- The body on whole staging memrefs, the six inputs' at read contents `x0 … x5` and the output's at anything, runs to the
    continuation holding the inputs' as they were and the output's at `blk0 x0 … x5`: each load through the whole-block
    rectangle reads the buffer's contents, the value loaded from the output buffer is dropped, and the one store over the
    whole block leaves its payload, which is `blk0` of the six loaded blocks. -/
theorem sound_kernel0 (c : Dev nD) (E : Set ℕ) (i : grid0.Coords)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x1 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x256 .f32) (harg8 : arg8.IsWhole)
    (x0 x1 x2 : Vec F S256x256 .bf16) (x3 : Vec F S256x1 .f32) (x4 x5 : Vec F S1x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (blk0 x0 x1 x2 x3 x4 x5)) -∗ K ⟨⟩))
      ⊢ wp frame (wpE (defs₀ (F := F)) Variants.none c none) E
          (cc0__kernel_a i arg2 harg2 arg3 harg3 arg4 harg4 arg5 harg5 arg6 harg6 arg7 harg7 arg8 harg8) K := by
  simp only [cc0__kernel_a_eq_skeleton, k0_part1_eq_skeleton, k0_part2_eq_skeleton]
  unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover0 _), View.canon_unit_zero (S := S256x256) hz2]
  sl_unfold_words
  unfold blk0
  simp only [View.readAt_eq_ld, View.ld_unit_zero (S := S256x256) hz2, View.ld_unit_zero (S := S256x1) hz2,
    View.ld_unit_zero (S := S1x256) hz2]

/-! ## What the body finds in the input windows' buffers -/

/-- Input window 0 is uncut, never idle, and the body leaves its block in place: its current staging buffer holds the
    window's block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 is uncut, never idle, and the body leaves its block in place: its current staging buffer holds the
    window's block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 is uncut, never idle, and the body leaves its block in place: its current staging buffer holds the
    window's block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 is uncut, never idle, and the body leaves its block in place: its current staging buffer holds the
    window's block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4 is uncut, never idle, and the body leaves its block in place: its current staging buffer holds the
    window's block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- Input window 5 is uncut, never idle, and the body leaves its block in place: its current staging buffer holds the
    window's block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 0, at every point. -/
theorem body_obligation0 (c : Dev nD) :
    Idealize.ShloMosaic.Pipeline.BodyObligation (dat0 (F := F) V c) (defs₀ (F := F)) Variants.none () Set.univ := fun t => by
  rw [bigSep_W0, bigSep_W0]
  exact sound_body0 V c t

end Cert.KernelIdeal.Hand

end
-- ==== Proof.K1Body.lean ====
/-
  The body obligation of the second pipelined region: sixteen points run in order over 256-row slabs, the running
  sum kept in the 1 × 1 output block from point to point.  The body branches three times on the grid coordinate;
  on the grid only two combinations occur — the first point (zero the block, then add the slab's partial sum and the
  labels' correction) and every later point (add the slab's partial sum to what the point before left).  Each
  combination's triple is proved over arbitrary whole buffers with the stored value read back in closed form, and
  the obligation at a point follows from what the windows' buffers hold there.
-/
import proofs.«418415_j74801150427885_3_alg».proof.Proof.KDefs
import Idealize.ShloMosaic.Lib.Tactic
import Idealize.ShloMosaic.Lib.Pipeline.FrameBody
import Idealize.ShloMosaic.Lib.Pipeline.Frame
import Idealize.ShloMosaic.Lib.Pipeline.Value
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions of the body, in closed form over the grid -/

/-- The first condition holds at the first point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- So does the second. -/
theorem hcond1_2 : ∀ t : Fin cfg1.N, k1_cond2 (grid1.coords t) = 1#1 ↔ t.val = 0 :=
  (by decide +kernel : ∀ t : Fin grid1.N, k1_cond2 (grid1.coords t) = 1#1 ↔ t.val = 0)
/-- The third holds at every other point. -/
theorem hcond1_3 : ∀ t : Fin cfg1.N, k1_cond3 (grid1.coords t) = 1#1 ↔ t.val ≠ 0 :=
  (by decide +kernel : ∀ t : Fin grid1.N, k1_cond3 (grid1.coords t) = 1#1 ↔ t.val ≠ 0)

/-- Whatever the coordinate, the first or the third condition holds: the output block is stored into at every point. -/
theorem live1_2 : ∀ i : grid1.Coords, cfg1.idle 2 i = false :=
  (by decide +kernel : ∀ i : grid1.Coords, idle1 2 i = false)

/-- The offsets of a whole-buffer access are zero. -/
theorem hz2b : (![0, 0] : Fin 2 → ℕ) = fun _ => 0 := by
  funext a; fin_cases a <;> rfl

/-! ## The body's triple, case by case -/

set_option maxHeartbeats 1000000 in
/-- A LATER POINT (only the third condition holds). On whole buffers — the slab's at `x0`, the labels' at `x1`, the
    output block's at what the point before left, `p` — the body runs to the continuation holding the two inputs'
    as they were and the output block's at `accB x0 p`: its one store covers the block, and both loads read it whole. -/
theorem runB (c : Dev nD) (E : Set ℕ) (i : grid1.Coords)
    (arg1 : Memref sig .tc .vmem S256x4096 .f32) (harg1 : arg1.IsWhole)
    (arg2 : Memref sig .tc .vmem S1x4096 .f32) (harg2 : arg2.IsWhole)
    (arg3 : Memref sig .tc .vmem S1x1 .f32) (harg3 : arg3.IsWhole)
    (hc1 : ¬k1_cond1 i = 1#1) (hc2 : ¬k1_cond2 i = 1#1) (hc3 : k1_cond3 i = 1#1)
    (x0 : Vec F S256x4096 .f32) (x1 : Vec F S1x4096 .f32) (p : Vec F S1x1 .f32) (K : PUnit → sProp 𝕄) :
    iprop(owns (c : Thread nD τ) arg1 fullShare x0 ∗ owns (c : Thread nD τ) arg2 fullShare x1
        ∗ owns (c : Thread nD τ) arg3 fullShare p
        ∗ (iprop(owns (c : Thread nD τ) arg1 fullShare x0 ∗ owns (c : Thread nD τ) arg2 fullShare x1
            ∗ owns (c : Thread nD τ) arg3 fullShare (accB x0 p)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero (S := S1x1) hz2b inb_S1x1_S1x1_0_0 y⟩),
    View.canon_unit_zero hz2b]
  unfold accB
  simp only [View.readAt_eq_ld, View.ld_unit_zero (S := S256x4096) hz2b, View.ld_unit_zero (S := S1x1) hz2b]

set_option maxHeartbeats 1000000 in
/-- THE FIRST POINT (the first two conditions hold, the third fails). On whole buffers — the slab's at `x0`, the
    labels' at `x1`, the output block's at anything — the body runs to the continuation holding the two inputs' as they
    were and the output block's at `accA x0 x1`: the block is first stored at zero, the zero is read back, and the
    second store, which covers the block, puts the first partial sum there. -/
theorem runA (c : Dev nD) (E : Set ℕ) (i : grid1.Coords)
    (arg1 : Memref sig .tc .vmem S256x4096 .f32) (harg1 : arg1.IsWhole)
    (arg2 : Memref sig .tc .vmem S1x4096 .f32) (harg2 : arg2.IsWhole)
    (arg3 : Memref sig .tc .vmem S1x1 .f32) (harg3 : arg3.IsWhole)
    (hc1 : k1_cond1 i = 1#1) (hc2 : k1_cond2 i = 1#1) (hc3 : ¬k1_cond3 i = 1#1)
    (x0 : Vec F S256x4096 .f32) (x1 : Vec F S1x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (accA x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero (S := S1x1) hz2b inb_S1x1_S1x1_0_0 y⟩),
    View.canon_cons_unit_zero (S := S1x1) hz2b]
  unfold accA
  sl_unfold_words
  simp only [View.readAt_eq_ld, View.ld_unit_zero (S := S256x4096) hz2b, View.ld_unit_zero (S := S1x4096) hz2b,
    View.readCov_unit_zero (S := S1x1) _ hz2b]

/-! ## What the windows' current buffers hold when the body is called -/

variable (V : (c : Dev nD) → (b : Ref sig .tc) → Buf (Elt F) ((c : Thread nD τ).loc b))

/-- The slab window's current buffer holds the point's slab: it is fetched at every point and only read. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The labels window's current buffer holds the labels at every point: fetched at the first, its block index never
    moves and the body only reads it. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a later point the output block's buffer holds what the body left at the point before: the block is written
    back at the last point only, and the body stores into it at every point. -/
theorem before1_2 (c : Dev nD) (t : Fin cfg1.N) (h0 : t.val ≠ 0) (d) :
    (dat1 V c).before 2 t d = acc1 V c (t.val - 1) (Nat.lt_of_le_of_lt (Nat.sub_le _ _) t.isLt) := by
  have hN : t.val < 16 := lt_of_lt_of_eq t.isLt (show cfg1.N = 16 from N_1)
  rw [Dat.before_out_kept _ 2 rfl t h0 (Bool.eq_false_iff.mpr fun h => by have := (flush1_2 _).mp h; dsimp only at this; omega)
    live1_2 (fun _ _ => rfl)]
  dsimp only [dat1]

/-- The running sum at the first point. -/
theorem acc1_first (c : Dev nD) (t : Fin cfg1.N) (h0 : t.val = 0) :
    acc1 V c t.val t.isLt = accA (iblk1 V c 0 t) (iblk1 V c 1 t) := by
  obtain ⟨n, hn⟩ := t
  cases n with
  | zero => exact rfl
  | succ n => exact absurd h0 (Nat.succ_ne_zero n)

/-- The running sum at a later point, from the point before. -/
theorem acc1_later (c : Dev nD) (t : Fin cfg1.N) (h0 : t.val ≠ 0) :
    acc1 V c t.val t.isLt = accB (iblk1 V c 0 t) (acc1 V c (t.val - 1) (Nat.lt_of_le_of_lt (Nat.sub_le _ _) t.isLt)) := by
  obtain ⟨n, hn⟩ := t
  cases n with
  | zero => exact absurd rfl h0
  | succ n => exact rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; at the first point the first two conditions hold and
    the third fails, at a later point the other way round, where the output block's buffer holds the running sum the
    point before left; the matching triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [acc1_first V c t h0]
    iintro ⟨HΦ, Ho, ⟨%d0, H0⟩, ⟨%d1, H1⟩, ⟨%d2, H2⟩⟩
    iapply (runA c Set.univ (grid1.coords t) _ _ _ _ _ _ ((hcond1_1 t).mpr h0) ((hcond1_2 t).mpr h0)
      (fun h => (hcond1_3 t).mp h h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_later V c t h0]
    simp only [before1_2 V c t h0]
    iintro ⟨HΦ, Ho, ⟨%d0, H0⟩, ⟨%d1, H1⟩, ⟨%d2, H2⟩⟩
    iapply (runB c Set.univ (grid1.coords t) _ _ _ _ _ _ (fun h => h0 ((hcond1_1 t).mp h)) (fun h => h0 ((hcond1_2 t).mp h))
      ((hcond1_3 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of the second pipelined region, at every point. -/
theorem body_obligation1 (c : Dev nD) :
    Idealize.ShloMosaic.Pipeline.BodyObligation (dat1 (F := F) V c) (defs₀ (F := F)) Variants.none () Set.univ := fun t => by
  rw [bigSep_W1, bigSep_W1]
  rw [live1_2 (cfg1.grid.coords t)]
  exact sound_body1 V c t

end Cert.KernelIdeal.Hand

end
-- ==== Proof.K0Share.lean ====
/-
  Region 0's seven windows read five buffers: the doubled second matrix and the doubled second norms are each read
  through two windows.  The five buffers, each whole at the full share, are the same resource as the seven windows'
  arrays at the shares the region's proof data names: the two buffers read twice are held as the left and the right
  half of the full share, one half per window, and a full share is the composite of its two halves.
-/
import proofs.«418415_j74801150427885_3_alg».proof.Proof.KDefs
import Idealize.ShloMosaic.Lib.Pipeline.Kit
import Idealize.ShloMosaic.Lib.Pipeline.Launch
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The five buffers behind the seven windows, one by one, each named by the first window that reads it. -/
theorem k0share_arrBufs (c : Dev nD) (Vc : (b : Ref sig .tc) → Buf (Elt F) ((c : Thread nD τ).loc b)) :
    (Pipeline.arrBufs spec0 c Vc : sProp 𝕄)
      = bigSepL [Pipeline.arrRef spec0 0, Pipeline.arrRef spec0 1, Pipeline.arrRef spec0 3, Pipeline.arrRef spec0 4, Pipeline.arrRef spec0 6]
          fun b => (((c : Thread nD τ).loc b) ↦{fullShare} Vc b) := by
  unfold Pipeline.arrBufs
  exact bigSep_eq_bigSepL_of_eq _ (by decide) (by decide) _

/-- The windows' arrays, each a whole buffer, at the contents of the buffer behind it. -/
theorem k0share_arrays (V : (c : Dev nD) → (b : Ref sig .tc) → Buf (Elt F) ((c : Thread nD τ).loc b)) (c : Dev nD)
    (Vc : (b : Ref sig .tc) → Buf (Elt F) ((c : Thread nD τ).loc b)) :
    ((dat0 V c).arrays (fun w => Vc (Pipeline.arrRef spec0 w)) : sProp 𝕄)
      = bigSep Finset.univ fun w : Fin 7 => (((c : Thread nD τ).loc (Pipeline.arrRef spec0 w)) ↦{(dat0 V c).share w} Vc (Pipeline.arrRef spec0 w)) := by
  unfold Dat.arrays
  exact bigSep_congr fun w _ => by rw [(arr_whole0 w).set_eq_univ]

section Shares
variable (V : (c : Dev nD) → (b : Ref sig .tc) → Buf (Elt F) ((c : Thread nD τ).loc b)) (c : Dev nD)
theorem k0share_q0 : (dat0 V c).share 0 = fullShare := rfl
theorem k0share_q1 : (dat0 V c).share 1 = fullShare.left := rfl
theorem k0share_q2 : (dat0 V c).share 2 = fullShare.right := rfl
theorem k0share_q3 : (dat0 V c).share 3 = fullShare := rfl
theorem k0share_q4 : (dat0 V c).share 4 = fullShare.left := rfl
theorem k0share_q5 : (dat0 V c).share 5 = fullShare.right := rfl
theorem k0share_q6 : (dat0 V c).share 6 = fullShare := rfl
end Shares

/-- Seven holders over five buffers: the second and the fourth buffer each split into halves, the rest as they are. -/
theorem k0share_split (c : Dev nD) (Vc : (b : Ref sig .tc) → Buf (Elt F) ((c : Thread nD τ).loc b))
    (r0 r1 r2 r3 r4 r5 r6 : Ref sig .tc) (h21 : r2 = r1) (h54 : r5 = r4) :
    (iprop((((c : Thread nD τ).loc r0) ↦{fullShare} Vc r0) ∗ (((c : Thread nD τ).loc r1) ↦{fullShare} Vc r1)
        ∗ (((c : Thread nD τ).loc r3) ↦{fullShare} Vc r3) ∗ (((c : Thread nD τ).loc r4) ↦{fullShare} Vc r4)
        ∗ (((c : Thread nD τ).loc r6) ↦{fullShare} Vc r6)) : sProp 𝕄)
      ⊢ iprop((((c : Thread nD τ).loc r0) ↦{fullShare} Vc r0) ∗ (((c : Thread nD τ).loc r1) ↦{fullShare.left} Vc r1)
        ∗ (((c : Thread nD τ).loc r2) ↦{fullShare.right} Vc r2) ∗ (((c : Thread nD τ).loc r3) ↦{fullShare} Vc r3)
        ∗ (((c : Thread nD τ).loc r4) ↦{fullShare.left} Vc r4) ∗ (((c : Thread nD τ).loc r5) ↦{fullShare.right} Vc r5)
        ∗ (((c : Thread nD τ).loc r6) ↦{fullShare} Vc r6)) := by
  subst h21 h54
  iintro ⟨H0, H1, H3, H4, H6⟩
  ihave H1' := (pointsTo_share (PosShare.mem_left_op_right fullShare)).1 $$ H1
  icases H1' with ⟨H1l, H1r⟩
  ihave H4' := (pointsTo_share (PosShare.mem_left_op_right fullShare)).1 $$ H4
  icases H4' with ⟨H4l, H4r⟩
  isplitl [H0]; · iexact H0
  isplitl [H1l]; · iexact H1l
  isplitl [H1r]; · iexact H1r
  isplitl [H3]; · iexact H3
  isplitl [H4l]; · iexact H4l
  isplitl [H4r]; · iexact H4r
  iexact H6

/-- And back: the halves joined. -/
theorem k0share_join (c : Dev nD) (Vc : (b : Ref sig .tc) → Buf (Elt F) ((c : Thread nD τ).loc b))
    (r0 r1 r2 r3 r4 r5 r6 : Ref sig .tc) (h21 : r2 = r1) (h54 : r5 = r4) :
    (iprop((((c : Thread nD τ).loc r0) ↦{fullShare} Vc r0) ∗ (((c : Thread nD τ).loc r1) ↦{fullShare.left} Vc r1)
        ∗ (((c : Thread nD τ).loc r2) ↦{fullShare.right} Vc r2) ∗ (((c : Thread nD τ).loc r3) ↦{fullShare} Vc r3)
        ∗ (((c : Thread nD τ).loc r4) ↦{fullShare.left} Vc r4) ∗ (((c : Thread nD τ).loc r5) ↦{fullShare.right} Vc r5)
        ∗ (((c : Thread nD τ).loc r6) ↦{fullShare} Vc r6)) : sProp 𝕄)
      ⊢ iprop((((c : Thread nD τ).loc r0) ↦{fullShare} Vc r0) ∗ (((c : Thread nD τ).loc r1) ↦{fullShare} Vc r1)
        ∗ (((c : Thread nD τ).loc r3) ↦{fullShare} Vc r3) ∗ (((c : Thread nD τ).loc r4) ↦{fullShare} Vc r4)
        ∗ (((c : Thread nD τ).loc r6) ↦{fullShare} Vc r6)) := by
  subst h21 h54
  iintro ⟨H0, H1l, H1r, H3, H4l, H4r, H6⟩
  isplitl [H0]; · iexact H0
  isplitl [H1l H1r]
  · iapply (pointsTo_share (PosShare.mem_left_op_right fullShare)).2
    isplitl [H1l]; · iexact H1l
    iexact H1r
  isplitl [H3]; · iexact H3
  isplitl [H4l H4r]
  · iapply (pointsTo_share (PosShare.mem_left_op_right fullShare)).2
    isplitl [H4l]; · iexact H4l
    iexact H4r
  iexact H6

/-- The five buffers, each whole at the full share, are the seven windows' arrays at their shares. -/
theorem arrays_split0 (V : (c : Dev nD) → (b : Ref sig .tc) → Buf (Elt F) ((c : Thread nD τ).loc b)) (c : Dev nD)
    (Vc : (b : Ref sig .tc) → Buf (Elt F) ((c : Thread nD τ).loc b))
    (G : (w : Fin cfg0.W) → Buf (Elt F) ((spec0 w).arr.view.loc (c : Thread nD τ))) (hG : ∀ w, G w = Vc (Pipeline.arrRef spec0 w)) :
    (Pipeline.arrBufs spec0 c Vc : sProp 𝕄) ⊢ (dat0 V c).arrays G := by
  obtain rfl : G = fun w => Vc (Pipeline.arrRef spec0 w) := funext hG
  rw [k0share_arrBufs, k0share_arrays, bigSep_W0]
  simp only [k0share_q0, k0share_q1, k0share_q2, k0share_q3, k0share_q4, k0share_q5, k0share_q6, bigSepL_cons_cons, bigSepL_singleton]
  exact k0share_split c Vc (Pipeline.arrRef spec0 0) (Pipeline.arrRef spec0 1) (Pipeline.arrRef spec0 2) (Pipeline.arrRef spec0 3) (Pipeline.arrRef spec0 4) (Pipeline.arrRef spec0 5) (Pipeline.arrRef spec0 6) rfl rfl

/-- And the seven windows' arrays at their shares are the five buffers, each whole at the full share. -/
theorem arrays_join0 (V : (c : Dev nD) → (b : Ref sig .tc) → Buf (Elt F) ((c : Thread nD τ).loc b)) (c : Dev nD)
    (Vc : (b : Ref sig .tc) → Buf (Elt F) ((c : Thread nD τ).loc b))
    (G : (w : Fin cfg0.W) → Buf (Elt F) ((spec0 w).arr.view.loc (c : Thread nD τ))) (hG : ∀ w, G w = Vc (Pipeline.arrRef spec0 w)) :
    (dat0 V c).arrays G ⊢ (Pipeline.arrBufs spec0 c Vc : sProp 𝕄) := by
  obtain rfl : G = fun w => Vc (Pipeline.arrRef spec0 w) := funext hG
  rw [k0share_arrBufs, k0share_arrays, bigSep_W0]
  simp only [k0share_q0, k0share_q1, k0share_q2, k0share_q3, k0share_q4, k0share_q5, k0share_q6, bigSepL_cons_cons, bigSepL_singleton]
  exact k0share_join c Vc (Pipeline.arrRef spec0 0) (Pipeline.arrRef spec0 1) (Pipeline.arrRef spec0 2) (Pipeline.arrRef spec0 3) (Pipeline.arrRef spec0 4) (Pipeline.arrRef spec0 5) (Pipeline.arrRef spec0 6) rfl rfl

end Cert.KernelIdeal.Hand

end
-- ==== Proof.KRun.lean ====
/-
  The run of the kernel program's @main: fourteen host lines, the first pipelined region, one host line, the second
  pipelined region, two host lines; every weakly fair execution from any memory with zero counters terminates, and in
  every final state each unscoped buffer of each core holds what the fold through the five segments computes.
-/
import proofs.«418415_j74801150427885_3_alg».proof.Proof.KDefs
import proofs.«418415_j74801150427885_3_alg».proof.Proof.KChain
import proofs.«418415_j74801150427885_3_alg».proof.Proof.K0Body
import proofs.«418415_j74801150427885_3_alg».proof.Proof.K1Body
import proofs.«418415_j74801150427885_3_alg».proof.Proof.K0Share
import proofs.«418415_j74801150427885_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no segment writes ends as launched -/

/-- A buffer that no host line writes and that is neither region's result holds at the end what it held at launch. -/
theorem W5_of (c : Dev nD) (r : Ref sig .tc) (h5 : r ∉ hostOps2_W) (h4 : r ≠ main_v14) (h3 : r ∉ hostOps1_W)
    (h2 : r ≠ main_v12) (h1 : r ∉ hostOps0_W) : W5 m c (Proc.devRef .tc r) = m ((c : Thread nD τ).loc r) :=
  calc W5 m c (Proc.devRef .tc r)
    _ = W4 m c (Proc.devRef .tc r) := StableHlo.after_of_writes_sub hostOps2 _ hostOps2_writes h5
    _ = W3 m c (Proc.devRef .tc r) := W4_of_ne m c r h4
    _ = W2 m c (Proc.devRef .tc r) := StableHlo.after_of_writes_sub hostOps1 _ hostOps1_writes h3
    _ = W1 m c (Proc.devRef .tc r) := W2_of_ne m c r h2
    _ = W0 m c (Proc.devRef .tc r) := StableHlo.after_of_writes_sub hostOps0 _ hostOps0_writes h1
    _ = m ((c : Thread nD τ).loc r) := rfl

theorem W5_main_arg0 (c : Dev nD) : W5 m c (Proc.devRef .tc main_arg0) = m ((c : Thread nD τ).loc main_arg0) :=
  W5_of m c main_arg0 (by decide) (by decide) (by decide) (by decide) (by decide)
theorem W5_main_arg1 (c : Dev nD) : W5 m c (Proc.devRef .tc main_arg1) = m ((c : Thread nD τ).loc main_arg1) :=
  W5_of m c main_arg1 (by decide) (by decide) (by decide) (by decide) (by decide)
theorem W5_main_arg2 (c : Dev nD) : W5 m c (Proc.devRef .tc main_arg2) = m ((c : Thread nD τ).loc main_arg2) :=
  W5_of m c main_arg2 (by decide) (by decide) (by decide) (by decide) (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host lines as a segment: over the unscoped references from the contents `W`, `R` riding along; it
    leaves those references at the contents after the lines. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W5 m c) ∗ ∃ r, prngReg c r)

/-! ## Region 0: its arrays out of the unscoped buffers and back -/

/-- At the first region's exit each window's array holds what the exit contents say: an input's as entered, the
    result's at what the write-backs leave. -/
theorem exit0 (c : Dev nD) : ∀ w : Fin cfg0.W, (dat0 (V1 m) c).arrAt w cfg0.N = W2 m c (Proc.devRef .tc (Pipeline.arrRef spec0 w))
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => ((dat0 (V1 m) c).arrAt_in 4 rfl _).trans ((A_eq0 (V1 m) c 4).trans (W2_of_ne m c _ (by decide)).symm)
  | ⟨5, _⟩ => ((dat0 (V1 m) c).arrAt_in 5 rfl _).trans ((A_eq0 (V1 m) c 5).trans (W2_of_ne m c _ (by decide)).symm)
  | ⟨6, _⟩ => (W2_v12 m c).symm
  | ⟨_ + 7, h⟩ => absurd h (Nat.not_lt.2 (Nat.le_add_left _ _))

/-- Entering the first region: all the unscoped buffers at the entry contents are the windows' arrays, dealt among
    the windows, and the buffers that are no window's array. -/
theorem enter0 (c : Dev nD) :
    (StableHlo.held (c : Thread nD τ) (Pipeline.ucRefs τ sig) (W1 m c) : sProp 𝕄)
      ⊢ iprop((dat0 (V1 m) c).arrays ((dat0 (V1 m) c).arrAt · 0) ∗ Pipeline.unscopedRest spec0 c (V1 m c)) := by
  rw [← Pipeline.unscopedBufs_held (Ix := Unit) (Name := ℕ) (U := UR sig nD τ) (Lvl := ℕ) c (W1 m c)]
  rw [Pipeline.unscopedBufs_split₀ cfgs 0 winFacts₀0.arr_unscoped c (V1 m c)]
  exact sep_mono (arrays_split0 (V1 m) c (V1 m c) _ fun w => A_eq0 (V1 m) c w) .rfl

/-- Leaving it: the windows' holdings joined, with the buffers that are no window's array, are all the unscoped
    buffers at the exit contents. -/
theorem leave0 (c : Dev nD) :
    iprop((dat0 (V1 m) c).arrays ((dat0 (V1 m) c).arrAt · cfg0.N) ∗ Pipeline.unscopedRest spec0 c (V1 m c))
      ⊢ (StableHlo.held (c : Thread nD τ) (Pipeline.ucRefs τ sig) (W2 m c) : sProp 𝕄) := by
  have hZ : (Pipeline.unscopedRest spec0 c (V1 m c) : sProp 𝕄)
      = Pipeline.unscopedRest spec0 c (fun b => W2 m c (Proc.devRef .tc b)) := by
    unfold Pipeline.unscopedRest
    exact bigSep_congr fun b hb => by
      beta_reduce
      rw [W2_of_ne m c b fun e => (Finset.mem_sdiff.mp hb).2 (Finset.mem_image.mpr ⟨6, Finset.mem_univ _, e.symm⟩)]
  rw [← Pipeline.unscopedBufs_held (Ix := Unit) (Name := ℕ) (U := UR sig nD τ) (Lvl := ℕ) c (W2 m c)]
  rw [Pipeline.unscopedBufs_split₀ cfgs 0 winFacts₀0.arr_unscoped c (fun b => W2 m c (Proc.devRef .tc b)), hZ]
  exact sep_mono (arrays_join0 (V1 m) c (fun b => W2 m c (Proc.devRef .tc b)) _ (exit0 m c)) .rfl

/-! ## Region 1: its arrays are distinct buffers -/

/-- The second region's exit contents read at the TensorCore's references. -/
abbrev V4 : (c : Dev nD) → (b : Ref sig .tc) → Buf (Elt F) ((c : Thread nD τ).loc b) := fun c b => W4 m c (Proc.devRef .tc b)

/-- At the second region's exit each window's array holds what the exit contents say. -/
theorem exit1 (c : Dev nD) : ∀ w : Fin cfg1.W, (dat1 (V3 m) c).arrAt w cfg1.N = V4 m c (Pipeline.arrRef spec1 w)
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => (W4_v14 m c).symm
  | ⟨_ + 3, h⟩ => absurd h (Nat.not_lt.2 (Nat.le_add_left _ _))
/-- Every buffer that is no window's array is at the exit as at the entry. -/
theorem rest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ## The regions as segments -/

set_option backward.isDefEq.respectTransparency.types false in
/-- The first region over the thread state: entered from every unscoped buffer at `W1`, left at `W2`. Its arrays
    are dealt out of the unscoped buffers and joined back at the exit contents; the generator register goes into the
    pipeline's invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Its arrays,
    distinct buffers, are split out of the unscoped buffers and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: at the compiled mesh, from any memory with zero counters, every weakly fair execution of @main on the
    TensorCores terminates, nothing faulting, and every final state has each unscoped buffer of each core at the last
    boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Spec.lean ====
/-
  The mathematics of the certificate, with no program in it.

  Two [4096, 256] arrays `a`, `b` of extended reals and a label vector.  For a shift `s` and a row `k` the
  cosine of row `k` of `a` against row `(k + s) mod 4096` of `b` is their inner product over the larger of the
  product of the two row norms and a small constant; the logit is `(cos + 1) / 2`.  The first result is the logits
  laid out shift-major; the second is the weighted binary cross entropy summed over all pairs, with the logarithms
  bounded below by `-100`: weight `1` and the given labels at shift `0`, weight `1/2` and label `0` elsewhere.

  The loss is written twice: as the sum over the flat index with the weights and labels spelt as arrays
  (`rLoss`), and as the sixteen row-block partial sums of `-1/2 · log(1 - p)` plus a correction for shift `0`
  (`kLoss`).  That the two agree on finite data is proved elsewhere.
-/
import Idealize.ShloMosaic.PureOps.Ideal
import Idealize.ShloMosaic.Lib.ValueIdx

noncomputable section

open scoped BigOperators

namespace Cert.Spec

open Idealize.ShloMosaic Idealize.ShloMosaic.ValueIdx

/-- A [4096, 256] array of extended reals. -/
abbrev Mat : Type := (⟨2, ![4096, 256]⟩ : Shape).Idx → EReal
/-- A [4096] vector of extended reals. -/
abbrev Vec1 : Type := (⟨1, ![4096]⟩ : Shape).Idx → EReal

/-- The constants, each the value its 32-bit pattern denotes. -/
def eps : EReal := Ideal.ofBits .f32 0x322BCC77#32
def one : EReal := Ideal.ofBits .f32 0x3F800000#32
def mone : EReal := Ideal.ofBits .f32 0xBF800000#32
def half : EReal := Ideal.ofBits .f32 0x3F000000#32
def mhalf : EReal := Ideal.ofBits .f32 0xBF000000#32
def zero : EReal := Ideal.ofBits .f32 0x00000000#32
def m100 : EReal := Ideal.ofBits .f32 0xC2C80000#32

/-- The Euclidean norm of row `k`. -/
def nrm (x : Mat) (k : Fin 4096) : EReal := Ideal.sqrt (∑ d : Fin 256, x (ix2 k d) * x (ix2 k d))

/-- The inner product of row `k` of `a` and row `j` of `b`. -/
def dot (a b : Mat) (k j : Fin 4096) : EReal := ∑ d : Fin 256, a (ix2 k d) * b (ix2 j d)

/-- Row `k` shifted by `s`, cyclically. -/
def wrap (k s : Fin 4096) : Fin 4096 := ⟨(k.val + s.val) % 4096, Nat.mod_lt _ (by decide)⟩

/-- The cosine at shift `s`, row `k`. -/
def cosv (a b : Mat) (s k : Fin 4096) : EReal :=
  Ideal.div (dot a b k (wrap k s)) (max (nrm a k * nrm b (wrap k s)) eps)

/-- The logit `(cos + 1) / 2`. -/
def logit (a b : Mat) (s k : Fin 4096) : EReal := (cosv a b s k + one) * half

/-- The logit with the cosine first clamped to `[-1, 1]`. -/
def logitClip (a b : Mat) (s k : Fin 4096) : EReal := (min one (max mone (cosv a b s k)) + one) * half

/-- Clamping to `[0, 1]`. -/
def clip01 (x : EReal) : EReal := min one (max zero x)

/-- `log p`, bounded below by `-100`. -/
def lp (x : EReal) : EReal := max (Ideal.log x) m100
/-- `log (1 - p)`, bounded below by `-100`. -/
def l1 (x : EReal) : EReal := max (Ideal.log1p (-x)) m100

/-- The shift and the row of a flat index. -/
def sOf (i : Fin 16777216) : Fin 4096 := ⟨i.val / 4096, by have := i.isLt; omega⟩
def kOf (i : Fin 16777216) : Fin 4096 := ⟨i.val % 4096, Nat.mod_lt _ (by decide)⟩

/-- The first result: the logits, shift-major. -/
def logitsFlat (a b : Mat) : (⟨1, ![16777216]⟩ : Shape).Idx → EReal := fun i => logit a b (sOf (i 0)) (kOf (i 0))

/-- The same with the clamped cosine. -/
def logitsClipFlat (a b : Mat) : (⟨1, ![16777216]⟩ : Shape).Idx → EReal := fun i => logitClip a b (sOf (i 0)) (kOf (i 0))

/-- The loss as a weighted sum over the flat index: the labels padded with zeros, the weights `1` on the first
    4096 entries and `1/2` after. -/
def rLoss (P Q : Fin 4096 → Fin 4096 → EReal) (lab : Fin 4096 → EReal) : EReal :=
  -(∑ i : Fin 16777216,
      (if i.val < 4096 then one else half)
        * ((if h : i.val < 4096 then lab ⟨i.val, h⟩ else zero) * P (sOf i) (kOf i)
            + (one - (if h : i.val < 4096 then lab ⟨i.val, h⟩ else zero)) * Q (sOf i) (kOf i)))

/-- One row block's partial sum: `-1/2` times the sum of `Q` over its 256 shifts and all rows. -/
def kBulk (Q : Fin 4096 → Fin 4096 → EReal) (r : Fin 16) : EReal :=
  mhalf * ∑ i : Fin 256, ∑ k : Fin 4096, Q ⟨256 * r.val + i.val, by have := r.isLt; have := i.isLt; omega⟩ k

/-- The correction for shift `0`. -/
def kCorr (P Q : Fin 4096 → Fin 4096 → EReal) (lab : Fin 4096 → EReal) : EReal :=
  ∑ k : Fin 4096, ((zero - lab k) * P 0 k + (lab k - half) * Q 0 k)

/-- The loss as the sixteen partial sums and the correction. -/
def kLoss (P Q : Fin 4096 → Fin 4096 → EReal) (lab : Fin 4096 → EReal) : EReal :=
  (∑ r : Fin 16, kBulk Q r) + kCorr P Q lab

/-- The second result, over the logits of `a`, `b`. -/
def lossOf (a b : Mat) (lab : Vec1) : (⟨0, ![]⟩ : Shape).Idx → EReal := fun _ =>
  rLoss (fun s k => lp (logit a b s k)) (fun s k => l1 (logit a b s k)) (fun k => lab (ix1 k))

/-- Every entry of an array is a real number. -/
def FiniteOn {ι : Type} (x : ι → EReal) : Prop := ∀ i, ∃ r : ℝ, x i = (r : EReal)

end Cert.Spec

end
-- ==== Proof.SpecK.lean ====
/-
  The kernel's first result, entry by entry, over the four arrays its first region reads: the first matrix, the
  second matrix doubled along its rows (8192 rows), the first norms as a column and the second norms doubled as a row.
  At shift `s` and row `k` the inner product of row `k` with row `k + s` of the doubled matrix over the larger of
  the product of the two norms and the small constant, clamped to [-1, 1], plus one, halved.
-/
import proofs.«418415_j74801150427885_3_alg».proof.Proof.Spec

noncomputable section

open scoped BigOperators

namespace Cert.Spec

open Idealize.ShloMosaic Idealize.ShloMosaic.ValueIdx

/-- Row `k + s` of a doubled array. -/
def ext (k s : Fin 4096) : Fin 8192 := ⟨k.val + s.val, by have := k.isLt; have := s.isLt; omega⟩

/-- The cosine the kernel's first region forms at shift `s`, row `k`. -/
def cosK (A : (⟨2, ![4096, 256]⟩ : Shape).Idx → EReal) (B2 : (⟨2, ![8192, 256]⟩ : Shape).Idx → EReal)
    (N : (⟨2, ![4096, 1]⟩ : Shape).Idx → EReal) (M2 : (⟨2, ![1, 8192]⟩ : Shape).Idx → EReal) (s k : Fin 4096) : EReal :=
  Ideal.div (∑ d : Fin 256, A (ix2 k d) * B2 (ix2 (ext k s) d)) (max (N (ix2 k (0 : Fin 1)) * M2 (ix2 (0 : Fin 1) (ext k s))) eps)

/-- The entry of the kernel's [4096, 4096] result at row (shift) `s`, column (row of the first matrix) `k`. -/
def cellK (A : (⟨2, ![4096, 256]⟩ : Shape).Idx → EReal) (B2 : (⟨2, ![8192, 256]⟩ : Shape).Idx → EReal)
    (N : (⟨2, ![4096, 1]⟩ : Shape).Idx → EReal) (M2 : (⟨2, ![1, 8192]⟩ : Shape).Idx → EReal) (s k : Fin 4096) : EReal :=
  (min one (max mone (cosK A B2 N M2 s k)) + one) * half

/-- With the doubled arrays read back to the originals, the kernel's entry is the clamped logit. -/
theorem cellK_eq (a b : Mat) (B2 : (⟨2, ![8192, 256]⟩ : Shape).Idx → EReal)
    (N : (⟨2, ![4096, 1]⟩ : Shape).Idx → EReal) (M2 : (⟨2, ![1, 8192]⟩ : Shape).Idx → EReal)
    (hB : ∀ (j : Fin 8192) (d : Fin 256), B2 (ix2 j d) = b (ix2 ⟨j.val % 4096, Nat.mod_lt _ (by decide)⟩ d))
    (hN : ∀ k : Fin 4096, N (ix2 k (0 : Fin 1)) = nrm a k)
    (hM : ∀ j : Fin 8192, M2 (ix2 (0 : Fin 1) j) = nrm b ⟨j.val % 4096, Nat.mod_lt _ (by decide)⟩)
    (s k : Fin 4096) : cellK a B2 N M2 s k = logitClip a b s k := by
  unfold cellK logitClip cosK cosv dot
  rw [hN, hM]
  have hw : (⟨(ext k s).val % 4096, Nat.mod_lt _ (by decide)⟩ : Fin 4096) = wrap k s := rfl
  rw [hw]
  congr 5
  exact Finset.sum_congr rfl fun d _ => by rw [hB, hw]

end Cert.Spec

end
-- ==== Proof.MathCos.lean ====
/-
  The analysis behind the specification: what its constants are, and that on finite data the cosine lies in
  [-1, 1] (the Cauchy-Schwarz inequality), so that the clamps do nothing, the logit is a real number in [0, 1],
  and the bounded logarithms of such a number are real numbers.
-/
import proofs.«418415_j74801150427885_3_alg».proof.Proof.Spec
import Idealize.ShloMosaic.PureOps.Ideal
import Idealize.ShloMosaic.PureOps.Ideal.Laws
import Mathlib.Analysis.Real.Sqrt
import Mathlib.Data.EReal.Basic
import Mathlib.Data.EReal.Operations

noncomputable section

open scoped BigOperators

namespace Cert.Spec

open Idealize.ShloMosaic Idealize.ShloMosaic.ValueIdx

/-! ## The constants as real numbers -/

theorem one_eq : one = ((1 : ℝ) : EReal) := by
  simp [one, Ideal.ofBits, Ideal.ieee, -EReal.coe_mul]; norm_num

theorem mone_eq : mone = ((-1 : ℝ) : EReal) := by
  simp [mone, Ideal.ofBits, Ideal.ieee, -EReal.coe_mul]; norm_num

theorem half_eq : half = ((1/2 : ℝ) : EReal) := by
  simp [half, Ideal.ofBits, Ideal.ieee, -EReal.coe_mul]; norm_num

theorem mhalf_eq : mhalf = ((-1/2 : ℝ) : EReal) := by
  simp [mhalf, Ideal.ofBits, Ideal.ieee, -EReal.coe_mul]; norm_num

theorem zero_eq : zero = (0 : EReal) := by
  simp [zero, Ideal.ofBits, Ideal.ieee]

theorem m100_eq : m100 = ((-100 : ℝ) : EReal) := by
  simp [m100, Ideal.ofBits, Ideal.ieee, -EReal.coe_mul]; norm_num

/-- The small constant is a positive real: a positive significand times a power of two. -/
theorem eps_pos : ∃ e : ℝ, 0 < e ∧ eps = (e : EReal) := by
  simp [eps, Ideal.ofBits, Ideal.ieee, -EReal.coe_mul]

/-! ## Coercions -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

theorem coe_max (x y : ℝ) : ((max x y : ℝ) : EReal) = max (x : EReal) (y : EReal) :=
  EReal.coe_strictMono.monotone.map_max

/-! ## The Cauchy-Schwarz inequality, in the shape used here -/

/-- `|Σ f g| ≤ √(Σ f²) · √(Σ g²)`. -/
theorem abs_sum_mul_le {n : ℕ} (f g : Fin n → ℝ) :
    |∑ d, f d * g d| ≤ √(∑ d, f d * f d) * √(∑ d, g d * g d) := by
  have h1 := Real.sum_mul_le_sqrt_mul_sqrt Finset.univ f g
  have h2 := Real.sum_mul_le_sqrt_mul_sqrt Finset.univ (fun d => -f d) g
  simp only [neg_mul, mul_neg, neg_neg, Finset.sum_neg_distrib, neg_sq, sq] at h1 h2
  rw [abs_le]
  constructor <;> linarith

/-- A quotient whose numerator is bounded by a lower bound of its positive denominator lies in `[-1, 1]`. -/
theorem quot_bound (D P e : ℝ) (hD : |D| ≤ P) (he : 0 < e) :
    -1 ≤ D * (1 / max P e) ∧ D * (1 / max P e) ≤ 1 := by
  have hM : 0 < max P e := lt_max_of_lt_right he
  have hDM : |D| ≤ max P e := le_max_of_le_left hD
  obtain ⟨hl, hu⟩ := abs_le.1 hDM
  rw [mul_one_div]
  constructor
  · rw [le_div_iff₀ hM]; linarith
  · rw [div_le_iff₀ hM]; linarith

/-! ## The cosine on finite data -/

/-- The norm of a row of reals is the real square root of the sum of its squares. -/
theorem nrm_coe (x : Mat) (X : (⟨2, ![4096, 256]⟩ : Shape).Idx → ℝ) (hX : ∀ i, x i = (X i : EReal)) (k : Fin 4096) :
    nrm x k = ((√(∑ d : Fin 256, X (ix2 k d) * X (ix2 k d)) : ℝ) : EReal) := by
  unfold nrm
  simp only [hX, ← EReal.coe_mul]
  rw [← coe_sum, Ideal.sqrt_coe, if_neg]
  exact not_lt.2 (Finset.sum_nonneg (fun d _ => mul_self_nonneg _))

/-- The inner product of two rows of reals is the real sum of products. -/
theorem dot_coe (a b : Mat) (A B : (⟨2, ![4096, 256]⟩ : Shape).Idx → ℝ) (hA : ∀ i, a i = (A i : EReal))
    (hB : ∀ i, b i = (B i : EReal)) (k j : Fin 4096) :
    dot a b k j = ((∑ d : Fin 256, A (ix2 k d) * B (ix2 j d) : ℝ) : EReal) := by
  unfold dot
  simp only [hA, hB, ← EReal.coe_mul]
  rw [← coe_sum]

/-- On finite data the cosine is a real number in `[-1, 1]`. -/
theorem cosv_real (a b : Mat) (ha : FiniteOn a) (hb : FiniteOn b) (s k : Fin 4096) :
    ∃ c : ℝ, -1 ≤ c ∧ c ≤ 1 ∧ cosv a b s k = (c : EReal) := by
  obtain ⟨e, he, hee⟩ := eps_pos
  choose A hA using ha
  choose B hB using hb
  have hcs := abs_sum_mul_le (fun d : Fin 256 => A (ix2 k d)) (fun d : Fin 256 => B (ix2 (wrap k s) d))
  obtain ⟨hl, hu⟩ := quot_bound _ _ e hcs he
  refine ⟨_, hl, hu, ?_⟩
  have hM : max (√(∑ d : Fin 256, A (ix2 k d) * A (ix2 k d)) * √(∑ d : Fin 256, B (ix2 (wrap k s) d) * B (ix2 (wrap k s) d))) e ≠ 0 :=
    (lt_max_of_lt_right he).ne'
  unfold cosv
  rw [nrm_coe a A hA, nrm_coe b B hB, dot_coe a b A B hA hB, hee, ← EReal.coe_mul, ← coe_max,
    Ideal.div_coe hM, ← EReal.coe_mul]

/-! ## The logit on finite data -/

/-- The logit of a cosine `c` is `(c + 1) / 2`. -/
theorem logit_of_cos (a b : Mat) (s k : Fin 4096) (c : ℝ) (hc : cosv a b s k = (c : EReal)) :
    logit a b s k = (((c + 1) * (1 / 2) : ℝ) : EReal) := by
  unfold logit
  rw [hc, one_eq, half_eq, ← EReal.coe_add, ← EReal.coe_mul]

theorem logitClip_eq (a b : Mat) (ha : FiniteOn a) (hb : FiniteOn b) (s k : Fin 4096) :
    logitClip a b s k = logit a b s k := by
  obtain ⟨c, hl, hu, hc⟩ := cosv_real a b ha hb s k
  unfold logitClip logit
  rw [hc, one_eq, mone_eq, max_eq_right (EReal.coe_le_coe_iff.2 hl), min_eq_right (EReal.coe_le_coe_iff.2 hu)]

theorem logit_real (a b : Mat) (ha : FiniteOn a) (hb : FiniteOn b) (s k : Fin 4096) :
    ∃ r : ℝ, 0 ≤ r ∧ r ≤ 1 ∧ logit a b s k = (r : EReal) := by
  obtain ⟨c, hl, hu, hc⟩ := cosv_real a b ha hb s k
  exact ⟨(c + 1) * (1 / 2), by linarith, by linarith, logit_of_cos a b s k c hc⟩

theorem clip01_logit (a b : Mat) (ha : FiniteOn a) (hb : FiniteOn b) (s k : Fin 4096) :
    clip01 (logit a b s k) = logit a b s k := by
  obtain ⟨r, h0, h1, hr⟩ := logit_real a b ha hb s k
  unfold clip01
  rw [hr, one_eq, zero_eq, ← EReal.coe_zero, max_eq_right (EReal.coe_le_coe_iff.2 h0),
    min_eq_right (EReal.coe_le_coe_iff.2 h1)]

/-! ## The bounded logarithms of a number in `[0, 1]` -/

/-- The larger of the logarithm of a real and `-100` is a real (at a nonpositive argument, `-100`). -/
theorem max_log_real (y : ℝ) : ∃ r : ℝ, max (Ideal.log (y : EReal)) m100 = (r : EReal) := by
  rw [Ideal.log_coe, m100_eq]
  by_cases hy : y ≤ 0
  · rw [if_pos hy, max_eq_right bot_le]; exact ⟨_, rfl⟩
  · rw [if_neg hy, ← coe_max]; exact ⟨_, rfl⟩

theorem lp_real (x : ℝ) (h0 : 0 ≤ x) (h1 : x ≤ 1) : ∃ r : ℝ, lp (x : EReal) = (r : EReal) := by
  unfold lp
  exact max_log_real x

theorem l1_real (x : ℝ) (h0 : 0 ≤ x) (h1 : x ≤ 1) : ∃ r : ℝ, l1 (x : EReal) = (r : EReal) := by
  unfold l1 Ideal.log1p
  rw [← EReal.coe_neg, ← EReal.coe_one, ← EReal.coe_add]
  exact max_log_real (1 + -x)

end Cert.Spec

end
-- ==== Proof.MathLoss.lean ====
/-
  The two spellings of the loss agree on real-valued data.

  With real `P s k`, `Q s k` and labels `lab k`, the flat sum over `i = 4096 s + k` of
  `w_i (lf_i P + (1 - lf_i) Q)` — weight `1` and label `lab k` at shift `0`, weight `1/2` and label `0` elsewhere —
  is `Σ_k (lab P₀ + (1 - lab) Q₀) + 1/2 Σ_{s ≥ 1, k} Q`, and its negation is
  `-1/2 Σ_{s, k} Q + Σ_k (-lab P₀ + (lab - 1/2) Q₀)`: the sixteen block sums and the correction for shift `0`.
  The identity is proved over the reals for any number of shifts and rows, carried to the extended reals through the
  coercion, and read at 4096 shifts in sixteen blocks of 256.
-/
import proofs.«418415_j74801150427885_3_alg».proof.Proof.Spec
import proofs.«418415_j74801150427885_3_alg».proof.Proof.MathCos
import Mathlib.Data.EReal.Basic
import Mathlib.Data.EReal.Operations
import Mathlib.Logic.Equiv.Fin.Basic
import Mathlib.Algebra.BigOperators.Fin
import Mathlib.Algebra.BigOperators.Ring.Finset
import Mathlib.Tactic.Ring
import Mathlib.Tactic.Linarith

noncomputable section

open scoped BigOperators

namespace Cert.Spec

/-- The coercion of the reals into the extended reals commutes with finite sums. -/
theorem lossCoeSum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same, read from right to left. -/
theorem lossCoeSum' {ι : Type} (s : Finset ι) (f : ι → ℝ) :
    ((∑ i ∈ s, f i : ℝ) : EReal) = ∑ i ∈ s, ((f i : ℝ) : EReal) := (lossCoeSum s f).symm

/-- A sum over a flat index `i < m * n` is the double sum over `(i / n, i % n)`. -/
theorem lossSumFlat {m n N : ℕ} (hN : N = m * n) (g : Fin N → ℝ) (f : Fin m → Fin n → ℝ)
    (hg : ∀ (s : Fin m) (k : Fin n) (i : Fin N), i.val = k.val + n * s.val → g i = f s k) :
    ∑ i : Fin N, g i = ∑ s : Fin m, ∑ k : Fin n, f s k := by
  subst hN
  rw [← Equiv.sum_comp finProdFinEquiv g, Fintype.sum_prod_type]
  refine Finset.sum_congr rfl fun s _ => Finset.sum_congr rfl fun k _ => ?_
  exact hg s k _ rfl

/-- A sum over `a` blocks of `b` consecutive indices is the sum over all `a * b` indices. -/
theorem lossSumBlocks {a b M : ℕ} (hM : M = a * b) (G : Fin M → ℝ) (H : Fin a → Fin b → ℝ)
    (hH : ∀ (r : Fin a) (i : Fin b) (s : Fin M), s.val = b * r.val + i.val → H r i = G s) :
    ∑ r : Fin a, ∑ i : Fin b, H r i = ∑ s : Fin M, G s := by
  subst hM
  rw [← Equiv.sum_comp finProdFinEquiv G, Fintype.sum_prod_type]
  refine Finset.sum_congr rfl fun r _ => Finset.sum_congr rfl fun i _ => ?_
  exact hH r i _ (by simp [finProdFinEquiv]; omega)

/-- The two spellings of the loss agree on real data, for any number of shifts `S = A * B` and rows `K`:
    the flat sum is re-indexed by shift and row, the shift `0` is split off, and the `A` blocks of `B`
    shifts are put back together. -/
theorem lossRealGen {S K A B N : ℕ} (hN : N = S * K) (hS : S = A * B) (z : Fin S) (hz : z.val = 0)
    (p q : Fin S → Fin K → ℝ) (l : Fin K → ℝ)
    (w lf : Fin N → ℝ) (sO : Fin N → Fin S) (kO : Fin N → Fin K) (blk : Fin A → Fin B → Fin S)
    (hblk : ∀ r i, (blk r i).val = B * r.val + i.val)
    (hsO : ∀ i, (sO i).val = i.val / K) (hkO : ∀ i, (kO i).val = i.val % K)
    (hw : ∀ i : Fin N, w i = if i.val < K then 1 else 1/2)
    (hlf : ∀ i : Fin N, lf i = if h : i.val < K then l ⟨i.val, h⟩ else 0) :
    (∑ r : Fin A, (-1/2 : ℝ) * ∑ i : Fin B, ∑ k : Fin K, q (blk r i) k)
      + ∑ k : Fin K, ((0 - l k) * p z k + (l k - 1/2) * q z k)
    = -(∑ i : Fin N, w i * (lf i * p (sO i) (kO i) + (1 - lf i) * q (sO i) (kO i))) := by
  -- the flat sum as a double sum over shift and row
  have hflat : (∑ i : Fin N, w i * (lf i * p (sO i) (kO i) + (1 - lf i) * q (sO i) (kO i)))
      = ∑ s : Fin S, ∑ k : Fin K, ((1/2 : ℝ) * q s k
        + if s = z then (l k * p s k + (1 - l k) * q s k - 1/2 * q s k) else 0) := by
    refine lossSumFlat hN _ _ ?_
    intro s k i hi
    have hk := k.isLt
    have hKpos : 0 < K := by omega
    have hsi : sO i = s := Fin.ext (by
      rw [hsO, hi, Nat.add_mul_div_left _ _ hKpos, Nat.div_eq_of_lt hk, Nat.zero_add])
    have hki : kO i = k := Fin.ext (by
      rw [hkO, hi, Nat.add_mul_mod_self_left, Nat.mod_eq_of_lt hk])
    rw [hsi, hki, hw, hlf]
    by_cases h0 : s = z
    · have hsv : s.val = 0 := by rw [h0]; exact hz
      have hiv : i.val = k.val := by rw [hi, hsv, Nat.mul_zero, Nat.add_zero]
      have h : i.val < K := by omega
      have hk' : (⟨i.val, h⟩ : Fin K) = k := Fin.ext hiv
      simp only [h, dif_pos, if_pos, hk', h0, if_true]
      ring
    · have hsv : 0 < s.val := Nat.pos_of_ne_zero (fun e => h0 (Fin.ext (by rw [e, hz])))
      have hle : K ≤ K * s.val := Nat.le_mul_of_pos_right K hsv
      have h : ¬ i.val < K := by omega
      simp only [h, dif_neg, if_neg, h0, not_false_iff, if_false]
      ring
  -- the double sum with the shift `0` split off
  have hA : (∑ s : Fin S, ∑ k : Fin K, ((1/2 : ℝ) * q s k
        + if s = z then (l k * p s k + (1 - l k) * q s k - 1/2 * q s k) else 0))
      = (1/2 : ℝ) * (∑ s : Fin S, ∑ k : Fin K, q s k)
        + ∑ k : Fin K, (l k * p z k + (1 - l k) * q z k - 1/2 * q z k) := by
    simp only [Finset.sum_add_distrib, ← Finset.mul_sum]
    congr 1
    rw [Finset.sum_comm]
    refine Finset.sum_congr rfl fun k _ => ?_
    rw [Finset.sum_ite_eq']
    simp only [Finset.mem_univ, if_true]
  -- the blocks of shifts
  have hB : (∑ r : Fin A, (-1/2 : ℝ) * ∑ i : Fin B, ∑ k : Fin K, q (blk r i) k)
      = (-1/2 : ℝ) * (∑ s : Fin S, ∑ k : Fin K, q s k) := by
    rw [← Finset.mul_sum]
    congr 1
    refine lossSumBlocks hS (fun s => ∑ k : Fin K, q s k) (fun r i => ∑ k : Fin K, q (blk r i) k) ?_
    intro r i s hs
    have e : blk r i = s := Fin.ext (by rw [hblk, hs])
    simp only [e]
  rw [hflat, hA, hB, neg_add, ← Finset.sum_neg_distrib]
  congr 1
  · ring
  · refine Finset.sum_congr rfl fun k _ => ?_
    ring

/-- The same identity between extended reals that are all coercions of reals. -/
theorem lossErealGen {S K A B N : ℕ} (hN : N = S * K) (hS : S = A * B) (z : Fin S) (hz : z.val = 0)
    (p q : Fin S → Fin K → ℝ) (l : Fin K → ℝ)
    (W LF : Fin N → EReal) (sO : Fin N → Fin S) (kO : Fin N → Fin K) (blk : Fin A → Fin B → Fin S)
    (hblk : ∀ r i, (blk r i).val = B * r.val + i.val)
    (hsO : ∀ i, (sO i).val = i.val / K) (hkO : ∀ i, (kO i).val = i.val % K)
    (hW : ∀ i : Fin N, W i = if i.val < K then ((1:ℝ):EReal) else ((1/2:ℝ):EReal))
    (hLF : ∀ i : Fin N, LF i = if h : i.val < K then ((l ⟨i.val, h⟩ : ℝ) : EReal) else (0:EReal)) :
    (∑ r : Fin A, ((-1/2:ℝ):EReal) * ∑ i : Fin B, ∑ k : Fin K, ((q (blk r i) k : ℝ) : EReal))
      + ∑ k : Fin K, (((0:EReal) - ((l k : ℝ) : EReal)) * ((p z k : ℝ) : EReal)
          + (((l k : ℝ) : EReal) - ((1/2:ℝ):EReal)) * ((q z k : ℝ) : EReal))
    = -(∑ i : Fin N, W i * (LF i * ((p (sO i) (kO i) : ℝ) : EReal)
          + (((1:ℝ):EReal) - LF i) * ((q (sO i) (kO i) : ℝ) : EReal))) := by
  have hW' : ∀ i : Fin N, W i = (((if i.val < K then (1:ℝ) else 1/2) : ℝ) : EReal) := by
    intro i
    rw [hW]
    split_ifs <;> rfl
  have hLF' : ∀ i : Fin N,
      LF i = (((if h : i.val < K then l ⟨i.val, h⟩ else 0) : ℝ) : EReal) := by
    intro i
    rw [hLF]
    split_ifs <;> rfl
  have key := congrArg (fun x : ℝ => (x : EReal))
    (lossRealGen hN hS z hz p q l (fun i => if i.val < K then (1:ℝ) else 1/2)
      (fun i => if h : i.val < K then l ⟨i.val, h⟩ else 0) sO kO blk hblk hsO hkO
      (fun _ => rfl) (fun _ => rfl))
  simp only [lossCoeSum', EReal.coe_mul, EReal.coe_add, EReal.coe_sub, EReal.coe_neg,
    EReal.coe_zero] at key
  simp only [hW', hLF']
  exact key

/-- The two spellings of the loss agree on real data, given the values of the four constants. -/
theorem kLoss_eq_rLoss_of (h1 : one = ((1:ℝ):EReal)) (hh : half = ((1/2:ℝ):EReal))
    (hm : mhalf = ((-1/2:ℝ):EReal)) (h0 : zero = (0:EReal))
    (P Q : Fin 4096 → Fin 4096 → EReal) (lab : Fin 4096 → EReal)
    (hP : ∀ s k, ∃ r : ℝ, P s k = (r : EReal)) (hQ : ∀ s k, ∃ r : ℝ, Q s k = (r : EReal))
    (hlab : ∀ k, ∃ r : ℝ, lab k = (r : EReal)) :
    kLoss P Q lab = rLoss P Q lab := by
  choose p hp using hP
  choose q hq using hQ
  choose l hl using hlab
  obtain rfl : P = fun s k => ((p s k : ℝ) : EReal) := funext fun s => funext fun k => hp s k
  obtain rfl : Q = fun s k => ((q s k : ℝ) : EReal) := funext fun s => funext fun k => hq s k
  obtain rfl : lab = fun k => ((l k : ℝ) : EReal) := funext fun k => hl k
  unfold kLoss kBulk kCorr rLoss
  rw [h1, hh, hm, h0]
  exact lossErealGen (S := 4096) (K := 4096) (A := 16) (B := 256) (N := 16777216)
    (by norm_num) (by norm_num) 0 rfl p q l
    (fun i => if i.val < 4096 then ((1:ℝ):EReal) else ((1/2:ℝ):EReal))
    (fun i => if h : i.val < 4096 then ((l ⟨i.val, h⟩ : ℝ) : EReal) else (0:EReal))
    sOf kOf
    (fun r i => ⟨256 * r.val + i.val, by have := r.isLt; have := i.isLt; omega⟩)
    (fun _ _ => rfl) (fun _ => rfl) (fun _ => rfl) (fun _ => rfl) (fun _ => rfl)

/-- The two spellings of the loss agree on real data. -/
theorem kLoss_eq_rLoss (P Q : Fin 4096 → Fin 4096 → EReal) (lab : Fin 4096 → EReal)
    (hP : ∀ s k, ∃ r : ℝ, P s k = (r : EReal)) (hQ : ∀ s k, ∃ r : ℝ, Q s k = (r : EReal))
    (hlab : ∀ k, ∃ r : ℝ, lab k = (r : EReal)) :
    kLoss P Q lab = rLoss P Q lab :=
  kLoss_eq_rLoss_of one_eq half_eq mhalf_eq zero_eq P Q lab hP hQ hlab

end Cert.Spec

end
-- ==== Proof.KMath.lean ====
/-
  On finite data the kernel's spelling of the two results is the reference's.

  The first result: the kernel reads the second matrix and the second norms through their doubled copies and clamps
  the cosine to [-1, 1]; reading the copies back and dropping the clamp (the cosine of finite rows lies in [-1, 1])
  gives the logit.  The second result: the kernel clamps each logit to [0, 1] before the logarithms and sums block by
  block; the logit of finite rows lies in [0, 1], its bounded logarithms are real numbers, and on real numbers the
  block sums with the correction are the weighted sum over the flat index.
-/
import proofs.«418415_j74801150427885_3_alg».proof.Proof.SpecK
import proofs.«418415_j74801150427885_3_alg».proof.Proof.MathCos
import proofs.«418415_j74801150427885_3_alg».proof.Proof.MathLoss

noncomputable section

open scoped BigOperators

namespace Cert.Spec

open Idealize.ShloMosaic Idealize.ShloMosaic.ValueIdx

/-- The kernel's entry at shift `s`, row `k` is the logit. -/
theorem cell_assemble (a b : Mat) (ha : FiniteOn a) (hb : FiniteOn b) (B2 : (⟨2, ![8192, 256]⟩ : Shape).Idx → EReal)
    (N : (⟨2, ![4096, 1]⟩ : Shape).Idx → EReal) (M2 : (⟨2, ![1, 8192]⟩ : Shape).Idx → EReal)
    (hB : ∀ (j : Fin 8192) (d : Fin 256), B2 (ix2 j d) = b (ix2 ⟨j.val % 4096, Nat.mod_lt _ (by decide)⟩ d))
    (hN : ∀ k : Fin 4096, N (ix2 k (0 : Fin 1)) = nrm a k)
    (hM : ∀ j : Fin 8192, M2 (ix2 (0 : Fin 1) j) = nrm b ⟨j.val % 4096, Nat.mod_lt _ (by decide)⟩)
    (s k : Fin 4096) : cellK a B2 N M2 s k = logit a b s k :=
  (cellK_eq a b B2 N M2 hB hN hM s k).trans (logitClip_eq a b ha hb s k)

/-- The kernel's block sums over the clamped logits are the reference's weighted sum. -/
theorem loss_assemble (a b : Mat) (lab : Vec1) (ha : FiniteOn a) (hb : FiniteOn b) (hl : FiniteOn lab)
    (X : (⟨2, ![4096, 4096]⟩ : Shape).Idx → EReal) (L : (⟨2, ![1, 4096]⟩ : Shape).Idx → EReal)
    (hX : ∀ s k : Fin 4096, X (ix2 s k) = logit a b s k) (hL : ∀ k : Fin 4096, L (ix2 (0 : Fin 1) k) = lab (ix1 k)) :
    kLoss (fun s k => lp (clip01 (X (ix2 s k)))) (fun s k => l1 (clip01 (X (ix2 s k)))) (fun k => L (ix2 (0 : Fin 1) k))
      = lossOf a b lab ix0 := by
  have e1 : (fun s k => lp (clip01 (X (ix2 s k)))) = fun s k => lp (logit a b s k) := by
    funext s k; rw [hX, clip01_logit a b ha hb]
  have e2 : (fun s k => l1 (clip01 (X (ix2 s k)))) = fun s k => l1 (logit a b s k) := by
    funext s k; rw [hX, clip01_logit a b ha hb]
  have e3 : (fun k => L (ix2 (0 : Fin 1) k)) = fun k => lab (ix1 k) := funext hL
  rw [e1, e2, e3]
  unfold lossOf
  refine kLoss_eq_rLoss _ _ _ (fun s k => ?_) (fun s k => ?_) (fun k => hl _)
  · obtain ⟨r, h0, h1, hr⟩ := logit_real a b ha hb s k
    rw [hr]; exact lp_real r h0 h1
  · obtain ⟨r, h0, h1, hr⟩ := logit_real a b ha hb s k
    rw [hr]; exact l1_real r h0 h1

end Cert.Spec

end
-- ==== Proof.KValue.lean ====
/-
  The kernel program's two results in the final state, on finite inputs: the flattened matrix of logits and the loss.

  The final contents of the result buffers are read back through the five segments: the last stretch of host lines
  flattens the first region's matrix and drops the unit axes of the second region's 1 × 1 sum; the first region's
  matrix is, entry by entry, the clamped cosine formed from the doubled copies and the norm column and row, which
  the first stretch of host lines computes from the two argument matrices; the second region's sum is the sixteen
  block sums and the correction over that matrix and the reshaped labels.
-/
import proofs.«418415_j74801150427885_3_alg».proof.Proof.KChain
import proofs.«418415_j74801150427885_3_alg».proof.Proof.KMath
import proofs.«418415_j74801150427885_3_alg».proof.Proof.Gen.KernelIdeal.Regions

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen

/-- A TensorCore reference as a device reference. -/
abbrev dr (b : Ref sig .tc) : DevRef τ sig := Proc.devRef .tc b

section

variable (m : (ℓ : Loc nD τ sig) → Buf (Elt Ideal) ℓ)

-- what the value lemmas of the two regions and of the host stretches say, as hypotheses
variable
  (harr6 : ∀ (V : (c : Dev nD) → (b : Ref sig .tc) → Buf (Elt Ideal) ((c : Thread nD τ).loc b)) (c : Dev nD),
    (dat0 (F := Ideal) V c).arrAt 6 cfg0.N
      = fun j => Spec.cellK (V c main_v9) (V c main_v11) (V c main_v3) (V c main_v8) (j 0) (j 1))
  (harr2 : ∀ (V : (c : Dev nD) → (b : Ref sig .tc) → Buf (Elt Ideal) ((c : Thread nD τ).loc b)) (c : Dev nD),
    (dat1 (F := Ideal) V c).arrAt 2 cfg1.N
      = fun _ => Spec.kLoss (fun s k => Spec.lp (Spec.clip01 (V c main_v12 (ix2 s k))))
          (fun s k => Spec.l1 (Spec.clip01 (V c main_v12 (ix2 s k)))) (fun k => V c main_v13 (ix2 (0 : Fin 1) k)))
  (hv9 : ∀ (W : Valuation τ sig (Elt Ideal)) (i : S4096x256.Idx),
    (StableHlo.after (hostOps0 (F := Ideal)) W (dr main_v9) : S4096x256.Idx → EReal) i = (W (dr main_arg0) : S4096x256.Idx → EReal) i)
  (hv11 : ∀ (W : Valuation τ sig (Elt Ideal)) (j : Fin 8192) (d : Fin 256),
    (StableHlo.after (hostOps0 (F := Ideal)) W (dr main_v11) : S8192x256.Idx → EReal) (ix2 j d)
      = (W (dr main_arg1) : S4096x256.Idx → EReal) (ix2 ⟨j.val % 4096, Nat.mod_lt _ (by decide)⟩ d))
  (hv3 : ∀ (W : Valuation τ sig (Elt Ideal)) (k : Fin 4096),
    (StableHlo.after (hostOps0 (F := Ideal)) W (dr main_v3) : S4096x1.Idx → EReal) (ix2 k (0 : Fin 1)) = Spec.nrm (W (dr main_arg0)) k)
  (hv8 : ∀ (W : Valuation τ sig (Elt Ideal)) (j : Fin 8192),
    (StableHlo.after (hostOps0 (F := Ideal)) W (dr main_v8) : S1x8192.Idx → EReal) (ix2 (0 : Fin 1) j)
      = Spec.nrm (W (dr main_arg1)) ⟨j.val % 4096, Nat.mod_lt _ (by decide)⟩)
  (hv13 : ∀ (W : Valuation τ sig (Elt Ideal)) (k : Fin 4096),
    (StableHlo.after (hostOps1 (F := Ideal)) W (dr main_v13) : S1x4096.Idx → EReal) (ix2 (0 : Fin 1) k) = (W (dr main_arg2) : S4096.Idx → EReal) (ix1 k))
  (hv15 : ∀ (W : Valuation τ sig (Elt Ideal)) (i : S_.Idx),
    (StableHlo.after (hostOps2 (F := Ideal)) W (dr main_v15) : S_.Idx → EReal) i = (W (dr main_v14) : S1x1.Idx → EReal) (ix2 (0 : Fin 1) (0 : Fin 1)))
  (hv16 : ∀ (W : Valuation τ sig (Elt Ideal)) (i : S16777216.Idx),
    (StableHlo.after (hostOps2 (F := Ideal)) W (dr main_v16) : S16777216.Idx → EReal) i
      = (W (dr main_v12) : S4096x4096.Idx → EReal) (ix2 (Spec.sOf (i 0)) (Spec.kOf (i 0))))

/-- The two argument matrices and the labels, as launched on core `c`. -/
abbrev argA (c : Dev nD) : Spec.Mat := m ((c : Thread nD τ).loc main_arg0)
abbrev argB (c : Dev nD) : Spec.Mat := m ((c : Thread nD τ).loc main_arg1)
abbrev argL (c : Dev nD) : Spec.Vec1 := m ((c : Thread nD τ).loc main_arg2)

include harr6 hv9 hv11 hv3 hv8 in
/-- The first region's matrix, entry by entry, is the logit. -/
theorem w2_v12_apply (c : Dev nD) (ha : Spec.FiniteOn (argA m c)) (hb : Spec.FiniteOn (argB m c)) (s k : Fin 4096) :
    (W2 m c (dr main_v12) : S4096x4096.Idx → EReal) (ix2 s k) = Spec.logit (argA m c) (argB m c) s k := by
  rw [W2_v12, harr6]
  show Spec.cellK (V1 m c main_v9) (V1 m c main_v11) (V1 m c main_v3) (V1 m c main_v8) s k = _
  have e9 : (V1 m c main_v9 : S4096x256.Idx → EReal) = argA m c := funext fun i => hv9 (W0 m c) i
  rw [e9]
  exact Spec.cell_assemble (argA m c) (argB m c) ha hb _ _ _ (fun j d => hv11 (W0 m c) j d) (fun k => hv3 (W0 m c) k)
    (fun j => hv8 (W0 m c) j) s k

/-- No line of the second stretch writes the first region's matrix. -/
theorem w3_v12 (c : Dev nD) : W3 m c (dr main_v12) = W2 m c (dr main_v12) :=
  StableHlo.after_of_writes_sub hostOps1 _ hostOps1_writes (r := main_v12) (by decide)

/-- No line of the first stretch writes the labels. -/
theorem w1_arg2 (c : Dev nD) : W1 m c (dr main_arg2) = W0 m c (dr main_arg2) :=
  StableHlo.after_of_writes_sub hostOps0 _ hostOps0_writes (r := main_arg2) (by decide)

include harr6 hv9 hv11 hv3 hv8 hv16 in
/-- The first result in the final state: the logits, shift-major. -/
theorem w5_v16 (c : Dev nD) (ha : Spec.FiniteOn (argA m c)) (hb : Spec.FiniteOn (argB m c)) :
    (W5 m c (dr main_v16) : S16777216.Idx → EReal) = Spec.logitsFlat (argA m c) (argB m c) := by
  funext i
  show (StableHlo.after (hostOps2 (F := Ideal)) (W4 m c) (dr main_v16) : S16777216.Idx → EReal) i = _
  rw [hv16 (W4 m c) i, W4_of_ne m c main_v12 (by decide), w3_v12,
    w2_v12_apply m harr6 hv9 hv11 hv3 hv8 c ha hb]
  rfl

include harr6 harr2 hv9 hv11 hv3 hv8 hv13 hv15 in
/-- The second result in the final state: the loss. -/
theorem w5_v15 (c : Dev nD) (ha : Spec.FiniteOn (argA m c)) (hb : Spec.FiniteOn (argB m c)) (hl : Spec.FiniteOn (argL m c)) :
    (W5 m c (dr main_v15) : S_.Idx → EReal) = Spec.lossOf (argA m c) (argB m c) (argL m c) := by
  funext i
  show (StableHlo.after (hostOps2 (F := Ideal)) (W4 m c) (dr main_v15) : S_.Idx → EReal) i = _
  rw [hv15 (W4 m c) i, W4_v14, harr2, eq_ix0 i]
  refine Spec.loss_assemble (argA m c) (argB m c) (argL m c) ha hb hl (V3 m c main_v12) (V3 m c main_v13) (fun s k => ?_) (fun k => ?_)
  · show (W3 m c (dr main_v12) : S4096x4096.Idx → EReal) (ix2 s k) = _
    rw [w3_v12]
    exact w2_v12_apply m harr6 hv9 hv11 hv3 hv8 c ha hb s k
  · show (StableHlo.after (hostOps1 (F := Ideal)) (W2 m c) (dr main_v13) : S1x4096.Idx → EReal) (ix2 (0 : Fin 1) k) = _
    rw [hv13 (W2 m c) k, W2_of_ne m c main_arg2 (by decide), w1_arg2]

include harr6 harr2 hv9 hv11 hv3 hv8 hv13 hv15 hv16 in
/-- THE KERNEL'S RUN WITH ITS RESULTS NAMED: from the run that reads every unscoped buffer at the final contents,
    on finite inputs the two results are the logits and the loss, and the arguments are as launched. -/
theorem kernel_run_of (ρ : Dev nD → PrngReg)
    (hrun : θ_run (defs (F := Ideal)) (onTc (τ := τ) (main (F := Ideal))) ⟨m, fun _ => 0, ρ⟩
      (fun r => ∀ c : Dev nD, ∀ b ∈ Pipeline.ucRefs τ sig, r.2.mem ((c : Thread nD τ).1, b) = W5 m c b))
    (hmem : ∀ b : Ref sig .tc, ¬ (dr b).isScoped → dr b ∈ Pipeline.ucRefs τ sig)
    (harg0 : ∀ c, W5 m c (dr main_arg0) = m ((c : Thread nD τ).loc main_arg0))
    (harg1 : ∀ c, W5 m c (dr main_arg1) = m ((c : Thread nD τ).loc main_arg1))
    (harg2 : ∀ c, W5 m c (dr main_arg2) = m ((c : Thread nD τ).loc main_arg2))
    (hfin : ∀ c, Spec.FiniteOn (argA m c) ∧ Spec.FiniteOn (argB m c) ∧ Spec.FiniteOn (argL m c)) :
    θ_run (defs (F := Ideal)) (onTc (τ := τ) (main (F := Ideal))) ⟨m, fun _ => 0, ρ⟩ (fun r => ∀ c : Dev nD,
      r.2.mem ((c.tc : Thread nD τ).loc main_v16) = Spec.logitsFlat (argA m c) (argB m c)
      ∧ r.2.mem ((c.tc : Thread nD τ).loc main_v15) = Spec.lossOf (argA m c) (argB m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => by
    obtain ⟨ha, hb, hl⟩ := hfin c
    refine ⟨?_, ?_, ?_, ?_, ?_⟩
    · exact (h c _ (hmem main_v16 (by decide))).trans (w5_v16 m harr6 hv9 hv11 hv3 hv8 hv16 c ha hb)
    · exact (h c _ (hmem main_v15 (by decide))).trans (w5_v15 m harr6 harr2 hv9 hv11 hv3 hv8 hv13 hv15 c ha hb hl)
    · exact (h c _ (hmem main_arg0 (by decide))).trans (harg0 c)
    · exact (h c _ (hmem main_arg1 (by decide))).trans (harg1 c)
    · exact (h c _ (hmem main_arg2 (by decide))).trans (harg2 c)) hrun

end

end Cert.KernelIdeal.Hand

end
-- ==== Proof.RotChain.lean ====
/-
  The eight conditional rotations of a 256 × 512 tile.  For bit = 1, 2, 4, …, 128 the tile is replaced, on the rows
  whose index has that bit set, by its rotation by 512 − bit lanes, which moves lane `j + bit` (around the end) to
  lane `j`.  Rotations of a circular row compose additively, so after the eight stages row `k` has been moved by the
  sum of its set bits, which is `k` itself (`k < 256`): entry `(k, j)` of the result is entry `(k, (j + k) mod 512)`
  of the tile.
-/
import proofs.«418415_j74801150427885_3_alg».proof.Proof.KDefs
import Idealize.ShloMosaic.Lib.ValueIdx
import Mathlib.Data.Nat.Bitwise

noncomputable section

namespace Cert.KernelIdeal.Hand

open Idealize.ShloMosaic Idealize.ShloMosaic.ValueIdx
open Cert.KernelIdeal Cert.KernelIdeal.Gen

variable {F : FTy → Type} [FloatOps F]

/-- One stage: on the rows whose index meets `bit`, the tile rotated by `shift` lanes; elsewhere the tile. -/
def rotStage (bit shift : BitVec 32) (cur : FVec F S256x512 .f32) : FVec F S256x512 .f32 :=
  select (cmpi .ne (andi rowIota (broadcast S256x512 bit)) (broadcast S256x512 (0#32 : BitVec 32)))
    (dynamicRotate 1 shift none cur Facts₀.rotates_S256x512_d1) cur

/-- The row index of entry `(k, j)` is `k`. -/
theorem rowIota_apply (k : Fin 256) (j : Fin 512) : rowIota (ix2 k j) = BitVec.ofNat 32 k.val := by
  simp [rowIota, iota]

/-- A rotation by `s < 512` lanes read at `(k, j)` is the tile at `(k, (j + (512 − s)) mod 512)`. -/
theorem rotate_apply {α : Type} (s : ℕ) (hs : s < 512) (x : S256x512.Idx → α) (h : S256x512.Rotates 1 none) (k : Fin 256) (j : Fin 512) :
    dynamicRotate 1 (BitVec.ofNat 32 s) none x h (ix2 k j) = x (ix2 k ⟨(j.val + (512 - s)) % 512, Nat.mod_lt _ (by decide)⟩) := by
  unfold dynamicRotate
  refine congrArg x (funext fun b => ?_)
  match b with
  | ⟨0, _⟩ => rfl
  | ⟨1, _⟩ =>
    refine Fin.ext ?_
    show (j.val + 512 - ((BitVec.ofNat 32 s).toNat + 0) % 512) % 512 = (j.val + (512 - s)) % 512
    rw [BitVec.toNat_ofNat]
    omega

/-- A number below 256 meets the single bit `2 ^ i` exactly when its `i`-th binary digit is 1. -/
theorem bit_test (i b k : ℕ) (hb : b = 2 ^ i) (hi : i < 8) (hk : k < 256) :
    (BitVec.ofNat 32 k &&& BitVec.ofNat 32 b ≠ 0#32) ↔ k / b % 2 = 1 := by
  have hb32 : b < 2 ^ 32 := by
    subst hb; exact Nat.pow_lt_pow_right (by decide) (by omega)
  have hk32 : k < 2 ^ 32 := by omega
  rw [ne_eq, ← BitVec.toNat_inj, BitVec.toNat_and, BitVec.toNat_ofNat, BitVec.toNat_ofNat, BitVec.toNat_ofNat,
    Nat.mod_eq_of_lt hk32, Nat.mod_eq_of_lt hb32, Nat.zero_mod]
  subst hb
  rw [Nat.and_two_pow, Nat.testBit_eq_decide_div_mod_eq]
  have hp : 0 < 2 ^ i := Nat.two_pow_pos i
  by_cases h : k / 2 ^ i % 2 = 1
  · simp [h]
  · simp [h]

/-- A stage of bit `b = 2 ^ i` and rotation `512 − b` read at `(k, j)`: the tile at `(k, (j + b · digit_i k) mod 512)`. -/
theorem rotStage_apply (i b s : ℕ) (hb : b = 2 ^ i) (hi : i < 8) (hs : s + b = 512) (cur : FVec F S256x512 .f32)
    (k : Fin 256) (j : Fin 512) :
    rotStage (BitVec.ofNat 32 b) (BitVec.ofNat 32 s) cur (ix2 k j)
      = cur (ix2 k ⟨(j.val + b * (k.val / b % 2)) % 512, Nat.mod_lt _ (by decide)⟩) := by
  have hbpos : 0 < b := by subst hb; exact Nat.two_pow_pos i
  unfold rotStage
  rw [select_apply, rotate_apply s (by omega)]
  show Scalar.select (BitVec.ofBool (rowIota (ix2 k j) &&& BitVec.ofNat 32 b != 0#32)) _ _ = _
  rw [rowIota_apply]
  by_cases h : k.val / b % 2 = 1
  · have hne := (bit_test i b k.val hb hi k.isLt).2 h
    rw [bne_iff_ne.2 hne]
    show Scalar.select 1#1 _ _ = _
    rw [select_one]
    refine congrArg (fun n => cur (ix2 k n)) (Fin.ext ?_)
    show (j.val + (512 - s)) % 512 = (j.val + b * (k.val / b % 2)) % 512
    rw [h]
    omega
  · have h0 : k.val / b % 2 = 0 := by omega
    have he : BitVec.ofNat 32 k.val &&& BitVec.ofNat 32 b = 0#32 :=
      Classical.not_not.1 (fun hne => h ((bit_test i b k.val hb hi k.isLt).1 hne))
    rw [he]
    show Scalar.select 0#1 _ _ = _
    rw [select_zero]
    refine congrArg (fun n => cur (ix2 k n)) (Fin.ext ?_)
    show j.val = (j.val + b * (k.val / b % 2)) % 512
    rw [h0]
    omega

/-- A stage read at a lane that is already `j` moved by `a`: the moves add. -/
theorem rotStage_step (i b s : ℕ) (hb : b = 2 ^ i) (hi : i < 8) (hs : s + b = 512) (cur : FVec F S256x512 .f32)
    (k : Fin 256) (j : Fin 512) (a : ℕ) :
    rotStage (BitVec.ofNat 32 b) (BitVec.ofNat 32 s) cur (ix2 k ⟨(j.val + a) % 512, Nat.mod_lt _ (by decide)⟩)
      = cur (ix2 k ⟨(j.val + (a + b * (k.val / b % 2))) % 512, Nat.mod_lt _ (by decide)⟩) := by
  rw [rotStage_apply i b s hb hi hs]
  refine congrArg (fun n => cur (ix2 k n)) (Fin.ext ?_)
  show ((j.val + a) % 512 + b * (k.val / b % 2)) % 512 = (j.val + (a + b * (k.val / b % 2))) % 512
  generalize b * (k.val / b % 2) = c
  omega

/-- A number below 256 is the sum of its eight binary digits' contributions. -/
theorem bits_sum (k : ℕ) (hk : k < 256) :
    128 * (k / 128 % 2) + 64 * (k / 64 % 2) + 32 * (k / 32 % 2) + 16 * (k / 16 % 2) + 8 * (k / 8 % 2)
      + 4 * (k / 4 % 2) + 2 * (k / 2 % 2) + 1 * (k / 1 % 2) = k := by
  have h7 : k % 256 = k % 128 + 128 * (k / 128 % 2) := by omega
  have h6 : k % 128 = k % 64 + 64 * (k / 64 % 2) := by omega
  have h5 : k % 64 = k % 32 + 32 * (k / 32 % 2) := by omega
  have h4 : k % 32 = k % 16 + 16 * (k / 16 % 2) := by omega
  have h3 : k % 16 = k % 8 + 8 * (k / 8 % 2) := by omega
  have h2 : k % 8 = k % 4 + 4 * (k / 4 % 2) := by omega
  have h1 : k % 4 = k % 2 + 2 * (k / 2 % 2) := by omega
  have h0 : k % 2 = 1 * (k / 1 % 2) := by omega
  have h8 : k % 256 = k := Nat.mod_eq_of_lt hk
  generalize k / 128 % 2 = q7 at *
  generalize k / 64 % 2 = q6 at *
  generalize k / 32 % 2 = q5 at *
  generalize k / 16 % 2 = q4 at *
  generalize k / 8 % 2 = q3 at *
  generalize k / 4 % 2 = q2 at *
  generalize k / 2 % 2 = q1 at *
  generalize k / 1 % 2 = q0 at *
  generalize k % 256 = r8 at *
  generalize k % 128 = r7 at *
  generalize k % 64 = r6 at *
  generalize k % 32 = r5 at *
  generalize k % 16 = r4 at *
  generalize k % 8 = r3 at *
  generalize k % 4 = r2 at *
  generalize k % 2 = r1 at *
  omega

/-- The eight stages together: row `k` is moved by `k` lanes. -/
theorem rot8 (v : FVec F S256x512 .f32) (k : Fin 256) (j : Fin 512) :
    rotStage 128#32 384#32 (rotStage 64#32 448#32 (rotStage 32#32 480#32 (rotStage 16#32 496#32 (rotStage 8#32 504#32
      (rotStage 4#32 508#32 (rotStage 2#32 510#32 (rotStage 1#32 511#32 v))))))) (ValueIdx.ix2 k j)
      = v (ValueIdx.ix2 k ⟨(j.val + k.val) % 512, Nat.mod_lt _ (by decide)⟩) := by
  rw [rotStage_apply 7 128 384 (by norm_num) (by norm_num) (by norm_num)]
  rw [rotStage_step 6 64 448 (by norm_num) (by norm_num) (by norm_num)]
  rw [rotStage_step 5 32 480 (by norm_num) (by norm_num) (by norm_num)]
  rw [rotStage_step 4 16 496 (by norm_num) (by norm_num) (by norm_num)]
  rw [rotStage_step 3 8 504 (by norm_num) (by norm_num) (by norm_num)]
  rw [rotStage_step 2 4 508 (by norm_num) (by norm_num) (by norm_num)]
  rw [rotStage_step 1 2 510 (by norm_num) (by norm_num) (by norm_num)]
  rw [rotStage_step 0 1 511 (by norm_num) (by norm_num) (by norm_num)]
  rw [bits_sum k.val k.isLt]

end Cert.KernelIdeal.Hand

end
-- ==== Proof.K0Cell.lean ====
/-
  One stored block of the first pipelined region, entry by entry.

  The body forms a 256 × 512 tile: row `k` of the first matrix's block against the 512 rows of two consecutive blocks of
  the doubled second matrix, each inner product over the larger of the product of the two norms and a small constant.
  Eight conditional left rotations along the lanes, by 1, 2, 4, …, 128 on the rows whose index has that bit set, bring
  lane `j + k` of row `k` to lane `j`.  The first 256 lanes are kept and the tile is transposed, so the stored block has
  the shift inside the block as its row and the row of the first matrix as its column; the entry is then clamped to
  [-1, 1], increased by one and halved.
-/
import proofs.«418415_j74801150427885_3_alg».proof.Proof.KDefs
import proofs.«418415_j74801150427885_3_alg».proof.Proof.SpecK
import proofs.«418415_j74801150427885_3_alg».proof.Proof.RotChain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable {F : FTy → Type} [FloatOps F]

/-- The quotient tile before the rotations. -/
def quot0 (v0 v2 v4 : Vec F S256x256 .bf16) (v9 v11 : Vec F S1x256 .f32) (v14 : Vec F S256x1 .f32) : FVec F S256x512 .f32 :=
  divf
    (matmul dot_S256x256_S256x512_S256x512_1_0_0_1_n_n none (shapeCast S256x256 v0 Facts₀.shapeCasts_S256x256_S256x256)
      (transpose S256x512 [1, 0]
        (concatenate S512x256 0 [⟨S256x256, shapeCast S256x256 v2 Facts₀.shapeCasts_S256x256_S256x256⟩, ⟨S256x256, shapeCast S256x256 v4 Facts₀.shapeCasts_S256x256_S256x256⟩] Facts₀.concatenates_S256x256_S256x256_S512x256_d0)
        Facts₀.transposes_S512x256_p1_0_S256x512)
      (constant S256x512 .f32 0x00000000#32))
    (maximumf
      (mulf
        (broadcastTo S256x512 (shapeCast S256x1 (shapeCast S256x1 v14 Facts₀.shapeCasts_S256x1_S256x1) Facts₀.shapeCasts_S256x1_S256x1) Facts₀.broadcasts_S256x1_S256x512)
        (broadcastTo S256x512 (shapeCast S1x512 (concatenate S1x512 1 [⟨S1x256, shapeCast S1x256 v9 Facts₀.shapeCasts_S1x256_S1x256⟩, ⟨S1x256, shapeCast S1x256 v11 Facts₀.shapeCasts_S1x256_S1x256⟩] Facts₀.concatenates_S1x256_S1x256_S1x512_d1) Facts₀.shapeCasts_S1x512_S1x512) Facts₀.broadcasts_S1x512_S256x512))
      (broadcast S256x512 (Scalar.ofBits .f32 0x322BCC77#32)))

theorem pay2_eq (v0 v2 v4 : Vec F S256x256 .bf16) (v9 v11 : Vec F S1x256 .f32) (v14 : Vec F S256x1 .f32) :
    k0_pay2 v0 v2 v4 v9 v11 v14 = rotStage 2#32 510#32 (rotStage 1#32 511#32 (quot0 v0 v2 v4 v9 v11 v14)) := rfl

theorem pay3_eq (v36 : FVec F S256x512 .f32) :
    k0_pay3 rowIota v36 508#32 = maximumf (broadcast S256x256 (Scalar.ofBits .f32 0xBF800000#32))
      (transpose S256x256 [1, 0]
        (extractStridedSlice S256x256 ![0, 0]
          (rotStage 128#32 384#32 (rotStage 64#32 448#32 (rotStage 32#32 480#32 (rotStage 16#32 496#32 (rotStage 8#32 504#32 (rotStage 4#32 508#32 v36))))))
          Facts₀.slices_S256x512_o0_0_S256x256)
        Facts₀.transposes_S256x256_p1_0_S256x256) := rfl

/-! ## The block product at an index -/

theorem lhs_dot_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl

theorem lhs_dot_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q

theorem rhs_dot_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q

theorem rhs_dot_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-- The block product into a zero accumulator, entry (k, r): row k of the left factor against column r of the right. -/
theorem mm_apply (a : FVec Ideal S256x256 .bf16) (b : FVec Ideal S256x512 .bf16) (k : Fin 256) (r : Fin 512) :
    matmul dot_S256x256_S256x512_S256x512_1_0_0_1_n_n none a b (constant S256x512 .f32 0x00000000#32) (ix2 k r)
      = ∑ d : Fin 256, a (ix2 k d) * b (ix2 d r) := by
  simp only [matmul]
  rw [Ideal.matmul_constant_zero_apply, ← Equiv.sum_comp (contrEquiv1 dot_S256x256_S256x512_S256x512_1_0_0_1_n_n 256 rfl rfl).symm]
  refine Finset.sum_congr rfl fun d _ => ?_
  have hk := contrEquiv1_symm_val dot_S256x256_S256x512_S256x512_1_0_0_1_n_n 256 rfl rfl d
  have el : dot_S256x256_S256x512_S256x512_1_0_0_1_n_n.lhsIdx (ix2 k r) ((contrEquiv1 dot_S256x256_S256x512_S256x512_1_0_0_1_n_n 256 rfl rfl).symm d) = ix2 k d :=
    funext fun a => Fin.ext (by
      match a with
      | ⟨0, _⟩ => exact lhs_dot_0 _ _
      | ⟨1, _⟩ => exact (lhs_dot_1 _ _).trans hk)
  have er : dot_S256x256_S256x512_S256x512_1_0_0_1_n_n.rhsIdx (ix2 k r) ((contrEquiv1 dot_S256x256_S256x512_S256x512_1_0_0_1_n_n 256 rfl rfl).symm d) = ix2 d r :=
    funext fun a => Fin.ext (by
      match a with
      | ⟨0, _⟩ => exact (rhs_dot_0 _ _).trans hk
      | ⟨1, _⟩ => exact rhs_dot_1 _ _)
  rw [el, er]

/-! ## The layout operations of the tile at an index -/

/-- Two 256-row blocks stacked: row r is row r of the first when r < 256, row r - 256 of the second otherwise. -/
theorem cat_rows_apply {α : Type} (a b : S256x256.Idx → α) (r : Fin 512) (d : Fin 256) :
    concatenate S512x256 0 [⟨S256x256, a⟩, ⟨S256x256, b⟩] Facts₀.concatenates_S256x256_S256x256_S512x256_d0 (ix2 r d)
      = if h : r.val < 256 then a (ix2 ⟨r.val, h⟩ d) else b (ix2 ⟨r.val - 256, by have := r.isLt; omega⟩ d) := by
  split
  · rename_i h
    exact concatenate_pair_apply_left (0 : Fin S512x256.rank) a b _ (ix2 r d) rfl (ix2 ⟨r.val, h⟩ d) (fun c => by
      match c with
      | ⟨0, _⟩ => rfl
      | ⟨1, _⟩ => rfl)
  · rename_i h
    exact concatenate_pair_apply_right (0 : Fin S512x256.rank) a b _ (ix2 r d) rfl rfl
      (ix2 ⟨r.val - 256, by have := r.isLt; omega⟩ d) (fun c hc => by
        match c, hc with
        | ⟨0, _⟩, hc => exact absurd rfl hc
        | ⟨1, _⟩, _ => rfl) (by show r.val - 256 + 256 = r.val; omega)

/-- Two 256-lane rows laid end to end: lane r is lane r of the first when r < 256, lane r - 256 of the second otherwise. -/
theorem cat_cols_apply {α : Type} (a b : S1x256.Idx → α) (r : Fin 512) :
    concatenate S1x512 1 [⟨S1x256, a⟩, ⟨S1x256, b⟩] Facts₀.concatenates_S1x256_S1x256_S1x512_d1 (ix2 (0 : Fin 1) r)
      = if h : r.val < 256 then a (ix2 0 ⟨r.val, h⟩) else b (ix2 0 ⟨r.val - 256, by have := r.isLt; omega⟩) := by
  split
  · rename_i h
    exact concatenate_pair_apply_left (1 : Fin S1x512.rank) a b _ (ix2 (0 : Fin 1) r) rfl (ix2 0 ⟨r.val, h⟩) (fun c => by
      match c with
      | ⟨0, _⟩ => rfl
      | ⟨1, _⟩ => rfl)
  · rename_i h
    exact concatenate_pair_apply_right (1 : Fin S1x512.rank) a b _ (ix2 (0 : Fin 1) r) rfl rfl
      (ix2 0 ⟨r.val - 256, by have := r.isLt; omega⟩) (fun c hc => by
        match c, hc with
        | ⟨0, _⟩, _ => rfl
        | ⟨1, _⟩, hc => exact absurd rfl hc) (by show r.val - 256 + 256 = r.val; omega)

/-- A column broadcast along the lanes reads its row's one entry. -/
theorem bcast_col_apply {α : Type} (v : S256x1.Idx → α) (k : Fin 256) (r : Fin 512) :
    broadcastTo S256x512 v Facts₀.broadcasts_S256x1_S256x512 (ix2 k r) = v (ix2 k (0 : Fin 1)) :=
  broadcastTo_apply v _ (ix2 k r) (ix2 k (0 : Fin 1)) fun a => by
    match a with
    | ⟨0, _⟩ => rfl
    | ⟨1, _⟩ => rfl

/-- The quotient tile, entry (k, r): row k of the first block against row r of the two stacked blocks, over the larger
    of the product of the two norms and the small constant. -/
theorem quot0_apply (x0 x1 x2 : Vec Ideal S256x256 .bf16) (x3 : Vec Ideal S256x1 .f32) (x4 x5 : Vec Ideal S1x256 .f32)
    (k : Fin 256) (r : Fin 512) :
    quot0 x0 x1 x2 x4 x5 x3 (ix2 k r)
      = Ideal.div (∑ d : Fin 256, x0 (ix2 k d) * (if h : r.val < 256 then x1 (ix2 ⟨r.val, h⟩ d) else x2 (ix2 ⟨r.val - 256, by have := r.isLt; omega⟩ d)))
          (max (x3 (ix2 k (0 : Fin 1)) * (if h : r.val < 256 then x4 (ix2 0 ⟨r.val, h⟩) else x5 (ix2 0 ⟨r.val - 256, by have := r.isLt; omega⟩))) Spec.eps) := by
  unfold quot0
  rw [divf_apply, maximumf_apply, mulf_apply, broadcast_apply, mm_apply]
  simp only [shapeCast_self]
  rw [broadcastTo_1b_ab_apply, cat_cols_apply, bcast_col_apply]
  simp only [shapeCast_self]
  refine congrArg₂ Ideal.div (Finset.sum_congr rfl fun d _ => ?_) rfl
  rw [transpose_ix2_apply, cat_rows_apply]
  simp only [shapeCast_self]

/-! ## One stored block at an index -/

/-- The stored block as the pointwise tail over the rotated, cut and transposed quotient tile. -/
theorem blk0_eq (x0 x1 x2 : Vec F S256x256 .bf16) (x3 : Vec F S256x1 .f32) (x4 x5 : Vec F S1x256 .f32) :
    blk0 x0 x1 x2 x3 x4 x5
      = mulf (addf (minimumf (broadcast S256x256 (Scalar.ofBits .f32 0x3F800000#32))
            (maximumf (broadcast S256x256 (Scalar.ofBits .f32 0xBF800000#32))
              (transpose S256x256 [1, 0]
                (extractStridedSlice S256x256 ![0, 0]
                  (rotStage 128#32 384#32 (rotStage 64#32 448#32 (rotStage 32#32 480#32 (rotStage 16#32 496#32 (rotStage 8#32 504#32
                    (rotStage 4#32 508#32 (rotStage 2#32 510#32 (rotStage 1#32 511#32 (quot0 x0 x1 x2 x4 x5 x3)))))))))
                  Facts₀.slices_S256x512_o0_0_S256x256)
                Facts₀.transposes_S256x256_p1_0_S256x256)))
          (broadcast S256x256 (Scalar.ofBits .f32 0x3F800000#32)))
        (broadcast S256x256 (Scalar.ofBits .f32 0x3F000000#32)) := rfl

/-- One stored block at an index: `sl` the row of the block (the shift inside the block), `kl` its column (the row of
    the first matrix inside its block).  The eight conditional rotations bring lane `sl + kl` of row `kl` of the quotient
    tile to lane `sl`; the cut keeps the lanes below 256 and the transpose exchanges the two coordinates. -/
theorem blk0_apply (x0 x1 x2 : Vec Ideal S256x256 .bf16) (x3 : Vec Ideal S256x1 .f32) (x4 x5 : Vec Ideal S1x256 .f32)
    (sl kl : Fin 256) :
    blk0 x0 x1 x2 x3 x4 x5 (ix2 sl kl)
      = (min Spec.one (max Spec.mone (Ideal.div
            (∑ d : Fin 256, x0 (ix2 kl d) * (if h : kl.val + sl.val < 256 then x1 (ix2 ⟨kl.val + sl.val, h⟩ d)
              else x2 (ix2 ⟨kl.val + sl.val - 256, by have := kl.isLt; have := sl.isLt; omega⟩ d)))
            (max (x3 (ix2 kl (0 : Fin 1)) * (if h : kl.val + sl.val < 256 then x4 (ix2 0 ⟨kl.val + sl.val, h⟩)
              else x5 (ix2 0 ⟨kl.val + sl.val - 256, by have := kl.isLt; have := sl.isLt; omega⟩))) Spec.eps))) + Spec.one) * Spec.half := by
  have hr : (⟨(sl.val + kl.val) % 512, Nat.mod_lt _ (by decide)⟩ : Fin 512)
      = ⟨kl.val + sl.val, by have := kl.isLt; have := sl.isLt; omega⟩ :=
    Fin.ext (by show (sl.val + kl.val) % 512 = kl.val + sl.val; have := kl.isLt; have := sl.isLt; omega)
  rw [blk0_eq, mulf_apply, addf_apply, minimumf_apply, maximumf_apply, broadcast_apply, broadcast_apply, broadcast_apply,
    transpose_ix2_apply,
    slice2_axis1_apply 0 _ Facts₀.slices_S256x512_o0_0_S256x256 kl sl ⟨sl.val, by have := sl.isLt; omega⟩ (Nat.zero_add _).symm, rot8]
  dsimp only
  rw [hr, quot0_apply]
  rfl

end Cert.KernelIdeal.Hand

end
-- ==== Proof.K0Val.lean ====
/-
  The output array of the first pipelined region as one function of the four arrays the region reads.

  Point `t` of the 16 × 16 grid has shift block `t / 16` and row block `t % 16`.  Its six input blocks are the first
  matrix and the first norms at the row block, and the doubled second matrix and the doubled second norms at block
  `row block + shift block` and at the block after it; a block's coordinate in its array is always the block index times
  the block's extent plus the coordinate inside the block.  So the entry (sl, kl) of the block it writes back is the cell
  at shift `(t / 16)·256 + sl` and row `(t % 16)·256 + kl`, and since the 256 blocks tile the [4096, 4096] array, the
  array ends holding the cell at every (shift, row).
-/
import proofs.«418415_j74801150427885_3_alg».proof.Proof.K0Cell
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! ## The printed index maps over the grid -/

/-- Point `t` of the 16 × 16 grid has shift block `t / 16` and row block `t % 16`: the output's block is (shift block, row
    block); the first matrix and the first norms are read at the row block; the doubled second matrix and the doubled second
    norms at the row block plus the shift block, and at the block after it. -/
theorem idx_facts0 : ∀ t : Fin cfg0.N,
    win0_6.index t (0 : Fin 2) = t.val / 16 ∧ win0_6.index t (1 : Fin 2) = t.val % 16
    ∧ win0_0.index t (0 : Fin 2) = t.val % 16 ∧ win0_0.index t (1 : Fin 2) = 0
    ∧ win0_1.index t (0 : Fin 2) = t.val % 16 + t.val / 16 ∧ win0_1.index t (1 : Fin 2) = 0
    ∧ win0_2.index t (0 : Fin 2) = t.val % 16 + t.val / 16 + 1 ∧ win0_2.index t (1 : Fin 2) = 0
    ∧ win0_3.index t (0 : Fin 2) = t.val % 16 ∧ win0_3.index t (1 : Fin 2) = 0
    ∧ win0_4.index t (0 : Fin 2) = 0 ∧ win0_4.index t (1 : Fin 2) = t.val % 16 + t.val / 16
    ∧ win0_5.index t (0 : Fin 2) = 0 ∧ win0_5.index t (1 : Fin 2) = t.val % 16 + t.val / 16 + 1 :=
  (by decide +kernel : ∀ t : Fin grid0.N, _)

/-! ## A block's entry from the arrays' entries -/

/-- One stored block's entry is the kernel's cell, when the six blocks are the arrays read at row block `kb`, at block
    `kb + sb` of the doubled arrays and at the block after it: row `kb·256 + kl` against row `(kb + sb)·256 + kl + sl`
    of the doubled matrix, which lies in the first of the two blocks when `kl + sl < 256` and in the second otherwise. -/
theorem cell_of_blocks (A : S4096x256.Idx → EReal) (B2 : S8192x256.Idx → EReal) (N : S4096x1.Idx → EReal) (M2 : S1x8192.Idx → EReal)
    (x0 x1 x2 : Vec Ideal S256x256 .bf16) (x3 : Vec Ideal S256x1 .f32) (x4 x5 : Vec Ideal S1x256 .f32)
    (sb kb : ℕ)
    (h0 : ∀ (p d : Fin 256) (i : Fin 4096), i.val = kb * 256 + p.val → x0 (ix2 p d) = A (ix2 i d))
    (h1 : ∀ (p d : Fin 256) (i : Fin 8192), i.val = (kb + sb) * 256 + p.val → x1 (ix2 p d) = B2 (ix2 i d))
    (h2 : ∀ (p d : Fin 256) (i : Fin 8192), i.val = (kb + sb + 1) * 256 + p.val → x2 (ix2 p d) = B2 (ix2 i d))
    (h3 : ∀ (p : Fin 256) (i : Fin 4096), i.val = kb * 256 + p.val → x3 (ix2 p (0 : Fin 1)) = N (ix2 i (0 : Fin 1)))
    (h4 : ∀ (q : Fin 256) (i : Fin 8192), i.val = (kb + sb) * 256 + q.val → x4 (ix2 (0 : Fin 1) q) = M2 (ix2 (0 : Fin 1) i))
    (h5 : ∀ (q : Fin 256) (i : Fin 8192), i.val = (kb + sb + 1) * 256 + q.val → x5 (ix2 (0 : Fin 1) q) = M2 (ix2 (0 : Fin 1) i))
    (y : S256x256.Idx) (s k : Fin 4096) (hs : s.val = sb * 256 + (y 0).val) (hk : k.val = kb * 256 + (y 1).val) :
    blk0 x0 x1 x2 x3 x4 x5 y = Spec.cellK A B2 N M2 s k := by
  obtain ⟨sl, kl, rfl⟩ : ∃ (sl kl : Fin 256), y = ix2 sl kl := ⟨y 0, y 1, eq_ix2 y⟩
  have hs' : s.val = sb * 256 + sl.val := hs
  have hk' : k.val = kb * 256 + kl.val := hk
  have hsl : sl.val < 256 := sl.isLt
  have hkl : kl.val < 256 := kl.isLt
  have he : (Spec.ext k s).val = (kb + sb) * 256 + (kl.val + sl.val) := by
    show k.val + s.val = _
    rw [hs', hk']; ring
  have hnum : ∀ d : Fin 256, x0 (ix2 kl d) * (if h : kl.val + sl.val < 256 then x1 (ix2 ⟨kl.val + sl.val, h⟩ d)
        else x2 (ix2 ⟨kl.val + sl.val - 256, by omega⟩ d)) = A (ix2 k d) * B2 (ix2 (Spec.ext k s) d) := by
    intro d
    rw [h0 kl d k hk']
    refine congrArg (A (ix2 k d) * ·) ?_
    split
    · exact h1 _ d _ he
    · exact h2 _ d _ (by rw [he]; show _ = (kb + sb + 1) * 256 + (kl.val + sl.val - 256); omega)
  have hden : x3 (ix2 kl (0 : Fin 1)) * (if h : kl.val + sl.val < 256 then x4 (ix2 0 ⟨kl.val + sl.val, h⟩)
        else x5 (ix2 0 ⟨kl.val + sl.val - 256, by omega⟩)) = N (ix2 k (0 : Fin 1)) * M2 (ix2 (0 : Fin 1) (Spec.ext k s)) := by
    rw [h3 kl k hk']
    refine congrArg (N (ix2 k (0 : Fin 1)) * ·) ?_
    split
    · exact h4 _ _ he
    · exact h5 _ _ (by rw [he]; show _ = (kb + sb + 1) * 256 + (kl.val + sl.val - 256); omega)
  rw [blk0_apply, Finset.sum_congr rfl (fun d _ => hnum d), hden]
  rfl

/-! ## The input blocks as entries of the arrays -/

variable (V : (c : Dev nD) → (b : Ref sig .tc) → Buf (Elt Ideal) ((c : Thread nD τ).loc b))

/-- Window 0's block at point `t`: rows `(t % 16)·256 …` of the first matrix. -/
theorem iblk0_0_apply (c : Dev nD) (t : Fin cfg0.N) (p d : Fin 256) (i : Fin 4096) (hi : i.val = t.val % 16 * 256 + p.val) :
    (iblk0 V c 0 t : Vec Ideal S256x256 .bf16) (ix2 p d) = (V c main_v9 : S4096x256.Idx → EReal) (ix2 i d) := by
  obtain ⟨e6a, e6b, e0a, e0b, e1a, e1b, e2a, e2b, e3a, e3b, e4a, e4b, e5a, e5b⟩ := idx_facts0 t
  unfold iblk0
  rw [View.read_apply]
  show V c main_v9 _ = V c main_v9 _
  congr 1
  funext a
  apply Fin.ext
  match a with
  | ⟨0, _⟩ => show win0_0.index t (0 : Fin 2) * 256 + 1 * p.val = i.val; rw [e0a, hi]; omega
  | ⟨1, _⟩ => show win0_0.index t (1 : Fin 2) * 256 + 1 * d.val = d.val; rw [e0b]; omega

/-- Window 1's block at point `t`: rows `(t % 16 + t / 16)·256 …` of the doubled second matrix. -/
theorem iblk0_1_apply (c : Dev nD) (t : Fin cfg0.N) (p d : Fin 256) (i : Fin 8192)
    (hi : i.val = (t.val % 16 + t.val / 16) * 256 + p.val) :
    (iblk0 V c 1 t : Vec Ideal S256x256 .bf16) (ix2 p d) = (V c main_v11 : S8192x256.Idx → EReal) (ix2 i d) := by
  obtain ⟨e6a, e6b, e0a, e0b, e1a, e1b, e2a, e2b, e3a, e3b, e4a, e4b, e5a, e5b⟩ := idx_facts0 t
  unfold iblk0
  rw [View.read_apply]
  show V c main_v11 _ = V c main_v11 _
  congr 1
  funext a
  apply Fin.ext
  match a with
  | ⟨0, _⟩ => show win0_1.index t (0 : Fin 2) * 256 + 1 * p.val = i.val; rw [e1a, hi]; omega
  | ⟨1, _⟩ => show win0_1.index t (1 : Fin 2) * 256 + 1 * d.val = d.val; rw [e1b]; omega

/-- Window 2's block at point `t`: the block after window 1's. -/
theorem iblk0_2_apply (c : Dev nD) (t : Fin cfg0.N) (p d : Fin 256) (i : Fin 8192)
    (hi : i.val = (t.val % 16 + t.val / 16 + 1) * 256 + p.val) :
    (iblk0 V c 2 t : Vec Ideal S256x256 .bf16) (ix2 p d) = (V c main_v11 : S8192x256.Idx → EReal) (ix2 i d) := by
  obtain ⟨e6a, e6b, e0a, e0b, e1a, e1b, e2a, e2b, e3a, e3b, e4a, e4b, e5a, e5b⟩ := idx_facts0 t
  unfold iblk0
  rw [View.read_apply]
  show V c main_v11 _ = V c main_v11 _
  congr 1
  funext a
  apply Fin.ext
  match a with
  | ⟨0, _⟩ => show win0_2.index t (0 : Fin 2) * 256 + 1 * p.val = i.val; rw [e2a, hi]; omega
  | ⟨1, _⟩ => show win0_2.index t (1 : Fin 2) * 256 + 1 * d.val = d.val; rw [e2b]; omega

/-- Window 3's block at point `t`: entries `(t % 16)·256 …` of the first norms. -/
theorem iblk0_3_apply (c : Dev nD) (t : Fin cfg0.N) (p : Fin 256) (i : Fin 4096) (hi : i.val = t.val % 16 * 256 + p.val) :
    (iblk0 V c 3 t : Vec Ideal S256x1 .f32) (ix2 p (0 : Fin 1)) = (V c main_v3 : S4096x1.Idx → EReal) (ix2 i (0 : Fin 1)) := by
  obtain ⟨e6a, e6b, e0a, e0b, e1a, e1b, e2a, e2b, e3a, e3b, e4a, e4b, e5a, e5b⟩ := idx_facts0 t
  unfold iblk0
  rw [View.read_apply]
  show V c main_v3 _ = V c main_v3 _
  congr 1
  funext a
  apply Fin.ext
  match a with
  | ⟨0, _⟩ => show win0_3.index t (0 : Fin 2) * 256 + 1 * p.val = i.val; rw [e3a, hi]; omega
  | ⟨1, _⟩ => show win0_3.index t (1 : Fin 2) * 1 + 1 * (0 : Fin 1).val = (0 : Fin 1).val; rw [e3b]; rfl

/-- Window 4's block at point `t`: entries `(t % 16 + t / 16)·256 …` of the doubled second norms. -/
theorem iblk0_4_apply (c : Dev nD) (t : Fin cfg0.N) (q : Fin 256) (i : Fin 8192)
    (hi : i.val = (t.val % 16 + t.val / 16) * 256 + q.val) :
    (iblk0 V c 4 t : Vec Ideal S1x256 .f32) (ix2 (0 : Fin 1) q) = (V c main_v8 : S1x8192.Idx → EReal) (ix2 (0 : Fin 1) i) := by
  obtain ⟨e6a, e6b, e0a, e0b, e1a, e1b, e2a, e2b, e3a, e3b, e4a, e4b, e5a, e5b⟩ := idx_facts0 t
  unfold iblk0
  rw [View.read_apply]
  show V c main_v8 _ = V c main_v8 _
  congr 1
  funext a
  apply Fin.ext
  match a with
  | ⟨0, _⟩ => show win0_4.index t (0 : Fin 2) * 1 + 1 * (0 : Fin 1).val = (0 : Fin 1).val; rw [e4a]; rfl
  | ⟨1, _⟩ => show win0_4.index t (1 : Fin 2) * 256 + 1 * q.val = i.val; rw [e4b, hi]; omega

/-- Window 5's block at point `t`: the block after window 4's. -/
theorem iblk0_5_apply (c : Dev nD) (t : Fin cfg0.N) (q : Fin 256) (i : Fin 8192)
    (hi : i.val = (t.val % 16 + t.val / 16 + 1) * 256 + q.val) :
    (iblk0 V c 5 t : Vec Ideal S1x256 .f32) (ix2 (0 : Fin 1) q) = (V c main_v8 : S1x8192.Idx → EReal) (ix2 (0 : Fin 1) i) := by
  obtain ⟨e6a, e6b, e0a, e0b, e1a, e1b, e2a, e2b, e3a, e3b, e4a, e4b, e5a, e5b⟩ := idx_facts0 t
  unfold iblk0
  rw [View.read_apply]
  show V c main_v8 _ = V c main_v8 _
  congr 1
  funext a
  apply Fin.ext
  match a with
  | ⟨0, _⟩ => show win0_5.index t (0 : Fin 2) * 1 + 1 * (0 : Fin 1).val = (0 : Fin 1).val; rw [e5a]; rfl
  | ⟨1, _⟩ => show win0_5.index t (1 : Fin 2) * 256 + 1 * q.val = i.val; rw [e5b, hi]; omega

/-! ## From the blocks to the array -/

/-- The output array after the region, entry by entry: the kernel's cell at shift `j 0` and row `j 1`. -/
abbrev cells (c : Dev nD) : S4096x4096.Idx → EReal :=
  fun j => Spec.cellK (V c main_v9) (V c main_v11) (V c main_v3) (V c main_v8) (j 0) (j 1)

/-- What point `t` writes back is its block of `cells`. -/
theorem flushed6_eq (c : Dev nD) (t : Fin cfg0.N) :
    (dat0 (F := Ideal) V c).flushed 6 t = ((cfg0.win 6).blk t).view.read (Elt Ideal) (cells V c) := by
  show (cfg0.win 6).cut (grid0.coords t) ((dat0 V c).after 6 t) = _
  rw [after0_6]
  obtain ⟨e6a, e6b, e0a, e0b, e1a, e1b, e2a, e2b, e3a, e3b, e4a, e4b, e5a, e5b⟩ := idx_facts0 t
  funext y
  show blk0 (iblk0 V c 0 t) (iblk0 V c 1 t) (iblk0 V c 2 t) (iblk0 V c 3 t) (iblk0 V c 4 t) (iblk0 V c 5 t) y
      = Spec.cellK (V c main_v9) (V c main_v11) (V c main_v3) (V c main_v8)
          ((((cfg0.win 6).blk t).view.emb y) 0) ((((cfg0.win 6).blk t).view.emb y) 1)
  exact cell_of_blocks (V c main_v9) (V c main_v11) (V c main_v3) (V c main_v8)
    (iblk0 V c 0 t) (iblk0 V c 1 t) (iblk0 V c 2 t) (iblk0 V c 3 t) (iblk0 V c 4 t) (iblk0 V c 5 t)
    (t.val / 16) (t.val % 16)
    (fun p d i hi => iblk0_0_apply V c t p d i hi)
    (fun p d i hi => iblk0_1_apply V c t p d i hi)
    (fun p d i hi => iblk0_2_apply V c t p d i hi)
    (fun p i hi => iblk0_3_apply V c t p i hi)
    (fun q i hi => iblk0_4_apply V c t q i hi)
    (fun q i hi => iblk0_5_apply V c t q i hi)
    y ((((cfg0.win 6).blk t).view.emb y) 0) ((((cfg0.win 6).blk t).view.emb y) 1)
    (by show win0_6.index t (0 : Fin 2) * 256 + 1 * (y 0).val = _; rw [e6a]; omega)
    (by show win0_6.index t (1 : Fin 2) * 256 + 1 * (y 1).val = _; rw [e6b]; omega)

/-- An index of the array is in point `t`'s block iff each coordinate is in the block's range on its axis. -/
theorem mem_blk6 (t : Fin cfg0.N) (i : S4096x4096.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v12).slice (win0_6.rect t)).set ↔ _
  rw [View.set_slice_whole, Rect.mem_set_unit]
  exact Iff.rfl

/-- Every entry (s, k) of the array is in the block of the point with shift block `s / 256` and row block `k / 256`. -/
theorem cover6 (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 256 := N_0
  have hlt : (i 0).val / 256 * 16 + (i 1).val / 256 < cfg0.N := by rw [hN]; omega
  obtain ⟨e6a, e6b, -⟩ := idx_facts0 ⟨(i 0).val / 256 * 16 + (i 1).val / 256, hlt⟩
  refine ⟨⟨(i 0).val / 256 * 16 + (i 1).val / 256, hlt⟩, flush0_6 _, ?_⟩
  rw [mem_blk6]
  intro a
  match a with
  | ⟨0, _⟩ =>
    show win0_6.index ⟨(i 0).val / 256 * 16 + (i 1).val / 256, hlt⟩ (0 : Fin 2) * 256 ≤ (i 0).val
      ∧ (i 0).val < win0_6.index ⟨(i 0).val / 256 * 16 + (i 1).val / 256, hlt⟩ (0 : Fin 2) * 256 + 256
    rw [e6a]
    show ((i 0).val / 256 * 16 + (i 1).val / 256) / 16 * 256 ≤ (i 0).val
      ∧ (i 0).val < ((i 0).val / 256 * 16 + (i 1).val / 256) / 16 * 256 + 256
    omega
  | ⟨1, _⟩ =>
    show win0_6.index ⟨(i 0).val / 256 * 16 + (i 1).val / 256, hlt⟩ (1 : Fin 2) * 256 ≤ (i 1).val
      ∧ (i 1).val < win0_6.index ⟨(i 0).val / 256 * 16 + (i 1).val / 256, hlt⟩ (1 : Fin 2) * 256 + 256
    rw [e6b]
    show ((i 0).val / 256 * 16 + (i 1).val / 256) % 16 * 256 ≤ (i 1).val
      ∧ (i 1).val < ((i 0).val / 256 * 16 + (i 1).val / 256) % 16 * 256 + 256
    omega

/-- The whole output array after the region, for any proof data with `dat0`'s arrays and output blocks. -/
theorem arr6_eq (c : Dev nD) :
    (dat0 (F := Ideal) V c).arrAt 6 cfg0.N
      = fun j => Spec.cellK (V c main_v9) (V c main_v11) (V c main_v3) (V c main_v8) (j 0) (j 1) :=
  (dat0 (F := Ideal) V c).arrAt_eq_of_cover 6 (cells V c) (fun t _ => flushed6_eq V c t) cover6

end Cert.KernelIdeal.Hand

end
-- ==== Proof.K1Val.lean ====
/-
  The value of the second pipelined region: what its 1 × 1 result array holds when the region ends.

  The region walks sixteen points in order.  At point `t` its body reads the slab of rows `256 t … 256 t + 255` (all
  4096 columns) of the matrix `p` the first region left, clamps every entry to `[0, 1]`, takes `log (1 - p)` bounded
  below by `-100`, sums it over the slab and multiplies by `-1/2`: the row-block term `kBulk` of block `t`.  The
  first point stores zero plus its term plus a correction over row `0` of the matrix and the labels; every later point
  adds its term to what the point before left.  So after point `n` the block holds

      0 + (b₀ + corr) + b₁ + … + bₙ  =  (b₀ + … + bₙ) + corr,

  a rearrangement that uses only commutativity and associativity of addition on the extended reals (no finiteness).
  After the last point this is the loss `kLoss`, and the last point is the only one that writes the block back, so the
  result array ends holding it.

  The module reads each arithmetic piece of the body at an index (the clamp, the two bounded logarithms, the slab's
  double sum, the correction's sum over the columns), reads the slab and the labels where their windows' rectangles
  put them in the arrays, proves the running sum by induction on the point, and opens the result array at its one
  write-back.
-/
import proofs.«418415_j74801150427885_3_alg».proof.Proof.KDefs
import proofs.«418415_j74801150427885_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat)
open Cert.KernelIdeal Cert.KernelIdeal.Gen
open scoped BigOperators

/-! ## The body's arithmetic, read at an index -/

/-- The clamp to `[0, 1]`, entry by entry. -/
theorem clamp_apply (x : Vec Ideal S256x4096 .f32) (p : Fin 256) (q : Fin 4096) :
    k1_pay2 (F := Ideal) x (ix2 p q) = Spec.clip01 (x (ix2 p q)) := by
  unfold k1_pay2
  rw [shapeCast_self]
  rfl

/-- `log (1 - p)` of the clamped entry, bounded below by `-100`: the body writes `log1p (0 - p)`, and `0 - p = -p`. -/
theorem l1_apply (x : Vec Ideal S256x4096 .f32) (p : Fin 256) (q : Fin 4096) :
    k1_pay3 (F := Ideal) x (ix2 p q) = Spec.l1 (Spec.clip01 (x (ix2 p q))) := by
  unfold k1_pay3
  show max (Ideal.log1p (Ideal.ofBits .f32 0x00000000#32 - k1_pay2 (F := Ideal) x (ix2 p q))) (Ideal.ofBits .f32 0xC2C80000#32) = _
  rw [clamp_apply, Ideal.ofBits_zero_f32, zero_sub]
  rfl

/-- The sum along the columns of a 256 × 4096 vector, at row `i`. -/
theorem rowsum_apply (v : FVec Ideal S256x4096 .f32) (i : Fin 256) :
    multiReduction (F := Ideal) .add [1] S256 v 0x00000000#32 reduces_S256x4096_S256 (.inl rfl) rfl (ix1 i)
      = ∑ k : Fin 4096, v (ix2 i k) := by
  refine (Ideal.multiReduction_add_single v 0x00000000#32 reduces_S256x4096_S256 (.inl rfl) rfl (ix1 i)).trans ?_
  show ∑ k : Fin 4096, v (reduces_S256x4096_S256.lift (ix1 i) k) = _
  refine Finset.sum_congr rfl fun k _ => congrArg v ?_
  funext a
  match a with
  | ⟨0, _⟩ => exact Fin.ext rfl
  | ⟨1, _⟩ => exact Fin.ext rfl

/-- A length-256 vector laid out as a 256 × 1 column keeps entry `i` at row `i`. -/
theorem colcast_apply (v : FVec Ideal S256 .f32) (i : Fin 256) (u : Fin 1) :
    shapeCast S256x1 v shapeCasts_S256_S256x1 (ix2 i u) = v (ix1 i) :=
  shapeCast_apply v shapeCasts_S256_S256x1 _ _ (by
    have hu : u.val = 0 := by omega
    rw [Shape.rowMajor_val_two, Shape.rowMajor_val_one]
    show i.val = i.val * 1 + u.val
    omega)

/-- The sum along the rows of a 256 × 1 column. -/
theorem colsum_apply (w : FVec Ideal S256x1 .f32) (j : S1.Idx) :
    multiReduction (F := Ideal) .add [0] S1 w 0x00000000#32 reduces_S256x1_S1 (.inl rfl) rfl j
      = ∑ i : Fin 256, w (ix2 i (0 : Fin 1)) := by
  refine (Ideal.multiReduction_add_single w 0x00000000#32 reduces_S256x1_S1 (.inl rfl) rfl j).trans ?_
  show ∑ i : Fin 256, w (reduces_S256x1_S1.lift j i) = _
  refine Finset.sum_congr rfl fun i _ => congrArg w ?_
  funext a
  match a with
  | ⟨0, _⟩ => exact Fin.ext rfl
  | ⟨1, h1⟩ => exact Fin.ext (by have h : (reduces_S256x1_S1.lift j i ⟨1, h1⟩).val < 1 := (reduces_S256x1_S1.lift j i ⟨1, h1⟩).isLt; show (reduces_S256x1_S1.lift j i ⟨1, h1⟩).val = 0; omega)

/-- A one-entry vector laid out as 1 × 1 is that entry. -/
theorem cast11_apply (v : FVec Ideal S1 .f32) (j : S1x1.Idx) :
    shapeCast S1x1 v shapeCasts_S1_S1x1 j = v (ix1 (0 : Fin 1)) :=
  shapeCast_apply v shapeCasts_S1_S1x1 _ _ (by
    have h0 : (j 0).val = 0 := by have h : (j 0).val < 1 := (j 0).isLt; omega
    have h1 : (j 1).val = 0 := by have h : (j 1).val < 1 := (j 1).isLt; omega
    rw [Shape.rowMajor_val_two, Shape.rowMajor_val_one]
    show 0 = (j 0).val * 1 + (j 1).val
    omega)

/-- A slab's term: `-1/2` times the sum over its 256 rows and 4096 columns of the bounded `log (1 - p)`. -/
theorem bulk_apply (x : Vec Ideal S256x4096 .f32) (j : S1x1.Idx) :
    k1_pay4 (F := Ideal) x j = Spec.mhalf * ∑ i : Fin 256, ∑ k : Fin 4096, Spec.l1 (Spec.clip01 (x (ix2 i k))) := by
  unfold k1_pay4
  show Spec.mhalf * _ = Spec.mhalf * _
  refine congrArg (Spec.mhalf * ·) ?_
  refine (cast11_apply _ j).trans ?_
  refine (colsum_apply _ _).trans ?_
  refine Finset.sum_congr rfl fun i _ => ?_
  refine (colcast_apply _ i 0).trans ?_
  refine (rowsum_apply _ i).trans ?_
  exact Finset.sum_congr rfl fun k _ => l1_apply x i k

/-- `log p` of the clamped entry, bounded below by `-100`. -/
theorem lp_apply (x : Vec Ideal S256x4096 .f32) (p : Fin 256) (q : Fin 4096) :
    maximumf (log (k1_pay2 (F := Ideal) x)) (broadcast S256x4096 (Scalar.ofBits (F := Ideal) .f32 0xC2C80000#32)) (ix2 p q)
      = Spec.lp (Spec.clip01 (x (ix2 p q))) := by
  show max (Ideal.log (k1_pay2 (F := Ideal) x (ix2 p q))) (Ideal.ofBits .f32 0xC2C80000#32) = _
  rw [clamp_apply]
  rfl

/-- Row `0` of a 256 × 4096 vector, as a 1 × 4096 vector. -/
theorem slice0_apply (v : FVec Ideal S256x4096 .f32) (u : Fin 1) (k : Fin 4096) :
    extractStridedSlice S1x4096 ![0, 0] v slices_S256x4096_o0_0_S1x4096 (ix2 u k) = v (ix2 (0 : Fin 256) k) :=
  extractStridedSlice_apply ![0, 0] v slices_S256x4096_o0_0_S1x4096 (ix2 u k) (ix2 (0 : Fin 256) k) (fun a => by
    match a with
    | ⟨0, _⟩ => show 0 = 0 + u.val; omega
    | ⟨1, _⟩ => show k.val = 0 + k.val; omega)

/-- The sum along the columns of a 1 × 4096 vector. -/
theorem lanesum_apply (w : FVec Ideal S1x4096 .f32) (j : S1.Idx) :
    multiReduction (F := Ideal) .add [1] S1 w 0x00000000#32 reduces_S1x4096_S1 (.inl rfl) rfl j
      = ∑ k : Fin 4096, w (ix2 (0 : Fin 1) k) := by
  refine (Ideal.multiReduction_add_single w 0x00000000#32 reduces_S1x4096_S1 (.inl rfl) rfl j).trans ?_
  show ∑ k : Fin 4096, w (reduces_S1x4096_S1.lift j k) = _
  refine Finset.sum_congr rfl fun k _ => congrArg w ?_
  funext a
  match a with
  | ⟨0, h0⟩ => exact Fin.ext (by have h : (reduces_S1x4096_S1.lift j k ⟨0, h0⟩).val < 1 := (reduces_S1x4096_S1.lift j k ⟨0, h0⟩).isLt; show (reduces_S1x4096_S1.lift j k ⟨0, h0⟩).val = 0; omega)
  | ⟨1, _⟩ => exact Fin.ext rfl

/-- What the first point stores: what it is given, plus the slab's term plus the correction, the sum over the columns `k` of
    `(0 - y k) · log p(0, k) + (y k - 1/2) · log (1 - p(0, k))` on row `0` of the slab. -/
theorem first_apply (x : Vec Ideal S256x4096 .f32) (lab : Vec Ideal S1x4096 .f32) (prev : Vec Ideal S1x1 .f32) (j : S1x1.Idx) :
    k1_pay5 (F := Ideal) x lab prev j
      = prev j + (k1_pay4 (F := Ideal) x j
          + ∑ k : Fin 4096, ((Spec.zero - lab (ix2 (0 : Fin 1) k)) * Spec.lp (Spec.clip01 (x (ix2 (0 : Fin 256) k)))
              + (lab (ix2 (0 : Fin 1) k) - Spec.half) * Spec.l1 (Spec.clip01 (x (ix2 (0 : Fin 256) k))))) := by
  unfold k1_pay5
  rw [shapeCast_self, shapeCast_self]
  show prev j + (k1_pay4 (F := Ideal) x j + _) = prev j + (k1_pay4 (F := Ideal) x j + _)
  refine congrArg (fun z => prev j + (k1_pay4 (F := Ideal) x j + z)) ?_
  refine (cast11_apply _ j).trans ?_
  refine (lanesum_apply _ _).trans ?_
  refine Finset.sum_congr rfl fun k _ => ?_
  show (Spec.zero - lab (ix2 (0 : Fin 1) k)) * extractStridedSlice S1x4096 ![0, 0] (_ : FVec Ideal S256x4096 .f32) slices_S256x4096_o0_0_S1x4096 (ix2 (0 : Fin 1) k)
      + (lab (ix2 (0 : Fin 1) k) - Spec.half) * extractStridedSlice S1x4096 ![0, 0] (_ : FVec Ideal S256x4096 .f32) slices_S256x4096_o0_0_S1x4096 (ix2 (0 : Fin 1) k) = _
  rw [slice0_apply, slice0_apply, l1_apply, lp_apply]

/-- What a later point stores: what the point before left, plus the slab's term. -/
theorem later_apply (x : Vec Ideal S256x4096 .f32) (prev : Vec Ideal S1x1 .f32) (j : S1x1.Idx) :
    k1_pay6 (F := Ideal) x prev j = prev j + k1_pay4 (F := Ideal) x j := by
  unfold k1_pay6
  rw [shapeCast_self]
  rfl

/-! ## The slab and the labels, read where their windows put them in the arrays -/

variable (V : (c : Dev nD) → (b : Ref sig .tc) → Buf (Elt Ideal) ((c : Thread nD τ).loc b))

/-- The slab of the matrix and the labels the body reads at point `t`, at their literal vector types. -/
abbrev slab (c : Dev nD) (t : Fin cfg1.N) : Vec Ideal S256x4096 .f32 := iblk1 (F := Ideal) V c 0 t
abbrev labs (c : Dev nD) (t : Fin cfg1.N) : Vec Ideal S1x4096 .f32 := iblk1 (F := Ideal) V c 1 t

/-- The matrix's window at point `t` is block `(t, 0)`; the labels' window is always block `(0, 0)`. -/
theorem idx1_0 : ∀ t : Fin cfg1.N, win1_0.index t 0 = t.val ∧ win1_0.index t 1 = 0 :=
  (by decide +kernel : ∀ t : Fin grid1.N, win1_0.index t 0 = t.val ∧ win1_0.index t 1 = 0)

theorem idx1_1 : ∀ t : Fin cfg1.N, win1_1.index t 0 = 0 ∧ win1_1.index t 1 = 0 :=
  (by decide +kernel : ∀ t : Fin grid1.N, win1_1.index t 0 = 0 ∧ win1_1.index t 1 = 0)

/-- Entry `(p, q)` of the slab at point `t` is entry `(256 t + p, q)` of the matrix. -/
theorem slab_apply (c : Dev nD) (t : Fin cfg1.N) (p : Fin 256) (q : Fin 4096) (r : Fin 4096) (hr : r.val = 256 * t.val + p.val) :
    slab V c t (ix2 p q) = V c main_v12 (ix2 r q) := by
  unfold slab iblk1
  rw [View.read_apply]
  show V c main_v12 _ = V c main_v12 _
  congr 1
  funext a
  apply Fin.ext
  match a with
  | ⟨0, _⟩ => show win1_0.index t 0 * 256 + 1 * p.val = r.val; rw [(idx1_0 t).1]; omega
  | ⟨1, _⟩ => show win1_0.index t 1 * 4096 + 1 * q.val = q.val; rw [(idx1_0 t).2]; omega

/-- The labels' block is the whole 1 × 4096 array at every point. -/
theorem labels_apply (c : Dev nD) (t : Fin cfg1.N) (u : Fin 1) (k : Fin 4096) :
    labs V c t (ix2 u k) = V c main_v13 (ix2 (0 : Fin 1) k) := by
  unfold labs iblk1
  rw [View.read_apply]
  show V c main_v13 _ = V c main_v13 _
  congr 1
  funext a
  apply Fin.ext
  match a with
  | ⟨0, _⟩ => show win1_1.index t 0 * 1 + 1 * u.val = 0; rw [(idx1_1 t).1]; omega
  | ⟨1, _⟩ => show win1_1.index t 1 * 4096 + 1 * k.val = k.val; rw [(idx1_1 t).2]; omega

/-! ## The running sum -/

/-- The three arrays of the mathematics, read off the buffers the region finds: the bounded logarithm of the clamped
    entry, the bounded logarithm of one minus it, and the labels. -/
abbrev Pv (c : Dev nD) : Fin 4096 → Fin 4096 → EReal := fun s k => Spec.lp (Spec.clip01 (V c main_v12 (ix2 s k)))
abbrev Qv (c : Dev nD) : Fin 4096 → Fin 4096 → EReal := fun s k => Spec.l1 (Spec.clip01 (V c main_v12 (ix2 s k)))
abbrev labv (c : Dev nD) : Fin 4096 → EReal := fun k => V c main_v13 (ix2 (0 : Fin 1) k)

/-- The term of the slab at point `t` is the row-block term of block `t`. -/
theorem bulk_slab (c : Dev nD) (t : Fin cfg1.N) (r : Fin 16) (hr : r.val = t.val) (j : S1x1.Idx) :
    k1_pay4 (F := Ideal) (slab V c t) j = Spec.kBulk (Qv V c) r := by
  refine (bulk_apply (slab V c t) j).trans ?_
  unfold Spec.kBulk
  refine congrArg (Spec.mhalf * ·) (Finset.sum_congr rfl fun i _ => Finset.sum_congr rfl fun k _ => ?_)
  exact congrArg (fun z => Spec.l1 (Spec.clip01 z))
    (slab_apply V c t i k ⟨256 * r.val + i.val, by have := r.isLt; have := i.isLt; omega⟩
      (by show 256 * r.val + i.val = 256 * t.val + i.val; rw [hr]))

/-- The correction the first point adds, over the matrix's row `0` and the labels. -/
theorem corr_slab (c : Dev nD) (h0 : 0 < cfg1.N) :
    (∑ k : Fin 4096, ((Spec.zero - labs V c ⟨0, h0⟩ (ix2 (0 : Fin 1) k))
          * Spec.lp (Spec.clip01 (slab V c ⟨0, h0⟩ (ix2 (0 : Fin 256) k)))
        + (labs V c ⟨0, h0⟩ (ix2 (0 : Fin 1) k) - Spec.half)
          * Spec.l1 (Spec.clip01 (slab V c ⟨0, h0⟩ (ix2 (0 : Fin 256) k)))))
      = Spec.kCorr (Pv V c) (Qv V c) (labv V c) := by
  unfold Spec.kCorr
  refine Finset.sum_congr rfl fun k _ => ?_
  rw [labels_apply V c ⟨0, h0⟩ 0 k, slab_apply V c ⟨0, h0⟩ 0 k 0 (by show 0 = 256 * 0 + 0; omega)]

/-- The partial sums of the sixteen row-block terms, through block `n`. -/
def psum (Q : Fin 4096 → Fin 4096 → EReal) (n : ℕ) : EReal :=
  ∑ r ∈ Finset.range (n + 1), if h : r < 16 then Spec.kBulk Q ⟨r, h⟩ else 0

theorem psum_zero (Q : Fin 4096 → Fin 4096 → EReal) : psum Q 0 = Spec.kBulk Q 0 := by
  unfold psum
  rw [Finset.sum_range_one, dif_pos (by omega)]
  rfl

theorem psum_succ (Q : Fin 4096 → Fin 4096 → EReal) (n : ℕ) (h : n + 1 < 16) :
    psum Q (n + 1) = psum Q n + Spec.kBulk Q ⟨n + 1, h⟩ := by
  unfold psum
  rw [Finset.sum_range_succ _ (n + 1), dif_pos h]

theorem psum_last (Q : Fin 4096 → Fin 4096 → EReal) : psum Q 15 = ∑ r : Fin 16, Spec.kBulk Q r := by
  unfold psum
  rw [← Fin.sum_univ_eq_sum_range (fun r => if h : r < 16 then Spec.kBulk Q ⟨r, h⟩ else 0) 16]
  exact Finset.sum_congr rfl fun r _ => dif_pos r.isLt

/-- After point `n` the 1 × 1 block holds the first `n + 1` row-block terms plus the correction: the first point adds
    its term and the correction to zero, each later point adds its term, and addition of extended reals is
    commutative and associative. -/
theorem acc1_eq (c : Dev nD) : ∀ (n : ℕ) (hn : n < cfg1.N) (j : S1x1.Idx),
    acc1 (F := Ideal) V c n hn j = psum (Qv V c) n + Spec.kCorr (Pv V c) (Qv V c) (labv V c)
  | 0, hn, j => by
    rw [acc1_zero]
    unfold accA
    refine (first_apply (slab V c ⟨0, hn⟩) (labs V c ⟨0, hn⟩) (k1_pay1 (F := Ideal)) j).trans ?_
    rw [corr_slab V c hn, bulk_slab V c ⟨0, hn⟩ 0 rfl j, psum_zero]
    show Ideal.ofBits .f32 0x00000000#32 + _ = _
    rw [Ideal.ofBits_zero_f32, zero_add]
  | n + 1, hn, j => by
    have hN : cfg1.N = 16 := N_1
    rw [acc1_succ]
    unfold accB
    refine (later_apply (slab V c ⟨n + 1, hn⟩) (acc1 (F := Ideal) V c n (Nat.lt_of_succ_lt hn)) j).trans ?_
    rw [acc1_eq c n (Nat.lt_of_succ_lt hn) j, bulk_slab V c ⟨n + 1, hn⟩ ⟨n + 1, by omega⟩ rfl j, psum_succ _ n (by omega)]
    exact add_right_comm _ _ _

/-! ## The result array -/

/-- After the last point the block holds the loss. -/
theorem acc1_last (c : Dev nD) (h : 15 < cfg1.N) (j : S1x1.Idx) :
    acc1 (F := Ideal) V c 15 h j = Spec.kLoss (Pv V c) (Qv V c) (labv V c) := by
  rw [acc1_eq V c 15 h j, psum_last]
  rfl

/-- Only the last point writes the block back, and what it writes is the block of the array that is the loss at
    its one entry. -/
theorem flushed2_eq (c : Dev nD) (t : Fin cfg1.N) (hf : (cfg1.win 2).flush t = true) :
    (dat1 (F := Ideal) V c).flushed 2 t
      = ((cfg1.win 2).blk t).view.read (Elt Ideal) (fun _ => Spec.kLoss (Pv V c) (Qv V c) (labv V c)) := by
  have hN : cfg1.N = 16 := N_1
  have h15 : t.val = 15 := by have := (flush1_2 t).mp hf; have := t.isLt; omega
  obtain rfl : t = t1_15 := Fin.ext h15
  funext y
  show (cfg1.win 2).cut (grid1.coords t1_15) ((dat1 (F := Ideal) V c).after 2 t1_15) y = _
  rw [after1_2, View.read_apply]
  exact acc1_last V c _ _

/-- The 1 × 1 result array after the region: its one entry lies in the block the last point writes back (the block
    starts at offset zero on both axes and has extent one), so the array ends holding the loss. -/
theorem arr2_eq (c : Dev nD) :
    (dat1 (F := Ideal) V c).arrAt 2 cfg1.N = fun _ => Spec.kLoss (fun s k => Spec.lp (Spec.clip01 (V c main_v12 (ValueIdx.ix2 s k)))) (fun s k => Spec.l1 (Spec.clip01 (V c main_v12 (ValueIdx.ix2 s k)))) (fun k => V c main_v13 (ValueIdx.ix2 (0 : Fin 1) k)) :=
  (dat1 (F := Ideal) V c).arrAt_eq_of_cover 2 (fun _ => Spec.kLoss (Pv V c) (Qv V c) (labv V c)) (flushed2_eq V c) fun i =>
    ⟨t1_15, (flush1_2 t1_15).mpr rfl, by
      have hz : ∀ a : Fin 2, win1_2.index t1_15 a * win1_2.size a = 0 ∧ win1_2.xsize (grid1.coords t1_15) a = 1 := by
        decide +kernel
      have hi : ∀ a : Fin 2, (i a : Nat) < 1 := fun a => by
        match a with
        | ⟨0, _⟩ => exact (i 0).isLt
        | ⟨1, _⟩ => exact (i 1).isLt
      show i ∈ ((View.whole main_v14).slice (win1_2.rect t1_15)).set
      rw [View.set_slice_whole, Rect.mem_set_unit]
      intro a
      show win1_2.index t1_15 a * win1_2.size a ≤ (i a : Nat)
        ∧ (i a : Nat) < win1_2.index t1_15 a * win1_2.size a + win1_2.xsize (grid1.coords t1_15) a
      rw [(hz a).1, (hz a).2]
      have := hi a
      omega⟩

end Cert.KernelIdeal.Hand

end
-- ==== Proof.HostVals.lean ====
/-
  What the host operations of the kernel's program leave in the buffers its two pipelined regions read, entry by
  entry, from arbitrary starting contents.

  Before the first region: the two matrices narrowed to the 16-bit format (at the extended reals the identity), the
  second one set on top of itself, so that row j of the 8192 is row j mod 4096; the row norms of the first matrix as a
  column; the row norms of the second as a row followed by itself, so that column j of the 8192 is the norm of row
  j mod 4096.  A row norm is the square root of the row sum, from a zero initial value, of the squares.  Between the
  regions: the label vector as a row.  After the second region: its 1 × 1 result as a scalar, and the first region's
  4096 × 4096 result flattened row-major, so that flat position i is the entry at (i / 4096, i mod 4096).
-/
import proofs.«418415_j74801150427885_3_alg».proof.Proof.Gen.KernelIdeal.Regions
import proofs.«418415_j74801150427885_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

/-! ## The pure operations at an index -/

/-- The row norm as the program's host operations spell it: the square root of the row sum, from a zero initial value,
    of the squares. -/
theorem rowNorm_apply (x : FVec Ideal S4096x256 .f32) (k : Fin 4096) :
    (Host.sqrt (Host.reduceAdd (mulf x x) (constant (F := Ideal) S_ .f32 0x00000000#32) reducesTo_S4096x256_S4096_d1 h_S_)
      : FVec Ideal S4096 .f32) (ix1 k) = Spec.nrm x k := by
  have hR : S4096x256.Reduces [1] S4096 := by decide
  show Ideal.sqrt (Ideal.hostReduceAdd reducesTo_S4096x256_S4096_d1 (mulf x x) (Ideal.ofBits .f32 0x00000000#32) (ix1 k)) = _
  rw [Ideal.hostReduceAdd_single reducesTo_S4096x256_S4096_d1 hR, Ideal.ofBits_zero_f32, zero_add]
  unfold Spec.nrm
  congr 1
  refine Finset.sum_congr rfl fun d _ => ?_
  -- the index the reduction inserts coordinate `d` into is (k, d)
  have hl : hR.lift (ix1 k) d = ix2 k d := by
    funext a
    match a with
    | ⟨0, _⟩ => exact Fin.ext rfl
    | ⟨1, _⟩ => exact Fin.ext rfl
  show x (hR.lift (ix1 k) d) * x (hR.lift (ix1 k) d) = _
  rw [hl]
  rfl

/-- A [4096, 256] array set on top of itself reads, at row `j` of the 8192, the array at row `j mod 4096`. -/
theorem concat_rows_self_apply {α : Type} (x : S4096x256.Idx → α) (j : Fin 8192) (d : Fin 256) :
    concatenate S8192x256 0 [⟨S4096x256, x⟩, ⟨S4096x256, x⟩] concatenates_S4096x256_S4096x256_S8192x256_d0 (ix2 j d)
      = x (ix2 ⟨j.val % 4096, Nat.mod_lt _ (by decide)⟩ d) := by
  by_cases hj : j.val < 4096
  · refine concatenate_pair_apply_left (0 : Fin 2) x x _ (ix2 j d) rfl _ fun b => ?_
    match b with
    | ⟨0, _⟩ => exact Nat.mod_eq_of_lt hj
    | ⟨1, _⟩ => rfl
  · refine concatenate_pair_apply_right (0 : Fin 2) x x _ (ix2 j d) rfl rfl _ (fun b hb => ?_) ?_
    · match b with
      | ⟨0, _⟩ => exact absurd rfl hb
      | ⟨1, _⟩ => rfl
    · show j.val % 4096 + 4096 = j.val
      have := j.isLt
      omega

/-- A [1, 4096] row followed by itself reads, at column `j` of the 8192, the row at column `j mod 4096`. -/
theorem concat_cols_self_apply {α : Type} (x : S1x4096.Idx → α) (j : Fin 8192) :
    concatenate S1x8192 1 [⟨S1x4096, x⟩, ⟨S1x4096, x⟩] concatenates_S1x4096_S1x4096_S1x8192_d1 (ix2 (0 : Fin 1) j)
      = x (ix2 (0 : Fin 1) ⟨j.val % 4096, Nat.mod_lt _ (by decide)⟩) := by
  by_cases hj : j.val < 4096
  · refine concatenate_pair_apply_left (1 : Fin 2) x x _ (ix2 (0 : Fin 1) j) rfl _ fun b => ?_
    match b with
    | ⟨0, _⟩ => rfl
    | ⟨1, _⟩ => exact Nat.mod_eq_of_lt hj
  · refine concatenate_pair_apply_right (1 : Fin 2) x x _ (ix2 (0 : Fin 1) j) rfl rfl _ (fun b hb => ?_) ?_
    · match b with
      | ⟨0, _⟩ => rfl
      | ⟨1, _⟩ => exact absurd rfl hb
    · show j.val % 4096 + 4096 = j.val
      have := j.isLt
      omega

/-- A [4096] vector cast to a column reads, at `(k, 0)`, the vector at `k`. -/
theorem shapeCast_col_apply {α : Type} (x : S4096.Idx → α) (k : Fin 4096) :
    shapeCast S4096x1 x shapeCasts_S4096_S4096x1 (ix2 k (0 : Fin 1)) = x (ix1 k) :=
  shapeCast_apply x _ _ _ (by
    rw [Shape.rowMajor_val_two, Shape.rowMajor_val_one]
    show k.val = k.val * 1 + 0
    omega)

/-! ## Before the first region -/

/-- The first matrix narrowed: the matrix. -/
theorem v9_apply (W : Valuation τ sig (Elt Ideal)) (i : S4096x256.Idx) :
    (StableHlo.after (hostOps0 (F := Ideal)) W (Proc.devRef .tc main_v9) : S4096x256.Idx → EReal) i
      = (W (Proc.devRef .tc main_arg0) : S4096x256.Idx → EReal) i := by
  have e : (StableHlo.after (hostOps0 (F := Ideal)) W (Proc.devRef .tc main_v9) : S4096x256.Idx → EReal)
      = (truncf (F := Ideal) .bf16 (W (Proc.devRef .tc main_arg0) : FVec Ideal S4096x256 .f32) bitsLt_bf16_f32
          : S4096x256.Idx → EReal) := by
    simp only [hostOps0]; after_results
  rw [e]; rfl

/-- The second matrix narrowed and doubled along its rows: row `j` is row `j mod 4096` of the matrix. -/
theorem v11_apply (W : Valuation τ sig (Elt Ideal)) (j : Fin 8192) (d : Fin 256) :
    (StableHlo.after (hostOps0 (F := Ideal)) W (Proc.devRef .tc main_v11) : S8192x256.Idx → EReal) (ix2 j d)
      = (W (Proc.devRef .tc main_arg1) : S4096x256.Idx → EReal) (ix2 ⟨j.val % 4096, Nat.mod_lt _ (by decide)⟩ d) := by
  have e : (StableHlo.after (hostOps0 (F := Ideal)) W (Proc.devRef .tc main_v11) : S8192x256.Idx → EReal)
      = (concatenate S8192x256 0
          [⟨S4096x256, (truncf (F := Ideal) .bf16 (W (Proc.devRef .tc main_arg1) : FVec Ideal S4096x256 .f32) bitsLt_bf16_f32
              : S4096x256.Idx → EReal)⟩,
           ⟨S4096x256, (truncf (F := Ideal) .bf16 (W (Proc.devRef .tc main_arg1) : FVec Ideal S4096x256 .f32) bitsLt_bf16_f32
              : S4096x256.Idx → EReal)⟩]
          concatenates_S4096x256_S4096x256_S8192x256_d0 : S8192x256.Idx → EReal) := by
    simp only [hostOps0]; after_results
  rw [e, concat_rows_self_apply]; rfl

/-- The first matrix's row norms as a column. -/
theorem v3_apply (W : Valuation τ sig (Elt Ideal)) (k : Fin 4096) :
    (StableHlo.after (hostOps0 (F := Ideal)) W (Proc.devRef .tc main_v3) : S4096x1.Idx → EReal) (ix2 k (0 : Fin 1))
      = Spec.nrm (W (Proc.devRef .tc main_arg0)) k := by
  have e : (StableHlo.after (hostOps0 (F := Ideal)) W (Proc.devRef .tc main_v3) : S4096x1.Idx → EReal)
      = (shapeCast S4096x1
          (Host.sqrt (Host.reduceAdd
            (mulf (W (Proc.devRef .tc main_arg0) : FVec Ideal S4096x256 .f32) (W (Proc.devRef .tc main_arg0)))
            (constant (F := Ideal) S_ .f32 0x00000000#32) reducesTo_S4096x256_S4096_d1 h_S_) : FVec Ideal S4096 .f32)
          shapeCasts_S4096_S4096x1 : S4096x1.Idx → EReal) := by
    simp only [hostOps0]; after_results; rfl
  rw [e, shapeCast_col_apply, rowNorm_apply]

/-- The second matrix's row norms as a row followed by itself: column `j` is the norm of row `j mod 4096`. -/
theorem v8_apply (W : Valuation τ sig (Elt Ideal)) (j : Fin 8192) :
    (StableHlo.after (hostOps0 (F := Ideal)) W (Proc.devRef .tc main_v8) : S1x8192.Idx → EReal) (ix2 (0 : Fin 1) j)
      = Spec.nrm (W (Proc.devRef .tc main_arg1)) ⟨j.val % 4096, Nat.mod_lt _ (by decide)⟩ := by
  have e : (StableHlo.after (hostOps0 (F := Ideal)) W (Proc.devRef .tc main_v8) : S1x8192.Idx → EReal)
      = (concatenate S1x8192 1
          [⟨S1x4096, (shapeCast S1x4096
              (Host.sqrt (Host.reduceAdd
                (mulf (W (Proc.devRef .tc main_arg1) : FVec Ideal S4096x256 .f32) (W (Proc.devRef .tc main_arg1)))
                (constant (F := Ideal) S_ .f32 0x00000000#32) reducesTo_S4096x256_S4096_d1 h_S_) : FVec Ideal S4096 .f32)
              shapeCasts_S4096_S1x4096 : S1x4096.Idx → EReal)⟩,
           ⟨S1x4096, (shapeCast S1x4096
              (Host.sqrt (Host.reduceAdd
                (mulf (W (Proc.devRef .tc main_arg1) : FVec Ideal S4096x256 .f32) (W (Proc.devRef .tc main_arg1)))
                (constant (F := Ideal) S_ .f32 0x00000000#32) reducesTo_S4096x256_S4096_d1 h_S_) : FVec Ideal S4096 .f32)
              shapeCasts_S4096_S1x4096 : S1x4096.Idx → EReal)⟩]
          concatenates_S1x4096_S1x4096_S1x8192_d1 : S1x8192.Idx → EReal) := by
    simp only [hostOps0]; after_results; rfl
  rw [e, concat_cols_self_apply, shapeCast_a_1a_apply, rowNorm_apply]

/-! ## Between the regions -/

/-- The labels as a row. -/
theorem v13_apply (W : Valuation τ sig (Elt Ideal)) (k : Fin 4096) :
    (StableHlo.after (hostOps1 (F := Ideal)) W (Proc.devRef .tc main_v13) : S1x4096.Idx → EReal) (ix2 (0 : Fin 1) k)
      = (W (Proc.devRef .tc main_arg2) : S4096.Idx → EReal) (ix1 k) := by
  have e : (StableHlo.after (hostOps1 (F := Ideal)) W (Proc.devRef .tc main_v13) : S1x4096.Idx → EReal)
      = (shapeCast S1x4096 (W (Proc.devRef .tc main_arg2) : S4096.Idx → EReal) shapeCasts_S4096_S1x4096
          : S1x4096.Idx → EReal) := by
    simp only [hostOps1]; after_results; rfl
  rw [e]
  exact shapeCast_a_1a_apply _ _ _ _

/-! ## After the second region -/

/-- The second region's 1 × 1 result as a scalar. -/
theorem v15_apply (W : Valuation τ sig (Elt Ideal)) (i : S_.Idx) :
    (StableHlo.after (hostOps2 (F := Ideal)) W (Proc.devRef .tc main_v15) : S_.Idx → EReal) i
      = (W (Proc.devRef .tc main_v14) : S1x1.Idx → EReal) (ix2 (0 : Fin 1) (0 : Fin 1)) := by
  have e : (StableHlo.after (hostOps2 (F := Ideal)) W (Proc.devRef .tc main_v15) : S_.Idx → EReal)
      = (shapeCast S_ (W (Proc.devRef .tc main_v14) : S1x1.Idx → EReal) shapeCasts_S1x1_S_ : S_.Idx → EReal) := by
    simp only [hostOps2]; after_results; rfl
  rw [e]
  refine shapeCast_apply _ _ _ _ ?_
  show (S1x1.rowMajor (ix2 (0 : Fin 1) (0 : Fin 1))).val = (S_.rowMajor i).val
  have h0 : (S_.rowMajor i).val = 0 := Shape.rowMajorPi_zero _ _
  rw [Shape.rowMajor_val_two, h0]
  rfl

/-- The first region's 4096 × 4096 result flattened: flat position `i` is the entry at (i / 4096, i mod 4096). -/
theorem v16_apply (W : Valuation τ sig (Elt Ideal)) (i : S16777216.Idx) :
    (StableHlo.after (hostOps2 (F := Ideal)) W (Proc.devRef .tc main_v16) : S16777216.Idx → EReal) i
      = (W (Proc.devRef .tc main_v12) : S4096x4096.Idx → EReal) (ix2 (Spec.sOf (i 0)) (Spec.kOf (i 0))) := by
  have e : (StableHlo.after (hostOps2 (F := Ideal)) W (Proc.devRef .tc main_v16) : S16777216.Idx → EReal)
      = (shapeCast S16777216 (W (Proc.devRef .tc main_v12) : S4096x4096.Idx → EReal) shapeCasts_S4096x4096_S16777216
          : S16777216.Idx → EReal) := by
    simp only [hostOps2]; after_results; rfl
  rw [e]
  refine shapeCast_apply _ _ _ _ ?_
  show (S4096x4096.rowMajor (ix2 (Spec.sOf (i 0)) (Spec.kOf (i 0)))).val = (S16777216.rowMajor i).val
  rw [Shape.rowMajor_val_two, Shape.rowMajor_val_one]
  show (i 0).val / 4096 * 4096 + (i 0).val % 4096 = (i 0).val
  omega

end Cert.KernelIdeal.Hand

end
-- ==== Proof.LibAfterAppend.lean ====
/-
  A general fact about the fold of host operations over buffer contents: running a list of operations that is a
  concatenation is running the first part and then the second from what the first left.
-/
import Idealize.ShloMosaic.Lib.StableHlo.Run

namespace Idealize.ShloMosaic.StableHlo

variable {τ : Topo} {sig : RefSig} {Val : EltTy → Type}

/-- The contents after `l₁ ++ l₂` from `V` are the contents after `l₂` from the contents after `l₁` from `V`: by induction
    on `l₁`, each operation rewriting the buffers it writes before the rest of the list runs. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefTerms.lean ====
/-
  The reference program's two results as pure terms of its three argument arrays, stage by stage, each
  stage spelled with the operations and literals of the program's own lines.

  The program: the row norms of the two matrices; their matrix product along the columns; the index tensor
  (i + j) mod 4096 (the outlined remainder with its sign correction); the product read back at (j, that
  index) and the second norm read at that index (two gathers); the quotient of the gathered product by the
  larger of the product of norms and a small constant; that quotient plus one, halved, and flattened: the
  first result. The second result is minus the sum, over the flattened vector, of a weight times
  t * max(log p, -100) + (1 - t) * max(log(1 - p), -100), where t is the third argument followed by zeros
  and the weight is ones followed by halves.
-/
import proofs.«418415_j74801150427885_3_alg».proof.ReferenceIdeal
import proofs.«418415_j74801150427885_3_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-! ## The float stages before the indices -/

/-- The Euclidean norm of each row: the square root of the row sums of the squares (main_v2 of the first
    argument, main_v5 of the second). -/
def rowNorm (x : FVec F S4096x256 .f32) : FVec F S4096 .f32 :=
  Host.sqrt (Host.reduceAdd (mulf x x) (constant S_ .f32 0x00000000#32) reducesTo_S4096x256_S4096_d1 h_S_)

/-- The product of the first matrix with the transpose of the second: entry (i, k) is the sum over the 256
    columns of x0 i · x1 k (main_v6). -/
def dotRows (x0 x1 : FVec F S4096x256 .f32) : FVec F S4096x4096 .f32 :=
  Host.dotGeneral dot_S4096x256_S4096x256_S4096x4096_1_1_0_0_n_n none x0 x1

/-! ## The index tensors (no argument enters them) -/

/-- 0, 1, …, 4095 (main_v7, and main_v8 the same). -/
def iotaRow : IVec S4096 32 := iotaInDim S4096 32 0

/-- i + j at (i, j): the iota along the columns plus the iota along the rows (main_v13). -/
def sumIdx : IVec S4096x4096 32 :=
  addi
    (broadcastInDim S4096x4096 ![0, 1] bcast_S1x4096_S4096x4096_0_1
      (broadcastInDim S1x4096 ![1] bcast_S4096_S1x4096_1 iotaRow))
    (broadcastInDim S4096x4096 ![0, 1] bcast_S4096x1_S4096x4096_0_1
      (broadcastInDim S4096x1 ![0] bcast_S4096_S4096x1_0 iotaRow))

/-- The divisor the outlined remainder uses: the given one, or 1 where it is 0 (the inner select,
    main_call0_v2). -/
def safeDivisor (b : IVec S_ 32) : IVec S_ 32 :=
  select (cmpi .eq (id b) (constantI S_ 32 0#32)) (constantI S_ 32 1#32) (id b)

/-- The truncated remainder of the tensor by the (broadcast) safe divisor (main_call0_v4). -/
def truncRem (a : IVec S4096x4096 32) (b : IVec S_ 32) : IVec S4096x4096 32 :=
  Host.remsi a (broadcastInDim S4096x4096 ![] bcast_S_S4096x4096 (safeDivisor b))

/-- The outlined remainder: the truncated remainder, plus the divisor where the remainder is not zero and
    its sign differs from the divisor's (main_v14 at a := main_v13, b := main_c). -/
def floorRem (a : IVec S4096x4096 32) (b : IVec S_ 32) : IVec S4096x4096 32 :=
  select
    (andi
      (cmpi .ne
        (cmpi .slt (truncRem a b) (broadcastInDim S4096x4096 ![] bcast_S_S4096x4096 (constantI S_ 32 0#32)))
        (broadcastInDim S4096x4096 ![] bcast_S_S4096x4096 (cmpi .slt (safeDivisor b) (constantI S_ 32 0#32))))
      (cmpi .ne (truncRem a b) (broadcastInDim S4096x4096 ![] bcast_S_S4096x4096 (constantI S_ 32 0#32))))
    (addi (truncRem a b) (broadcastInDim S4096x4096 ![] bcast_S_S4096x4096 (safeDivisor b)))
    (truncRem a b)

/-- (i + j) mod 4096 at (i, j) (main_v14). -/
def modIdx : IVec S4096x4096 32 := floorRem sumIdx (constantI S_ 32 4096#32)

/-- The column index j as a 1 × 4096 row, with 4096 added where it is negative (main_v20). -/
def colIdx : IVec S1x4096 32 :=
  select
    (cmpi .slt (broadcastInDim S1x4096 ![1] bcast_S4096_S1x4096_1 iotaRow)
      (broadcastInDim S1x4096 ![] bcast_S_S1x4096 (constantI S_ 32 0#32)))
    (addi (broadcastInDim S1x4096 ![1] bcast_S4096_S1x4096_1 iotaRow)
      (broadcastInDim S1x4096 ![] bcast_S_S1x4096 (constantI S_ 32 4096#32)))
    (broadcastInDim S1x4096 ![1] bcast_S4096_S1x4096_1 iotaRow)

/-- An index tensor with 4096 added where it is negative (main_v25 and main_v36 at ix := main_v14). -/
def wrapIdx (ix : IVec S4096x4096 32) : IVec S4096x4096 32 :=
  select
    (cmpi .slt ix (broadcastInDim S4096x4096 ![] bcast_S_S4096x4096 (constantI S_ 32 0#32)))
    (addi ix (broadcastInDim S4096x4096 ![] bcast_S_S4096x4096 (constantI S_ 32 4096#32)))
    ix

/-- The pair (j, (i + j) mod 4096) at (i, j): the two index tensors side by side along a last axis of
    length 2 (main_v29). -/
def pairIdx : IVec S4096x4096x2 32 :=
  concatenate S4096x4096x2 2
    [⟨S4096x4096x1, broadcastInDim S4096x4096x1 ![0, 1] bcast_S4096x4096_S4096x4096x1_0_1
        (broadcastInDim S4096x4096 ![0, 1] bcast_S1x4096_S4096x4096_0_1 colIdx)⟩,
     ⟨S4096x4096x1, broadcastInDim S4096x4096x1 ![0, 1] bcast_S4096x4096_S4096x4096x1_0_1 (wrapIdx modIdx)⟩]
    concatenates_S4096x4096x1_S4096x4096x1_S4096x4096x2_d2

/-- The index (i + j) mod 4096 with a last axis of length 1 (main_v37). -/
def oneIdx : IVec S4096x4096x1 32 :=
  broadcastInDim S4096x4096x1 ![0, 1] bcast_S4096x4096_S4096x4096x1_0_1 (wrapIdx modIdx)

/-! ## The gathers and the quotient -/

/-- The product matrix read at the pair of indices: entry (i, j) is d (j, (i + j) mod 4096) (main_v30). -/
def gatherDot (d : FVec F S4096x4096 .f32) : FVec F S4096x4096 .f32 :=
  Host.gather gather_S4096x4096_S4096x4096x2_S4096x4096_n_01_n_n_01_2_11 d pairIdx

/-- The second norm read at the index: entry (i, j) is n ((i + j) mod 4096) (main_v38). -/
def gatherNorm (n : FVec F S4096 .f32) : FVec F S4096x4096 .f32 :=
  Host.gather gather_S4096_S4096x4096x1_S4096x4096_n_0_n_n_0_2_1 n oneIdx

/-- The denominator: the first norm at the column times the gathered second norm, and at least the small
    constant (main_v42). -/
def denom (n0 n1 : FVec F S4096 .f32) : FVec F S4096x4096 .f32 :=
  maximumf
    (mulf
      (broadcastInDim S4096x4096 ![0, 1] bcast_S1x4096_S4096x4096_0_1
        (broadcastInDim S1x4096 ![1] bcast_S4096_S1x4096_1 n0))
      (gatherNorm n1))
    (broadcastInDim S4096x4096 ![] bcast_S_S4096x4096 (constant S_ .f32 0x322BCC77#32))

/-- The gathered product over the denominator (main_v43). -/
def quotient (x0 x1 : FVec F S4096x256 .f32) : FVec F S4096x4096 .f32 :=
  Host.divf (gatherDot (dotRows x0 x1)) (denom (rowNorm x0) (rowNorm x1))

/-- The quotient plus one, halved (main_v47). -/
def halfShift (x0 x1 : FVec F S4096x256 .f32) : FVec F S4096x4096 .f32 :=
  mulf
    (addf (quotient x0 x1) (broadcastInDim S4096x4096 ![] bcast_S_S4096x4096 (constant S_ .f32 0x3F800000#32)))
    (broadcastInDim S4096x4096 ![] bcast_S_S4096x4096 (constant S_ .f32 0x3F000000#32))

/-- The first result (main_v48): the halved shifted quotient, flattened row by row. -/
def refLogits (x0 x1 : FVec F S4096x256 .f32) : FVec F S16777216 .f32 :=
  shapeCast S16777216 (halfShift x0 x1) shapeCasts_S4096x4096_S16777216

/-! ## The second result -/

/-- The targets: the third argument followed by zeros (main_v50). -/
def targets (x2 : FVec F S4096 .f32) : FVec F S16777216 .f32 :=
  concatenate S16777216 0
    [⟨S4096, x2⟩, ⟨S16773120, broadcastInDim S16773120 ![] bcast_S_S16773120 (constant S_ .f32 0x00000000#32)⟩]
    concatenates_S4096_S16773120_S16777216_d0

/-- The weights: 4096 ones followed by halves (main_v53). -/
def weights : FVec F S16777216 .f32 :=
  concatenate S16777216 0
    [⟨S4096, broadcastInDim S4096 ![] bcast_S_S4096 (constant S_ .f32 0x3F800000#32)⟩,
     ⟨S16773120, broadcastInDim S16773120 ![] bcast_S_S16773120 (constant S_ .f32 0x3F000000#32)⟩]
    concatenates_S4096_S16773120_S16777216_d0

/-- The logarithm of p, at least -100 (main_v56). -/
def logClamp (p : FVec F S16777216 .f32) : FVec F S16777216 .f32 :=
  maximumf (Host.log p) (broadcastInDim S16777216 ![] bcast_S_S16777216 (constant S_ .f32 0xC2C80000#32))

/-- The logarithm of 1 - p (as log-plus-one of -p), at least -100 (main_v60). -/
def log1mClamp (p : FVec F S16777216 .f32) : FVec F S16777216 .f32 :=
  maximumf (Host.log1p (Host.negf p)) (broadcastInDim S16777216 ![] bcast_S_S16777216 (constant S_ .f32 0xC2C80000#32))

/-- The weighted term at each position: w · (t · max(log p, -100) + (1 - t) · max(log(1 - p), -100))
    (main_v66). -/
def lossTerms (p : FVec F S16777216 .f32) (x2 : FVec F S4096 .f32) : FVec F S16777216 .f32 :=
  mulf weights
    (addf (mulf (targets x2) (logClamp p))
      (mulf
        (subf (broadcastInDim S16777216 ![] bcast_S_S16777216 (constant S_ .f32 0x3F800000#32)) (targets x2))
        (log1mClamp p)))

/-- Minus the sum of the weighted terms (main_v68 at p := main_v48). -/
def lossOf (p : FVec F S16777216 .f32) (x2 : FVec F S4096 .f32) : FVec F S_ .f32 :=
  Host.negf (Host.reduceAdd (lossTerms p x2) (constant S_ .f32 0x00000000#32) reducesTo_S16777216_S_d0 h_S_)

/-- The second result (main_v68). -/
def refLoss (x0 x1 : FVec F S4096x256 .f32) (x2 : FVec F S4096 .f32) : FVec F S_ .f32 :=
  lossOf (refLogits x0 x1) x2

end Cert.ReferenceIdeal.RefValue

end
-- ==== Proof.RefRun.lean ====
/-
  The run of the reference program, read back.

  The program is two windows of host operations run in order, the first holding one call of an outlined remainder
  whose body holds one call of an outlined select. Unfolding the calls at their buffers, the program is ONE line of
  108 operations, listed here in five stretches: before the call (17), the call (21), the index pair after it (19),
  the gathers and the quotient (23), the second window (28). A line of operations runs to its end from any memory,
  each buffer ending at the fold of the operations over the launch contents; the fold over a concatenation is the
  folds one after the other; and each stretch's fold at the buffers the later stretches read is computed once, for
  any contents going in. Composing the five gives the two results as the terms `refLogits` and `refLoss` of the
  three argument arrays, and the arguments unchanged.
-/
import proofs.«418415_j74801150427885_3_alg».proof.Proof.Gen.ReferenceIdeal
import proofs.«418415_j74801150427885_3_alg».proof.Proof.LibAfterAppend
import proofs.«418415_j74801150427885_3_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Rewrites each operation's result at its own buffer to its function's value, and at any other buffer to what was
    there, wherever such a read still stands in the goal. -/
macro "results_rw" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))
/-! ## The operations, in order -/

/-- The 17 operations before the call: the two row norms, the matrix product, the iotas and their sum, the divisor 4096. -/
abbrev opsA : List (HloOp τ sig (Elt F)) :=
  [ StableHlo.binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    StableHlo.nullary main_cst (constant S_ .f32 0x00000000#32),
    StableHlo.binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v1 main_v2 (Host.sqrt : (⟨S4096, .f32⟩ : BufTy).Contents (Elt F) → (⟨S4096, .f32⟩ : BufTy).Contents (Elt F)),
    StableHlo.binary main_arg1 main_arg1 main_v3 (mulf : (⟨S4096x256, .f32⟩ : BufTy).Contents (Elt F) → (⟨S4096x256, .f32⟩ : BufTy).Contents (Elt F) → (⟨S4096x256, .f32⟩ : BufTy).Contents (Elt F)),
    StableHlo.nullary main_cst_0 (constant S_ .f32 0x00000000#32),
    StableHlo.binary main_v3 main_cst_0 main_v4 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v4 main_v5 (Host.sqrt : (⟨S4096, .f32⟩ : BufTy).Contents (Elt F) → (⟨S4096, .f32⟩ : BufTy).Contents (Elt F)),
    StableHlo.binary main_arg0 main_arg1 main_v6 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    StableHlo.nullary main_v7 (iotaInDim S4096 32 0),
    StableHlo.nullary main_v8 (iotaInDim S4096 32 0),
    StableHlo.unary main_v7 main_v9 (broadcastInDim S1x4096 ![1] bcast_S4096_S1x4096_1 : (⟨S4096, .i32⟩ : BufTy).Contents (Elt F) → (⟨S1x4096, .i32⟩ : BufTy).Contents (Elt F)),
    StableHlo.unary main_v8 main_v10 (broadcastInDim S4096x1 ![0] bcast_S4096_S4096x1_0 : (⟨S4096, .i32⟩ : BufTy).Contents (Elt F) → (⟨S4096x1, .i32⟩ : BufTy).Contents (Elt F)),
    StableHlo.unary main_v9 main_v11 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v10 main_v12 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v11 main_v12 main_v13 (addi : (⟨S4096x4096, .i32⟩ : BufTy).Contents (Elt F) → (⟨S4096x4096, .i32⟩ : BufTy).Contents (Elt F) → (⟨S4096x4096, .i32⟩ : BufTy).Contents (Elt F)),
    StableHlo.nullary main_c (constantI S_ 32 4096#32) ]

/-- The outlined remainder at its one call, its inner select in place: 21 operations over the call's own buffers, the last writing main_v14. -/
abbrev opsB : List (HloOp τ sig (Elt F)) :=
  [ StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S4096x4096 ![] bcast_S_S4096x4096),
    StableHlo.TRef.binary (.of main_v13) main_call0.v3 main_call0.v4 Host.remsi,
    StableHlo.TRef.nullary main_call0.c_1 (constantI S_ 32 0#32),
    StableHlo.TRef.unary main_call0.c_1 main_call0.v5 (broadcastInDim S4096x4096 ![] bcast_S_S4096x4096),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S4096x4096 ![] bcast_S_S4096x4096),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S4096x4096 ![] bcast_S_S4096x4096),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S4096x4096 ![] bcast_S_S4096x4096),
    StableHlo.TRef.binary main_call0.v4 main_call0.v13 main_call0.v14 addi,
    StableHlo.TRef.ternary main_call0.v12 main_call0.v14 main_call0.v4 main_call0.v15 select ]

/-- The 19 operations after the call that build the pair of index tensors main_v29. -/
abbrev opsC1 : List (HloOp τ sig (Elt F)) :=
  [ StableHlo.unary main_v7 main_v15 (broadcastInDim S1x4096 ![1] bcast_S4096_S1x4096_1 : (⟨S4096, .i32⟩ : BufTy).Contents (Elt F) → (⟨S1x4096, .i32⟩ : BufTy).Contents (Elt F)),
    StableHlo.nullary main_c_1 (constantI S_ 32 0#32),
    StableHlo.unary main_c_1 main_v16 (broadcastInDim S1x4096 ![] bcast_S_S1x4096 : (⟨S_, .i32⟩ : BufTy).Contents (Elt F) → (⟨S1x4096, .i32⟩ : BufTy).Contents (Elt F)),
    StableHlo.binary main_v15 main_v16 main_v17 (cmpi .slt : (⟨S1x4096, .i32⟩ : BufTy).Contents (Elt F) → (⟨S1x4096, .i32⟩ : BufTy).Contents (Elt F) → (⟨S1x4096, .i1⟩ : BufTy).Contents (Elt F)),
    StableHlo.nullary main_c_2 (constantI S_ 32 4096#32),
    StableHlo.unary main_c_2 main_v18 (broadcastInDim S1x4096 ![] bcast_S_S1x4096 : (⟨S_, .i32⟩ : BufTy).Contents (Elt F) → (⟨S1x4096, .i32⟩ : BufTy).Contents (Elt F)),
    StableHlo.binary main_v15 main_v18 main_v19 (addi : (⟨S1x4096, .i32⟩ : BufTy).Contents (Elt F) → (⟨S1x4096, .i32⟩ : BufTy).Contents (Elt F) → (⟨S1x4096, .i32⟩ : BufTy).Contents (Elt F)),
    StableHlo.ternary main_v17 main_v19 main_v15 main_v20 (select : (⟨S1x4096, .i1⟩ : BufTy).Contents (Elt F) → (⟨S1x4096, .i32⟩ : BufTy).Contents (Elt F) → (⟨S1x4096, .i32⟩ : BufTy).Contents (Elt F) → (⟨S1x4096, .i32⟩ : BufTy).Contents (Elt F)),
    StableHlo.nullary main_c_3 (constantI S_ 32 0#32),
    StableHlo.unary main_c_3 main_v21 (broadcastInDim S4096x4096 ![] bcast_S_S4096x4096 : (⟨S_, .i32⟩ : BufTy).Contents (Elt F) → (⟨S4096x4096, .i32⟩ : BufTy).Contents (Elt F)),
    StableHlo.binary main_v14 main_v21 main_v22 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_4 (constantI S_ 32 4096#32),
    StableHlo.unary main_c_4 main_v23 (broadcastInDim S4096x4096 ![] bcast_S_S4096x4096 : (⟨S_, .i32⟩ : BufTy).Contents (Elt F) → (⟨S4096x4096, .i32⟩ : BufTy).Contents (Elt F)),
    StableHlo.binary main_v14 main_v23 main_v24 (addi : (⟨S4096x4096, .i32⟩ : BufTy).Contents (Elt F) → (⟨S4096x4096, .i32⟩ : BufTy).Contents (Elt F) → (⟨S4096x4096, .i32⟩ : BufTy).Contents (Elt F)),
    StableHlo.ternary main_v22 main_v24 main_v14 main_v25 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.unary main_v20 main_v26 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v26 main_v27 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.unary main_v25 main_v28 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.binary main_v27 main_v28 main_v29 ((fun a b => concatenate S4096x4096x2 2 [⟨S4096x4096x1, a⟩, ⟨S4096x4096x1, b⟩] concatenates_S4096x4096x1_S4096x4096x1_S4096x4096x2_d2) : (⟨S4096x4096x1, .i32⟩ : BufTy).Contents (Elt F) → (⟨S4096x4096x1, .i32⟩ : BufTy).Contents (Elt F) → (⟨S4096x4096x2, .i32⟩ : BufTy).Contents (Elt F)) ]

/-- The 23 operations from the first gather to the halved shifted quotient main_v47. -/
abbrev opsC2 : List (HloOp τ sig (Elt F)) :=
  [ StableHlo.binary main_v6 main_v29 main_v30 ((fun x i => Host.gather gather_S4096x4096_S4096x4096x2_S4096x4096_n_01_n_n_01_2_11 x i) : (⟨S4096x4096, .f32⟩ : BufTy).Contents (Elt F) → (⟨S4096x4096x2, .i32⟩ : BufTy).Contents (Elt F) → (⟨S4096x4096, .f32⟩ : BufTy).Contents (Elt F)),
    StableHlo.unary main_v2 main_v31 (broadcastInDim S1x4096 ![1] bcast_S4096_S1x4096_1 : (⟨S4096, .f32⟩ : BufTy).Contents (Elt F) → (⟨S1x4096, .f32⟩ : BufTy).Contents (Elt F)),
    StableHlo.nullary main_c_5 (constantI S_ 32 0#32),
    StableHlo.unary main_c_5 main_v32 (broadcastInDim S4096x4096 ![] bcast_S_S4096x4096 : (⟨S_, .i32⟩ : BufTy).Contents (Elt F) → (⟨S4096x4096, .i32⟩ : BufTy).Contents (Elt F)),
    StableHlo.binary main_v14 main_v32 main_v33 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_6 (constantI S_ 32 4096#32),
    StableHlo.unary main_c_6 main_v34 (broadcastInDim S4096x4096 ![] bcast_S_S4096x4096 : (⟨S_, .i32⟩ : BufTy).Contents (Elt F) → (⟨S4096x4096, .i32⟩ : BufTy).Contents (Elt F)),
    StableHlo.binary main_v14 main_v34 main_v35 (addi : (⟨S4096x4096, .i32⟩ : BufTy).Contents (Elt F) → (⟨S4096x4096, .i32⟩ : BufTy).Contents (Elt F) → (⟨S4096x4096, .i32⟩ : BufTy).Contents (Elt F)),
    StableHlo.ternary main_v33 main_v35 main_v14 main_v36 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.unary main_v36 main_v37 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.binary main_v5 main_v37 main_v38 ((fun x i => Host.gather gather_S4096_S4096x4096x1_S4096x4096_n_0_n_n_0_2_1 x i) : (⟨S4096, .f32⟩ : BufTy).Contents (Elt F) → (⟨S4096x4096x1, .i32⟩ : BufTy).Contents (Elt F) → (⟨S4096x4096, .f32⟩ : BufTy).Contents (Elt F)),
    StableHlo.unary main_v31 main_v39 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v39 main_v38 main_v40 (mulf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x322BCC77#32),
    StableHlo.unary main_cst_7 main_v41 (broadcastInDim S4096x4096 ![] bcast_S_S4096x4096 : (⟨S_, .f32⟩ : BufTy).Contents (Elt F) → (⟨S4096x4096, .f32⟩ : BufTy).Contents (Elt F)),
    StableHlo.binary main_v40 main_v41 main_v42 (maximumf : (⟨S4096x4096, .f32⟩ : BufTy).Contents (Elt F) → (⟨S4096x4096, .f32⟩ : BufTy).Contents (Elt F) → (⟨S4096x4096, .f32⟩ : BufTy).Contents (Elt F)),
    StableHlo.binary main_v30 main_v42 main_v43 (Host.divf : (⟨S4096x4096, .f32⟩ : BufTy).Contents (Elt F) → (⟨S4096x4096, .f32⟩ : BufTy).Contents (Elt F) → (⟨S4096x4096, .f32⟩ : BufTy).Contents (Elt F)),
    StableHlo.nullary main_cst_8 (constant S_ .f32 0x3F800000#32),
    StableHlo.unary main_cst_8 main_v44 (broadcastInDim S4096x4096 ![] bcast_S_S4096x4096 : (⟨S_, .f32⟩ : BufTy).Contents (Elt F) → (⟨S4096x4096, .f32⟩ : BufTy).Contents (Elt F)),
    StableHlo.binary main_v43 main_v44 main_v45 (addf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x3F000000#32),
    StableHlo.unary main_cst_9 main_v46 (broadcastInDim S4096x4096 ![] bcast_S_S4096x4096 : (⟨S_, .f32⟩ : BufTy).Contents (Elt F) → (⟨S4096x4096, .f32⟩ : BufTy).Contents (Elt F)),
    StableHlo.binary main_v45 main_v46 main_v47 (mulf : (⟨S4096x4096, .f32⟩ : BufTy).Contents (Elt F) → (⟨S4096x4096, .f32⟩ : BufTy).Contents (Elt F) → (⟨S4096x4096, .f32⟩ : BufTy).Contents (Elt F)) ]

/-- The 28 operations of the second window: the flattening main_v48 and the weighted sum main_v68. -/
abbrev opsD : List (HloOp τ sig (Elt F)) :=
  [ StableHlo.reshape main_v47 main_v48 rfl shapeCasts_S4096x4096_S16777216,
    StableHlo.nullary main_cst_10 (constant S_ .f32 0x00000000#32),
    StableHlo.unary main_cst_10 main_v49 (broadcastInDim S16773120 ![] bcast_S_S16773120 : (⟨S_, .f32⟩ : BufTy).Contents (Elt F) → (⟨S16773120, .f32⟩ : BufTy).Contents (Elt F)),
    StableHlo.binary main_arg2 main_v49 main_v50 ((fun a b => concatenate S16777216 0 [⟨S4096, a⟩, ⟨S16773120, b⟩] concatenates_S4096_S16773120_S16777216_d0) : (⟨S4096, .f32⟩ : BufTy).Contents (Elt F) → (⟨S16773120, .f32⟩ : BufTy).Contents (Elt F) → (⟨S16777216, .f32⟩ : BufTy).Contents (Elt F)),
    StableHlo.nullary main_cst_11 (constant S_ .f32 0x3F800000#32),
    StableHlo.unary main_cst_11 main_v51 (broadcastInDim S4096 ![] bcast_S_S4096 : (⟨S_, .f32⟩ : BufTy).Contents (Elt F) → (⟨S4096, .f32⟩ : BufTy).Contents (Elt F)),
    StableHlo.nullary main_cst_12 (constant S_ .f32 0x3F000000#32),
    StableHlo.unary main_cst_12 main_v52 (broadcastInDim S16773120 ![] bcast_S_S16773120 : (⟨S_, .f32⟩ : BufTy).Contents (Elt F) → (⟨S16773120, .f32⟩ : BufTy).Contents (Elt F)),
    StableHlo.binary main_v51 main_v52 main_v53 ((fun a b => concatenate S16777216 0 [⟨S4096, a⟩, ⟨S16773120, b⟩] concatenates_S4096_S16773120_S16777216_d0) : (⟨S4096, .f32⟩ : BufTy).Contents (Elt F) → (⟨S16773120, .f32⟩ : BufTy).Contents (Elt F) → (⟨S16777216, .f32⟩ : BufTy).Contents (Elt F)),
    StableHlo.unary main_v48 main_v54 (Host.log : (⟨S16777216, .f32⟩ : BufTy).Contents (Elt F) → (⟨S16777216, .f32⟩ : BufTy).Contents (Elt F)),
    StableHlo.nullary main_cst_13 (constant S_ .f32 0xC2C80000#32),
    StableHlo.unary main_cst_13 main_v55 (broadcastInDim S16777216 ![] bcast_S_S16777216 : (⟨S_, .f32⟩ : BufTy).Contents (Elt F) → (⟨S16777216, .f32⟩ : BufTy).Contents (Elt F)),
    StableHlo.binary main_v54 main_v55 main_v56 (maximumf : (⟨S16777216, .f32⟩ : BufTy).Contents (Elt F) → (⟨S16777216, .f32⟩ : BufTy).Contents (Elt F) → (⟨S16777216, .f32⟩ : BufTy).Contents (Elt F)),
    StableHlo.unary main_v48 main_v57 (Host.negf : (⟨S16777216, .f32⟩ : BufTy).Contents (Elt F) → (⟨S16777216, .f32⟩ : BufTy).Contents (Elt F)),
    StableHlo.unary main_v57 main_v58 (Host.log1p : (⟨S16777216, .f32⟩ : BufTy).Contents (Elt F) → (⟨S16777216, .f32⟩ : BufTy).Contents (Elt F)),
    StableHlo.nullary main_cst_14 (constant S_ .f32 0xC2C80000#32),
    StableHlo.unary main_cst_14 main_v59 (broadcastInDim S16777216 ![] bcast_S_S16777216 : (⟨S_, .f32⟩ : BufTy).Contents (Elt F) → (⟨S16777216, .f32⟩ : BufTy).Contents (Elt F)),
    StableHlo.binary main_v58 main_v59 main_v60 (maximumf : (⟨S16777216, .f32⟩ : BufTy).Contents (Elt F) → (⟨S16777216, .f32⟩ : BufTy).Contents (Elt F) → (⟨S16777216, .f32⟩ : BufTy).Contents (Elt F)),
    StableHlo.binary main_v50 main_v56 main_v61 (mulf : (⟨S16777216, .f32⟩ : BufTy).Contents (Elt F) → (⟨S16777216, .f32⟩ : BufTy).Contents (Elt F) → (⟨S16777216, .f32⟩ : BufTy).Contents (Elt F)),
    StableHlo.nullary main_cst_15 (constant S_ .f32 0x3F800000#32),
    StableHlo.unary main_cst_15 main_v62 (broadcastInDim S16777216 ![] bcast_S_S16777216 : (⟨S_, .f32⟩ : BufTy).Contents (Elt F) → (⟨S16777216, .f32⟩ : BufTy).Contents (Elt F)),
    StableHlo.binary main_v62 main_v50 main_v63 (subf : (⟨S16777216, .f32⟩ : BufTy).Contents (Elt F) → (⟨S16777216, .f32⟩ : BufTy).Contents (Elt F) → (⟨S16777216, .f32⟩ : BufTy).Contents (Elt F)),
    StableHlo.binary main_v63 main_v60 main_v64 (mulf : (⟨S16777216, .f32⟩ : BufTy).Contents (Elt F) → (⟨S16777216, .f32⟩ : BufTy).Contents (Elt F) → (⟨S16777216, .f32⟩ : BufTy).Contents (Elt F)),
    StableHlo.binary main_v61 main_v64 main_v65 (addf : (⟨S16777216, .f32⟩ : BufTy).Contents (Elt F) → (⟨S16777216, .f32⟩ : BufTy).Contents (Elt F) → (⟨S16777216, .f32⟩ : BufTy).Contents (Elt F)),
    StableHlo.binary main_v53 main_v65 main_v66 (mulf : (⟨S16777216, .f32⟩ : BufTy).Contents (Elt F) → (⟨S16777216, .f32⟩ : BufTy).Contents (Elt F) → (⟨S16777216, .f32⟩ : BufTy).Contents (Elt F)),
    StableHlo.nullary main_cst_16 (constant S_ .f32 0x00000000#32),
    StableHlo.binary main_v66 main_cst_16 main_v67 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    StableHlo.unary main_v67 main_v68 (Host.negf : (⟨S_, .f32⟩ : BufTy).Contents (Elt F) → (⟨S_, .f32⟩ : BufTy).Contents (Elt F)) ]

theorem opsA_sub : (opsA : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., nullary_bufs_sub .., unary_bufs_sub .., unary_bufs_sub .., unary_bufs_sub .., unary_bufs_sub .., binary_bufs_sub .., nullary_bufs_sub ..⟩

theorem opsB_sub : (opsB : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem opsC1_sub : (opsC1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub ..⟩

theorem opsC2_sub : (opsC2 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩

theorem opsD_sub : (opsD : List (HloOp τ sig (Elt F))).Forall fun op => op.bufs ⊆ tcRefs τ sig :=
  ⟨reshape_bufs_sub .., nullary_bufs_sub .., unary_bufs_sub .., binary_bufs_sub .., nullary_bufs_sub .., unary_bufs_sub .., nullary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., binary_bufs_sub .., unary_bufs_sub ..⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC1_fresh : ∀ op ∈ (opsC1 : List (HloOp τ sig (Elt F))), op.fresh = ∅ := by
  intro _ h; (repeat (cases h with | head => rfl | tail _ h => ?_)); exact nomatch h

theorem opsC2_fresh : ∀ op ∈ (opsC2 : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

/-! ## The program is the line -/

/-- The whole program's operations: the first window's four stretches, then the second window. -/
abbrev ops : List (HloOp τ sig (Elt F)) := (opsA ++ (opsB ++ (opsC1 ++ opsC2))) ++ opsD

/-- The second window is its operations in a line. -/
theorem part1_eq (c : Dev nD) : main_part1 (F := F) c = seq opsD := rfl

set_option maxRecDepth 8192 in
/-- The first window is its operations in a line, the call's body standing in the call's place: both sides are one
    chain of steps, and sequencing grafts structurally. -/
theorem part0_eq (c : Dev nD) : main_part0 (F := F) c = seq (opsA ++ (opsB ++ (opsC1 ++ opsC2))) := rfl

/-- The program is the two windows one after the other, so the concatenated line. -/
theorem main_eq (c : Dev nD) : main (F := F) c = seq ops := by
  rw [seq_append]
  show (main_part0 c >>= fun _ => main_part1 c) = _
  rw [part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp opsA_sub op h
      · rcases List.mem_append.mp h with h | h
        · exact List.forall_iff_forall_mem.mp opsB_sub op h
        · rcases List.mem_append.mp h with h | h
          · exact List.forall_iff_forall_mem.mp opsC1_sub op h
          · exact List.forall_iff_forall_mem.mp opsC2_sub op h
    · exact List.forall_iff_forall_mem.mp opsD_sub op h

theorem ops_fresh : ∀ op ∈ (ops : List (HloOp τ sig (Elt F))), op.fresh = ∅ := fun op h => by
  rcases List.mem_append.mp h with h | h
  · rcases List.mem_append.mp h with h | h
    · exact opsA_fresh op h
    · rcases List.mem_append.mp h with h | h
      · exact opsB_fresh op h
      · rcases List.mem_append.mp h with h | h
        · exact opsC1_fresh op h
        · exact opsC2_fresh op h
  · exact opsD_fresh op h

/-- Every weakly fair execution terminates with each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## Each stretch's fold, for any contents going in -/

section Stretches

variable (V : Valuation τ sig (Elt F))

/-! ### Before the call -/

theorem A_v2 : after opsA V (main_v2 : DevRef τ sig) = rowNorm (V (main_arg0 : DevRef τ sig)) := by after_results_simp <;> rfl
theorem A_v5 : after opsA V (main_v5 : DevRef τ sig) = rowNorm (V (main_arg1 : DevRef τ sig)) := by after_results_simp <;> rfl
theorem A_v6 : after opsA V (main_v6 : DevRef τ sig) = dotRows (V (main_arg0 : DevRef τ sig)) (V (main_arg1 : DevRef τ sig)) := by after_results_simp <;> rfl
theorem A_v7 : after opsA V (main_v7 : DevRef τ sig) = iotaRow := by after_results_simp <;> rfl
theorem A_v13 : after opsA V (main_v13 : DevRef τ sig) = sumIdx := by after_results_simp <;> rfl
theorem A_c : after opsA V (main_c : DevRef τ sig) = constantI S_ 32 4096#32 := by after_results_simp
theorem A_arg0 : after opsA V (main_arg0 : DevRef τ sig) = V (main_arg0 : DevRef τ sig) := by after_results_simp
theorem A_arg1 : after opsA V (main_arg1 : DevRef τ sig) = V (main_arg1 : DevRef τ sig) := by after_results_simp
theorem A_arg2 : after opsA V (main_arg2 : DevRef τ sig) = V (main_arg2 : DevRef τ sig) := by after_results_simp

/-! ### The call -/

/-- Contents put into a typed reference's buffer and read back are the contents: the two transports compose to
    the identity. -/
theorem tref_ofBuf_toBuf {T : BufTy} (x : TRef sig T) (v : T.Contents (Elt F)) : x.ofBuf (x.toBuf v) = v := by
  show cast _ (cast _ v) = v
  rw [cast_cast]
  exact cast_eq _ _

/-- The call's result read through its typed reference, of its two operands read through theirs. -/
theorem B_v14_typed : main_call0.v15.ofBuf (after opsB V (main_v14 : DevRef τ sig))
    = floorRem ((TRef.of main_v13 : TRef sig ⟨S4096x4096, .i32⟩).ofBuf (V (main_v13 : DevRef τ sig))) ((TRef.of main_c : TRef sig ⟨S_, .i32⟩).ofBuf (V (main_c : DevRef τ sig))) := by
  after_results_simp
  simp only [tref_ofBuf_toBuf]
  rfl

/-- At these literal references a typed read is the plain read. -/
theorem B_v14 : after opsB V (main_v14 : DevRef τ sig) = floorRem (V (main_v13 : DevRef τ sig)) (V (main_c : DevRef τ sig)) := by
  have h := B_v14_typed V
  generalize after opsB V (main_v14 : DevRef τ sig) = X at h ⊢
  generalize V (main_v13 : DevRef τ sig) = a at h ⊢
  generalize V (main_c : DevRef τ sig) = b at h ⊢
  exact h
theorem B_v2 : after opsB V (main_v2 : DevRef τ sig) = V (main_v2 : DevRef τ sig) := by after_results_simp
theorem B_v5 : after opsB V (main_v5 : DevRef τ sig) = V (main_v5 : DevRef τ sig) := by after_results_simp
theorem B_v6 : after opsB V (main_v6 : DevRef τ sig) = V (main_v6 : DevRef τ sig) := by after_results_simp
theorem B_v7 : after opsB V (main_v7 : DevRef τ sig) = V (main_v7 : DevRef τ sig) := by after_results_simp
theorem B_arg0 : after opsB V (main_arg0 : DevRef τ sig) = V (main_arg0 : DevRef τ sig) := by after_results_simp
theorem B_arg1 : after opsB V (main_arg1 : DevRef τ sig) = V (main_arg1 : DevRef τ sig) := by after_results_simp
theorem B_arg2 : after opsB V (main_arg2 : DevRef τ sig) = V (main_arg2 : DevRef τ sig) := by after_results_simp

/-! ### After the call: the index pair -/

set_option maxHeartbeats 2000000 in
theorem C1_v29 (h7 : V (main_v7 : DevRef τ sig) = iotaRow) (h14 : V (main_v14 : DevRef τ sig) = modIdx) :
    after opsC1 V (main_v29 : DevRef τ sig) = pairIdx := by
  after_results_simp
  results_rw
  rw [h7, h14]
  unfold pairIdx colIdx wrapIdx
  with_reducible rfl
theorem C1_v2 : after opsC1 V (main_v2 : DevRef τ sig) = V (main_v2 : DevRef τ sig) := by after_results_simp
theorem C1_v5 : after opsC1 V (main_v5 : DevRef τ sig) = V (main_v5 : DevRef τ sig) := by after_results_simp
theorem C1_v6 : after opsC1 V (main_v6 : DevRef τ sig) = V (main_v6 : DevRef τ sig) := by after_results_simp
theorem C1_v14 : after opsC1 V (main_v14 : DevRef τ sig) = V (main_v14 : DevRef τ sig) := by after_results_simp
theorem C1_arg0 : after opsC1 V (main_arg0 : DevRef τ sig) = V (main_arg0 : DevRef τ sig) := by after_results_simp
theorem C1_arg1 : after opsC1 V (main_arg1 : DevRef τ sig) = V (main_arg1 : DevRef τ sig) := by after_results_simp
theorem C1_arg2 : after opsC1 V (main_arg2 : DevRef τ sig) = V (main_arg2 : DevRef τ sig) := by after_results_simp

/-! ### After the call: the gathers and the quotient -/

theorem C2_v47 (h14 : V (main_v14 : DevRef τ sig) = modIdx) (h29 : V (main_v29 : DevRef τ sig) = pairIdx) :
    after opsC2 V (main_v47 : DevRef τ sig)
      = mulf (addf (Host.divf (gatherDot (V (main_v6 : DevRef τ sig))) (denom (V (main_v2 : DevRef τ sig)) (V (main_v5 : DevRef τ sig))))
          (broadcastInDim S4096x4096 ![] bcast_S_S4096x4096 (constant S_ .f32 0x3F800000#32)))
        (broadcastInDim S4096x4096 ![] bcast_S_S4096x4096 (constant S_ .f32 0x3F000000#32)) := by
  after_results_simp
  rw [h14, h29]
  unfold gatherDot denom gatherNorm oneIdx wrapIdx
  with_reducible rfl
theorem C2_arg0 : after opsC2 V (main_arg0 : DevRef τ sig) = V (main_arg0 : DevRef τ sig) := by after_results_simp
theorem C2_arg1 : after opsC2 V (main_arg1 : DevRef τ sig) = V (main_arg1 : DevRef τ sig) := by after_results_simp
theorem C2_arg2 : after opsC2 V (main_arg2 : DevRef τ sig) = V (main_arg2 : DevRef τ sig) := by after_results_simp

/-! ### The second window -/

theorem D_v48 : after opsD V (main_v48 : DevRef τ sig) = shapeCast S16777216 (V (main_v47 : DevRef τ sig)) shapeCasts_S4096x4096_S16777216 := by
  after_results_simp
  rfl

theorem D_v68 : after opsD V (main_v68 : DevRef τ sig)
    = lossOf (shapeCast S16777216 (V (main_v47 : DevRef τ sig)) shapeCasts_S4096x4096_S16777216) (V (main_arg2 : DevRef τ sig)) := by
  after_results_simp
  results_rw
  unfold lossOf lossTerms targets weights logClamp log1mClamp
  rfl
theorem D_arg0 : after opsD V (main_arg0 : DevRef τ sig) = V (main_arg0 : DevRef τ sig) := by after_results_simp
theorem D_arg1 : after opsD V (main_arg1 : DevRef τ sig) = V (main_arg1 : DevRef τ sig) := by after_results_simp
theorem D_arg2 : after opsD V (main_arg2 : DevRef τ sig) = V (main_arg2 : DevRef τ sig) := by after_results_simp

end Stretches

/-! ## The stretches composed -/

section Whole

variable (V : Valuation τ sig (Elt F))

/-- The fold over the whole line is the folds over the stretches, one after the other. -/
theorem after_ops : after ops V = after opsD (after opsC2 (after opsC1 (after opsB (after opsA V)))) := by
  show after ((opsA ++ (opsB ++ (opsC1 ++ opsC2))) ++ opsD) V = _
  rw [after_append, after_append, after_append, after_append]

/-- The halved shifted quotient after the first window, of the two argument matrices. -/
theorem v47_all : after opsC2 (after opsC1 (after opsB (after opsA V))) (main_v47 : DevRef τ sig)
    = halfShift (V (main_arg0 : DevRef τ sig)) (V (main_arg1 : DevRef τ sig)) := by
  have h7 : after opsB (after opsA V) (main_v7 : DevRef τ sig) = iotaRow := by rw [B_v7, A_v7]
  have h14 : after opsB (after opsA V) (main_v14 : DevRef τ sig) = modIdx := by rw [B_v14, A_v13, A_c, modIdx]
  rw [C2_v47 _ (by rw [C1_v14, h14]) (C1_v29 _ h7 h14), C1_v6, C1_v2, C1_v5, B_v6, B_v2, B_v5, A_v6, A_v2, A_v5]
  rfl

theorem v48_all : after ops V (main_v48 : DevRef τ sig) = refLogits (V (main_arg0 : DevRef τ sig)) (V (main_arg1 : DevRef τ sig)) := by
  rw [after_ops, D_v48, v47_all]
  rfl

theorem v68_all : after ops V (main_v68 : DevRef τ sig)
    = refLoss (V (main_arg0 : DevRef τ sig)) (V (main_arg1 : DevRef τ sig)) (V (main_arg2 : DevRef τ sig)) := by
  rw [after_ops, D_v68, v47_all, C2_arg2, C1_arg2, B_arg2, A_arg2]
  rfl

theorem arg0_all : after ops V (main_arg0 : DevRef τ sig) = V (main_arg0 : DevRef τ sig) := by
  rw [after_ops, D_arg0, C2_arg0, C1_arg0, B_arg0, A_arg0]
theorem arg1_all : after ops V (main_arg1 : DevRef τ sig) = V (main_arg1 : DevRef τ sig) := by
  rw [after_ops, D_arg1, C2_arg1, C1_arg1, B_arg1, A_arg1]
theorem arg2_all : after ops V (main_arg2 : DevRef τ sig) = V (main_arg2 : DevRef τ sig) := by
  rw [after_ops, D_arg2, C2_arg2, C1_arg2, B_arg2, A_arg2]

end Whole

/-- On every device, for any float values, from any memory with zero counters: every weakly fair execution of the
    program terminates with the first result at `refLogits` and the second at `refLoss` of the argument arrays'
    launch contents, and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48)
          = refLogits (m ((c.tc : Thread nD τ).loc main_arg0)) (m ((c.tc : Thread nD τ).loc main_arg1))
      ∧ r.2.mem ((c.tc : Thread nD τ).loc main_v68)
          = refLoss (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v48).trans (v48_all _), (h c main_v68).trans (v68_all _),
        (h c main_arg0).trans (arg0_all _), (h c main_arg1).trans (arg1_all _), (h c main_arg2).trans (arg2_all _)⟩)
    (run_all m ρ)

end Cert.ReferenceIdeal.RefValue

end
-- ==== Proof.RefLogits.lean ====
/-
  The reference's first result read at an index.

  The reference computes, for every pair (s, k) of a shift and a row, the inner product of row k of the first matrix
  with row (k + s) mod 4096 of the second, divided by the larger of the product of the two row norms and a small
  constant; adds one and halves; and lays the [4096, 4096] table out row by row. It does so through index tensors:
  the sum of the row and column positions, its floored remainder by 4096 (a truncated remainder with a sign
  correction that never fires, both operands being non-negative and small), and two gathers that read the matrix
  product and the second norm at those positions (the start indices are read signed and clamped into range; here they
  are in range already). Each stage is read here at an index (s, k) over explicit coordinates in Fin 4096, and the
  flattened result at a flat position i is the table at (i / 4096, i mod 4096).
-/
import proofs.«418415_j74801150427885_3_alg».proof.Proof.RefTerms
import proofs.«418415_j74801150427885_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx
open Idealize.ShloMosaic.StableHlo.Predicate

/-! ## The float stages before the indices -/

/-- The norm of row `k`: the square root of the sum over the 256 columns of the squares. -/
theorem rowNorm_apply (x : FVec Ideal S4096x256 .f32) (k : Fin 4096) :
    RefValue.rowNorm (F := Ideal) x (ix1 k) = Spec.nrm x k := by
  have h : S4096x256.Reduces [1] S4096 := by decide
  unfold RefValue.rowNorm Spec.nrm
  show Ideal.sqrt (Ideal.hostReduceAdd reducesTo_S4096x256_S4096_d1 (mulf x x) (Ideal.ofBits .f32 0x00000000#32) (ix1 k)) = _
  rw [Ideal.hostReduceAdd_single reducesTo_S4096x256_S4096_d1 h, Ideal.ofBits_zero_f32, zero_add]
  refine congrArg Ideal.sqrt (Finset.sum_congr rfl fun d _ => ?_)
  have e : h.lift (ix1 k) d = ix2 k d := funext fun a => Fin.ext (by
    match a with
    | ⟨0, _⟩ => rfl
    | ⟨1, _⟩ => rfl)
  rw [e]
  rfl

/-! ### The product of the rows -/

theorem lhs_dot_0 (i : S4096x4096.Idx) (q : dot_S4096x256_S4096x256_S4096x4096_1_1_0_0_n_n.contr.Idx) :
    (dot_S4096x256_S4096x256_S4096x4096_1_1_0_0_n_n.lhsIdx i q 0).val = (i 0).val := by
  unfold DotDims.lhsIdx
  rw [dif_neg (show ¬(0 : Fin S4096x256.rank) ∈ dot_S4096x256_S4096x256_S4096x4096_1_1_0_0_n_n.lhsBatch by decide),
    dif_pos (show (0 : Fin S4096x256.rank) ∈ dot_S4096x256_S4096x256_S4096x4096_1_1_0_0_n_n.lhsNonContracting by decide)]
  rfl
theorem lhs_dot_1 (i : S4096x4096.Idx) (q : dot_S4096x256_S4096x256_S4096x4096_1_1_0_0_n_n.contr.Idx) :
    (dot_S4096x256_S4096x256_S4096x4096_1_1_0_0_n_n.lhsIdx i q 1).val = (q ⟨0, by decide⟩).val :=
  dot_S4096x256_S4096x256_S4096x4096_1_1_0_0_n_n.lhsIdx_val_of_single rfl i q
theorem rhs_dot_0 (i : S4096x4096.Idx) (q : dot_S4096x256_S4096x256_S4096x4096_1_1_0_0_n_n.contr.Idx) :
    (dot_S4096x256_S4096x256_S4096x4096_1_1_0_0_n_n.rhsIdx i q 0).val = (i 1).val := by
  unfold DotDims.rhsIdx
  rw [dif_neg (show ¬(0 : Fin S4096x256.rank) ∈ dot_S4096x256_S4096x256_S4096x4096_1_1_0_0_n_n.rhsBatch by decide),
    dif_pos (show (0 : Fin S4096x256.rank) ∈ dot_S4096x256_S4096x256_S4096x4096_1_1_0_0_n_n.rhsNonContracting by decide)]
  rfl
theorem rhs_dot_1 (i : S4096x4096.Idx) (q : dot_S4096x256_S4096x256_S4096x4096_1_1_0_0_n_n.contr.Idx) :
    (dot_S4096x256_S4096x256_S4096x4096_1_1_0_0_n_n.rhsIdx i q 1).val = (q ⟨0, by decide⟩).val :=
  dot_S4096x256_S4096x256_S4096x4096_1_1_0_0_n_n.rhsIdx_val_of_single rfl i q

/-- Entry (i, j) of the product: the inner product of row `i` of the first matrix and row `j` of the second. -/
theorem dotRows_apply (x0 x1 : FVec Ideal S4096x256 .f32) (i j : Fin 4096) :
    RefValue.dotRows (F := Ideal) x0 x1 (ix2 i j) = Spec.dot x0 x1 i j := by
  unfold RefValue.dotRows Spec.dot
  show FloatOps.dotGeneral _ none _ x0 x1 (ix2 i j) = _
  rw [Ideal.dotGeneral_apply,
    ← Equiv.sum_comp (contrEquiv1 dot_S4096x256_S4096x256_S4096x4096_1_1_0_0_n_n 256 rfl rfl).symm]
  refine Finset.sum_congr rfl fun d _ => ?_
  have hd := contrEquiv1_symm_val dot_S4096x256_S4096x256_S4096x4096_1_1_0_0_n_n 256 rfl rfl d
  have el : dot_S4096x256_S4096x256_S4096x4096_1_1_0_0_n_n.lhsIdx (ix2 i j)
      ((contrEquiv1 dot_S4096x256_S4096x256_S4096x4096_1_1_0_0_n_n 256 rfl rfl).symm d) = ix2 i d :=
    funext fun a => Fin.ext (by
      match a with
      | ⟨0, _⟩ => exact lhs_dot_0 _ _
      | ⟨1, _⟩ => exact (lhs_dot_1 _ _).trans hd)
  have er : dot_S4096x256_S4096x256_S4096x4096_1_1_0_0_n_n.rhsIdx (ix2 i j)
      ((contrEquiv1 dot_S4096x256_S4096x256_S4096x4096_1_1_0_0_n_n 256 rfl rfl).symm d) = ix2 j d :=
    funext fun a => Fin.ext (by
      match a with
      | ⟨0, _⟩ => exact rhs_dot_0 _ _
      | ⟨1, _⟩ => exact (rhs_dot_1 _ _).trans hd)
  rw [el, er]

/-! ## Words: the remainder of a small non-negative word by 4096 -/

/-- The floored remainder of two 32-bit words: the truncated remainder by the divisor (or by 1 where the divisor is 0), plus
    the divisor where the remainder is not zero and its sign differs from the divisor's. -/
def remW (a b : BitVec 32) : BitVec 32 :=
  Scalar.select
    (IntOp.andi
      (IntOp.cmpi .ne
        (IntOp.cmpi .slt (IntOp.remsi .host a (Scalar.select (IntOp.cmpi .eq b 0#32) 1#32 b)) 0#32)
        (IntOp.cmpi .slt (Scalar.select (IntOp.cmpi .eq b 0#32) 1#32 b) 0#32))
      (IntOp.cmpi .ne (IntOp.remsi .host a (Scalar.select (IntOp.cmpi .eq b 0#32) 1#32 b)) 0#32))
    (IntOp.addi (IntOp.remsi .host a (Scalar.select (IntOp.cmpi .eq b 0#32) 1#32 b)) (Scalar.select (IntOp.cmpi .eq b 0#32) 1#32 b))
    (IntOp.remsi .host a (Scalar.select (IntOp.cmpi .eq b 0#32) 1#32 b))

/-- The divisor 4096 is not zero, so it is kept. -/
theorem safe4096 : Scalar.select (IntOp.cmpi .eq (4096#32) 0#32) 1#32 (4096#32 : BitVec 32) = 4096#32 := by decide

/-- The truncated remainder of a word below 2³¹ by 4096 is the remainder of its value: both are non-negative, so
    the signed remainder is the unsigned one. -/
theorem remsi_small (n : Nat) (hn : n < 2 ^ 31) :
    IntOp.remsi .host (BitVec.ofNat 32 n) 4096#32 = BitVec.ofNat 32 (n % 4096) := by
  have hc : ¬ IntOp.SDivCorner (BitVec.ofNat 32 n) 4096#32 := by
    intro hc; rcases hc with hc | ⟨_, hc⟩ <;> exact absurd hc (by decide)
  have hm : (BitVec.ofNat 32 n).msb = false := BitVec.msb_eq_false_iff_two_mul_lt.mpr (by simp [BitVec.toNat_ofNat]; omega)
  unfold IntOp.remsi
  rw [if_neg hc]
  apply BitVec.eq_of_toNat_eq
  simp only [BitVec.srem_eq, hm, show (4096#32 : BitVec 32).msb = false from by decide, BitVec.toNat_umod, BitVec.toNat_ofNat,
    Nat.reducePow, Nat.reduceMod]
  omega

/-- A word below 2³¹ is not negative. -/
theorem slt_zero_of_small (w : BitVec 32) (h : w.toNat < 2 ^ 31) : IntOp.cmpi .slt w 0#32 = 0#1 := by
  apply eq_zero_of_ne_one
  rw [slt_iff_toNat h (by decide)]
  exact Nat.not_lt_zero _

/-- So the floored remainder of such a word by 4096 is the remainder of its value: no sign correction. -/
theorem remW_small (n : Nat) (hn : n < 2 ^ 31) : remW (BitVec.ofNat 32 n) 4096#32 = BitVec.ofNat 32 (n % 4096) := by
  unfold remW
  rw [safe4096, remsi_small n hn]
  have hlt : (BitVec.ofNat 32 (n % 4096)).toNat < 2 ^ 31 := by simp [BitVec.toNat_ofNat]; omega
  rw [slt_zero_of_small _ hlt]
  have h2 : IntOp.andi (IntOp.cmpi .ne (0#1) (IntOp.cmpi .slt (4096#32) 0#32)) (IntOp.cmpi .ne (BitVec.ofNat 32 (n % 4096)) 0#32) = 0#1 := by
    have : IntOp.cmpi .ne (0#1) (IntOp.cmpi .slt (4096#32 : BitVec 32) 0#32) = 0#1 := by decide
    rw [this]
    unfold IntOp.andi
    simp
  rw [h2, select_zero]

/-- The value of a small word. -/
theorem toNat_ofNat_small (n : Nat) (hn : n < 2 ^ 31) : (BitVec.ofNat 32 n).toInt.toNat = n := by
  rw [toInt_ofNat_small n hn]; rfl

/-! ## The index tensors at an index -/

theorem ij_eq_ix2 {n m : Nat} (p : Fin n) (q : Fin m) : ij p q = ix2 p q := by
  funext d
  match d with
  | ⟨0, _⟩ => rfl
  | ⟨1, _⟩ => rfl

/-- A scalar broadcast over the square reads the scalar everywhere. -/
theorem bcastSq {α : Type} (dims : Fin S_.rank → Fin S4096x4096.rank) (h : S_.BroadcastsInDim S4096x4096 dims)
    (v : S_.Idx → α) (j : S4096x4096.Idx) : broadcastInDim S4096x4096 dims h v j = v ix0 := by
  unfold broadcastInDim; exact congrArg v (funext fun a => a.elim0)

/-- A scalar broadcast over the row reads the scalar everywhere. -/
theorem bcastRow {α : Type} (dims : Fin S_.rank → Fin S1x4096.rank) (h : S_.BroadcastsInDim S1x4096 dims)
    (v : S_.Idx → α) (j : S1x4096.Idx) : broadcastInDim S1x4096 dims h v j = v ix0 := by
  unfold broadcastInDim; exact congrArg v (funext fun a => a.elim0)

/-- i + j at (s, k): the column index plus the row index. -/
theorem sumIdx_apply (s k : Fin 4096) : RefValue.sumIdx (ix2 s k) = BitVec.ofNat 32 (k.val + s.val) := by
  unfold RefValue.sumIdx RefValue.iotaRow
  show IntOp.addi (broadcastInDim S4096x4096 ![0, 1] bcast_S1x4096_S4096x4096_0_1
      (broadcastInDim S1x4096 ![1] bcast_S4096_S1x4096_1 (iotaInDim S4096 32 0)) (ix2 s k))
    (broadcastInDim S4096x4096 ![0, 1] bcast_S4096x1_S4096x4096_0_1
      (broadcastInDim S4096x1 ![0] bcast_S4096_S4096x1_0 (iotaInDim S4096 32 0)) (ix2 s k)) = _
  rw [← ij_eq_ix2, bcast_cols, bcast_rows, iota_apply, iota_apply]
  unfold IntOp.addi
  rw [BitVec.ofNat_add]

/-- The outlined remainder at an index is the remainder of the two words. -/
theorem floorRem_apply (a : IVec S4096x4096 32) (b : IVec S_ 32) (j : S4096x4096.Idx) :
    RefValue.floorRem a b j = remW (a j) (b ix0) := by
  unfold RefValue.floorRem RefValue.truncRem RefValue.safeDivisor remW
  simp only [select, cmpi, andi, addi, Host.remsi, constantI, id, bcastSq]

/-- (i + j) mod 4096 at (s, k). -/
theorem modIdx_apply (s k : Fin 4096) : RefValue.modIdx (ix2 s k) = BitVec.ofNat 32 ((k.val + s.val) % 4096) := by
  unfold RefValue.modIdx
  rw [floorRem_apply, sumIdx_apply]
  exact remW_small _ (by have := s.isLt; have := k.isLt; omega)

/-- Adding 4096 where negative leaves a word below 2³¹ alone. -/
theorem wrapIdx_apply (ix : IVec S4096x4096 32) (j : S4096x4096.Idx) (h : (ix j).toNat < 2 ^ 31) :
    RefValue.wrapIdx ix j = ix j := by
  unfold RefValue.wrapIdx
  simp only [select, cmpi, addi, constantI, bcastSq]
  rw [slt_zero_of_small _ h, select_zero]

theorem wrapModIdx_apply (s k : Fin 4096) :
    RefValue.wrapIdx RefValue.modIdx (ix2 s k) = BitVec.ofNat 32 ((k.val + s.val) % 4096) := by
  rw [wrapIdx_apply, modIdx_apply]
  rw [modIdx_apply]
  simp [BitVec.toNat_ofNat]; omega

/-- The column index as a row, at column k. -/
theorem colIdx_apply (k : Fin 4096) : RefValue.colIdx (i1q k) = BitVec.ofNat 32 k.val := by
  unfold RefValue.colIdx RefValue.iotaRow
  simp only [select, cmpi, addi, constantI, bcastRow]
  rw [bcast_row1, iota_apply]
  rw [slt_zero_of_small _ (by simp [BitVec.toNat_ofNat]; have := k.isLt; omega), select_zero]

/-! ## The pair of index tensors, and the two gathers, at an index -/

section Reads
variable {α : Type}

/-- A tensor given a last axis of length 1 reads the tensor at the first two coordinates. -/
theorem lastUnit_apply (v : S4096x4096.Idx → α) (s k : Fin 4096) :
    broadcastInDim S4096x4096x1 ![0, 1] bcast_S4096x4096_S4096x4096x1_0_1 v (ix3 s k (0 : Fin 1)) = v (ix2 s k) := by
  refine broadcastInDim_apply _ _ v _ (ix2 s k) (fun a => ?_)
  match a with
  | ⟨0, _⟩ => rfl
  | ⟨1, _⟩ => rfl

/-- Component 0 of the pair is the first tensor. -/
theorem pair_apply_0 (A B : S4096x4096x1.Idx → α) (s k : Fin 4096) :
    concatenate S4096x4096x2 2 [⟨S4096x4096x1, A⟩, ⟨S4096x4096x1, B⟩]
      concatenates_S4096x4096x1_S4096x4096x1_S4096x4096x2_d2 (ix3 s k (0 : Fin 2)) = A (ix3 s k (0 : Fin 1)) := by
  refine concatenate_pair_apply_left (t := S4096x4096x2) 2 A B concatenates_S4096x4096x1_S4096x4096x1_S4096x4096x2_d2
    (ix3 s k (0 : Fin 2)) rfl (ix3 s k (0 : Fin 1)) (fun b => ?_)
  match b with
  | ⟨0, _⟩ => rfl
  | ⟨1, _⟩ => rfl
  | ⟨2, _⟩ => rfl

/-- Component 1 of the pair is the second tensor. -/
theorem pair_apply_1 (A B : S4096x4096x1.Idx → α) (s k : Fin 4096) :
    concatenate S4096x4096x2 2 [⟨S4096x4096x1, A⟩, ⟨S4096x4096x1, B⟩]
      concatenates_S4096x4096x1_S4096x4096x1_S4096x4096x2_d2 (ix3 s k (1 : Fin 2)) = B (ix3 s k (0 : Fin 1)) := by
  refine concatenate_pair_apply_right (t := S4096x4096x2) 2 A B concatenates_S4096x4096x1_S4096x4096x1_S4096x4096x2_d2
    (ix3 s k (1 : Fin 2)) rfl rfl (ix3 s k (0 : Fin 1)) (fun b hb => ?_) rfl
  match b with
  | ⟨0, _⟩ => rfl
  | ⟨1, _⟩ => rfl
  | ⟨2, _⟩ => exact absurd rfl hb

/-- The start-indices index of component 0 at result index (s, k). -/
theorem pair_siIdx_0 (s k : Fin 4096) :
    gather_S4096x4096_S4096x4096x2_S4096x4096_n_01_n_n_01_2_11.siIdx (ix2 s k)
      ⟨List.idxOf (0 : Fin S4096x4096.rank) gather_S4096x4096_S4096x4096x2_S4096x4096_n_01_n_n_01_2_11.startIndexMap,
        List.idxOf_lt_length_iff.2 (by decide)⟩ = ix3 s k (0 : Fin 2) := by
  funext b; refine Fin.ext ?_
  match b with
  | ⟨0, _⟩ => rfl
  | ⟨1, _⟩ => rfl
  | ⟨2, _⟩ => rfl

/-- The start-indices index of component 1 at result index (s, k). -/
theorem pair_siIdx_1 (s k : Fin 4096) :
    gather_S4096x4096_S4096x4096x2_S4096x4096_n_01_n_n_01_2_11.siIdx (ix2 s k)
      ⟨List.idxOf (1 : Fin S4096x4096.rank) gather_S4096x4096_S4096x4096x2_S4096x4096_n_01_n_n_01_2_11.startIndexMap,
        List.idxOf_lt_length_iff.2 (by decide)⟩ = ix3 s k (1 : Fin 2) := by
  funext b; refine Fin.ext ?_
  match b with
  | ⟨0, _⟩ => rfl
  | ⟨1, _⟩ => rfl
  | ⟨2, _⟩ => rfl

/-- The operand's row the pair gather reads at (s, k): component 0 of the start index, read signed and clamped. -/
theorem pair_operand_0 (idx : IVec S4096x4096x2 32) (s k : Fin 4096) :
    (gather_S4096x4096_S4096x4096x2_S4096x4096_n_01_n_n_01_2_11.operandIdx (ix2 s k) idx 0).val
      = min (idx (ix3 s k (0 : Fin 2))).toInt.toNat 4095 := by
  show gather_S4096x4096_S4096x4096x2_S4096x4096_n_01_n_n_01_2_11.start (ix2 s k) idx 0
    + gather_S4096x4096_S4096x4096x2_S4096x4096_n_01_n_n_01_2_11.batchCoord (ix2 s k) 0
    + gather_S4096x4096_S4096x4096x2_S4096x4096_n_01_n_n_01_2_11.offCoord (ix2 s k) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S4096x4096.rank) ∈ gather_S4096x4096_S4096x4096x2_S4096x4096_n_01_n_n_01_2_11.startIndexMap by decide)]
  rw [pair_siIdx_0]
  rfl

/-- The operand's column the pair gather reads at (s, k): component 1 of the start index, read signed and clamped. -/
theorem pair_operand_1 (idx : IVec S4096x4096x2 32) (s k : Fin 4096) :
    (gather_S4096x4096_S4096x4096x2_S4096x4096_n_01_n_n_01_2_11.operandIdx (ix2 s k) idx 1).val
      = min (idx (ix3 s k (1 : Fin 2))).toInt.toNat 4095 := by
  show gather_S4096x4096_S4096x4096x2_S4096x4096_n_01_n_n_01_2_11.start (ix2 s k) idx 1
    + gather_S4096x4096_S4096x4096x2_S4096x4096_n_01_n_n_01_2_11.batchCoord (ix2 s k) 1
    + gather_S4096x4096_S4096x4096x2_S4096x4096_n_01_n_n_01_2_11.offCoord (ix2 s k) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S4096x4096.rank) ∈ gather_S4096x4096_S4096x4096x2_S4096x4096_n_01_n_n_01_2_11.startIndexMap by decide)]
  rw [pair_siIdx_1]
  rfl

/-- THE PAIR GATHER AT (s, k), when the two components of the start index there are the words of two positions r, c
    inside the matrix: the operand at (r, c). -/
theorem gatherPair_apply (x : S4096x4096.Idx → α) (idx : IVec S4096x4096x2 32) (s k r c : Fin 4096)
    (h0 : idx (ix3 s k (0 : Fin 2)) = BitVec.ofNat 32 r.val) (h1 : idx (ix3 s k (1 : Fin 2)) = BitVec.ofNat 32 c.val) :
    Host.gather gather_S4096x4096_S4096x4096x2_S4096x4096_n_01_n_n_01_2_11 x idx (ix2 s k) = x (ix2 r c) := by
  unfold Host.gather
  refine congrArg x (funext fun a => Fin.ext ?_)
  have hr := r.isLt
  have hc := c.isLt
  match a with
  | ⟨0, _⟩ =>
    refine (pair_operand_0 idx s k).trans ?_
    rw [h0, toInt_ofNat_small r.val (by omega)]
    show min r.val 4095 = r.val
    omega
  | ⟨1, _⟩ =>
    refine (pair_operand_1 idx s k).trans ?_
    rw [h1, toInt_ofNat_small c.val (by omega)]
    show min c.val 4095 = c.val
    omega

/-- THE TAKE AT (s, k), when the start index there is the word of a position r inside the vector: the operand at r. -/
theorem gatherTake_apply (x : S4096.Idx → α) (idx : IVec S4096x4096x1 32) (s k r : Fin 4096)
    (h0 : idx (ix3 s k (0 : Fin 1)) = BitVec.ofNat 32 r.val) :
    Host.gather gather_S4096_S4096x4096x1_S4096x4096_n_0_n_n_0_2_1 x idx (ix2 s k) = x (ix1 r) := by
  have e : takeIdx (ix2 s k) = ix3 s k (0 : Fin 1) := by
    funext a
    match a with
    | ⟨0, _⟩ => rfl
    | ⟨1, _⟩ => rfl
    | ⟨2, _⟩ => rfl
  have hr := r.isLt
  show Host.gather (takeDims 4096 4096 4096 gather_S4096_S4096x4096x1_S4096x4096_n_0_n_n_0_2_1_wf) x idx (ix2 s k) = _
  rw [gather_take_apply (by decide)]
  refine congrArg x (congrArg ix1 (Fin.ext ?_))
  show min (idx (takeIdx (ix2 s k))).toInt.toNat (4096 - 1) = r.val
  rw [e, h0, toInt_ofNat_small r.val (by omega)]
  show min r.val 4095 = r.val
  omega

end Reads

/-! ## The gathered product, the denominator, the quotient and the first result -/

theorem ofFin_eq_ix1 {n : Nat} (k : Fin n) : Shape.Idx.ofFin k = ix1 k := by
  funext a
  match a with
  | ⟨0, _⟩ => rfl

/-- A vector laid along the columns of the square reads, at (s, k), the vector at k. -/
theorem colBcast_apply {α : Type} (v : S4096.Idx → α) (s k : Fin 4096) :
    broadcastInDim S4096x4096 ![0, 1] bcast_S1x4096_S4096x4096_0_1
      (broadcastInDim S1x4096 ![1] bcast_S4096_S1x4096_1 v) (ix2 s k) = v (ix1 k) := by
  rw [← ij_eq_ix2, bcast_cols, ofFin_eq_ix1]

/-- Component 0 of the pair at (s, k): the column index k. -/
theorem pairIdx_apply_0 (s k : Fin 4096) : RefValue.pairIdx (ix3 s k (0 : Fin 2)) = BitVec.ofNat 32 k.val := by
  unfold RefValue.pairIdx
  rw [pair_apply_0, lastUnit_apply, ← ij_eq_ix2, bcast_of_row, colIdx_apply]

/-- Component 1 of the pair at (s, k): (k + s) mod 4096. -/
theorem pairIdx_apply_1 (s k : Fin 4096) :
    RefValue.pairIdx (ix3 s k (1 : Fin 2)) = BitVec.ofNat 32 ((k.val + s.val) % 4096) := by
  unfold RefValue.pairIdx
  rw [pair_apply_1, lastUnit_apply, wrapModIdx_apply]

/-- The single index at (s, k): (k + s) mod 4096. -/
theorem oneIdx_apply (s k : Fin 4096) :
    RefValue.oneIdx (ix3 s k (0 : Fin 1)) = BitVec.ofNat 32 ((k.val + s.val) % 4096) := by
  unfold RefValue.oneIdx
  rw [lastUnit_apply, wrapModIdx_apply]

/-- The gathered product at (s, k): the product at (k, (k + s) mod 4096). -/
theorem gatherDot_apply (d : FVec Ideal S4096x4096 .f32) (s k : Fin 4096) :
    RefValue.gatherDot (F := Ideal) d (ix2 s k) = d (ix2 k (Spec.wrap k s)) := by
  unfold RefValue.gatherDot
  exact gatherPair_apply d _ s k k (Spec.wrap k s) (pairIdx_apply_0 s k) (pairIdx_apply_1 s k)

/-- The gathered norm at (s, k): the norm at (k + s) mod 4096. -/
theorem gatherNorm_apply (n : FVec Ideal S4096 .f32) (s k : Fin 4096) :
    RefValue.gatherNorm (F := Ideal) n (ix2 s k) = n (ix1 (Spec.wrap k s)) := by
  unfold RefValue.gatherNorm
  exact gatherTake_apply n _ s k (Spec.wrap k s) (oneIdx_apply s k)

/-- The denominator at (s, k): the first norm at k times the second at (k + s) mod 4096, and at least the small
    constant. -/
theorem denom_apply (n0 n1 : FVec Ideal S4096 .f32) (s k : Fin 4096) :
    RefValue.denom (F := Ideal) n0 n1 (ix2 s k) = max (n0 (ix1 k) * n1 (ix1 (Spec.wrap k s))) Spec.eps := by
  unfold RefValue.denom
  show max
      (broadcastInDim S4096x4096 ![0, 1] bcast_S1x4096_S4096x4096_0_1
          (broadcastInDim S1x4096 ![1] bcast_S4096_S1x4096_1 n0) (ix2 s k)
        * RefValue.gatherNorm (F := Ideal) n1 (ix2 s k))
      (broadcastInDim S4096x4096 ![] bcast_S_S4096x4096 (constant (F := Ideal) S_ .f32 0x322BCC77#32) (ix2 s k)) = _
  rw [colBcast_apply, gatherNorm_apply, bcastSq]
  rfl

/-- The quotient at (s, k) is the cosine of row k against row (k + s) mod 4096. -/
theorem quotient_apply (x0 x1 : FVec Ideal S4096x256 .f32) (s k : Fin 4096) :
    RefValue.quotient (F := Ideal) x0 x1 (ix2 s k) = Spec.cosv x0 x1 s k := by
  unfold RefValue.quotient Spec.cosv
  show Ideal.div (RefValue.gatherDot (F := Ideal) (RefValue.dotRows (F := Ideal) x0 x1) (ix2 s k))
      (RefValue.denom (F := Ideal) (RefValue.rowNorm (F := Ideal) x0) (RefValue.rowNorm (F := Ideal) x1) (ix2 s k)) = _
  rw [gatherDot_apply, dotRows_apply, denom_apply, rowNorm_apply, rowNorm_apply]

/-- The halved shifted quotient at (s, k) is the logit at shift s, row k. -/
theorem halfShift_apply (x0 x1 : FVec Ideal S4096x256 .f32) (s k : Fin 4096) :
    RefValue.halfShift (F := Ideal) x0 x1 (ValueIdx.ix2 s k) = Spec.logit x0 x1 s k := by
  unfold RefValue.halfShift Spec.logit
  show (RefValue.quotient (F := Ideal) x0 x1 (ix2 s k)
        + broadcastInDim S4096x4096 ![] bcast_S_S4096x4096 (constant (F := Ideal) S_ .f32 0x3F800000#32) (ix2 s k))
      * broadcastInDim S4096x4096 ![] bcast_S_S4096x4096 (constant (F := Ideal) S_ .f32 0x3F000000#32) (ix2 s k) = _
  rw [quotient_apply, bcastSq, bcastSq]
  rfl

/-- The first result: flattening row by row sends flat position i to (i / 4096, i mod 4096), the shift and the row. -/
theorem refLogits_eq (x0 x1 : FVec Ideal S4096x256 .f32) :
    RefValue.refLogits (F := Ideal) x0 x1 = Spec.logitsFlat x0 x1 := by
  funext i
  unfold RefValue.refLogits Spec.logitsFlat
  rw [shapeCast_apply (RefValue.halfShift (F := Ideal) x0 x1) shapeCasts_S4096x4096_S16777216 i
    (ix2 (Spec.sOf (i 0)) (Spec.kOf (i 0))) (by
      rw [Shape.rowMajor_val_two, Shape.rowMajor_val_one]
      show (i 0).val / 4096 * 4096 + (i 0).val % 4096 = (i 0).val
      omega)]
  exact halfShift_apply x0 x1 _ _

end Cert.ReferenceIdeal.RefRead

end
-- ==== Proof.RefLoss.lean ====
/-
  The reference's second result as a sum over the flat index.

  The targets and the weights are two-piece concatenations along the one axis: the first 4096 positions read
  the first piece, the others the second piece 4096 positions earlier. At a position i the weighted term is
  therefore w(i) · (t(i) · max(log p(i), -100) + (1 - t(i)) · max(log(1 - p(i)), -100)) with w(i) one or a half
  and t(i) the label or zero according to i < 4096, and the scalar result is minus the sum of these terms from
  the initial value zero. Writing i = 4096 · (i / 4096) + i mod 4096 gives the form over (shift, row).
-/
import proofs.«418415_j74801150427885_3_alg».proof.Proof.RefTerms
import proofs.«418415_j74801150427885_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## A two-piece concatenation of vectors at a position -/

/-- Below 4096 the concatenation reads its first piece at the same position. -/
theorem concat_lo {α : Type} (x₁ : S4096.Idx → α) (x₂ : S16773120.Idx → α) (i : Fin 16777216) (h : i.val < 4096) :
    concatenate S16777216 0 [⟨S4096, x₁⟩, ⟨S16773120, x₂⟩] concatenates_S4096_S16773120_S16777216_d0 (ix1 i)
      = x₁ (ix1 ⟨i.val, h⟩) := by
  refine concatenate_pair_apply_left 0 x₁ x₂ _ (ix1 i) rfl (ix1 ⟨i.val, h⟩) ?_
  intro b
  match b with
  | ⟨0, _⟩ => rfl

/-- From 4096 on it reads its second piece 4096 positions earlier. -/
theorem concat_hi {α : Type} (x₁ : S4096.Idx → α) (x₂ : S16773120.Idx → α) (i : Fin 16777216) (h : ¬ i.val < 4096) :
    concatenate S16777216 0 [⟨S4096, x₁⟩, ⟨S16773120, x₂⟩] concatenates_S4096_S16773120_S16777216_d0 (ix1 i)
      = x₂ (ix1 ⟨i.val - 4096, by have := i.isLt; omega⟩) := by
  refine concatenate_pair_apply_right 0 x₁ x₂ _ (ix1 i) rfl rfl (ix1 ⟨i.val - 4096, by have := i.isLt; omega⟩) ?_ ?_
  · intro b hb
    match b, hb with
    | ⟨0, _⟩, hb => exact absurd rfl hb
  · show i.val - 4096 + 4096 = i.val
    omega

/-! ## The pieces at a position -/

/-- The weights at a position: one below 4096, a half from there on. -/
theorem weights_at (i : Fin 16777216) :
    RefValue.weights (F := Ideal) (ix1 i) = if i.val < 4096 then Spec.one else Spec.half := by
  unfold RefValue.weights
  by_cases h : i.val < 4096
  · rw [concat_lo _ _ i h, if_pos h]; rfl
  · rw [concat_hi _ _ i h, if_neg h]; rfl

/-- The targets at a position: the label below 4096, zero from there on. -/
theorem targets_at (x2 : FVec Ideal S4096 .f32) (i : Fin 16777216) :
    RefValue.targets (F := Ideal) x2 (ix1 i) = if h : i.val < 4096 then x2 (ix1 ⟨i.val, h⟩) else Spec.zero := by
  unfold RefValue.targets
  by_cases h : i.val < 4096
  · rw [concat_lo _ _ i h, dif_pos h]
  · rw [concat_hi _ _ i h, dif_neg h]; rfl

/-- The bounded logarithm at a position. -/
theorem logClamp_at (p : FVec Ideal S16777216 .f32) (j : S16777216.Idx) :
    RefValue.logClamp (F := Ideal) p j = Spec.lp (p j) := rfl

/-- The bounded logarithm of one minus the entry at a position. -/
theorem log1mClamp_at (p : FVec Ideal S16777216 .f32) (j : S16777216.Idx) :
    RefValue.log1mClamp (F := Ideal) p j = Spec.l1 (p j) := rfl

/-- The weighted term at a position. -/
theorem lossTerms_at (p : FVec Ideal S16777216 .f32) (x2 : FVec Ideal S4096 .f32) (i : Fin 16777216) :
    RefValue.lossTerms (F := Ideal) p x2 (ix1 i)
      = (if i.val < 4096 then Spec.one else Spec.half)
          * ((if h : i.val < 4096 then x2 (ix1 ⟨i.val, h⟩) else Spec.zero) * Spec.lp (p (ix1 i))
              + (Spec.one - (if h : i.val < 4096 then x2 (ix1 ⟨i.val, h⟩) else Spec.zero)) * Spec.l1 (p (ix1 i))) := by
  rw [← weights_at i, ← targets_at x2 i]
  rfl

/-! ## The scalar result -/

/-- The negation of an array, at an index, is the negative of the entry there. -/
theorem hostNegf_at {s : Shape} {φ : FTy} (x : FVec Ideal s φ) (j : s.Idx) : Host.negf x j = -(x j) := rfl

/-- The positions of a vector of length 16777216 are its indices. -/
def flatEquiv : Fin 16777216 ≃ S16777216.Idx where
  toFun := fun i => ix1 i
  invFun := fun j => j 0
  left_inv := fun _ => rfl
  right_inv := fun j => (eq_ix1 j).symm

/-- The position i as an index. -/
theorem flatEquiv_apply (i : Fin 16777216) : flatEquiv i = ix1 i := rfl

/-- The second result is minus the sum, over the flat index, of the weighted terms, with the entry read at
    (i / 4096, i mod 4096). -/
theorem lossOf_eq (p : FVec Ideal S16777216 .f32) (x2 : FVec Ideal S4096 .f32) :
    RefValue.lossOf (F := Ideal) p x2 = fun _ => Spec.rLoss
      (fun s k => Spec.lp (p (ValueIdx.ix1 ⟨4096 * s.val + k.val, by have := s.isLt; have := k.isLt; omega⟩)))
      (fun s k => Spec.l1 (p (ValueIdx.ix1 ⟨4096 * s.val + k.val, by have := s.isLt; have := k.isLt; omega⟩)))
      (fun k => x2 (ValueIdx.ix1 k)) := by
  funext j
  unfold RefValue.lossOf
  rw [hostNegf_at, hostReduceAdd_apply, Ideal.hostReduceAdd_total _ (fun b => b.elim0), constant_apply,
    Ideal.ofBits_zero_f32, zero_add, ← Equiv.sum_comp flatEquiv]
  unfold Spec.rLoss
  refine congrArg Neg.neg (Finset.sum_congr rfl fun i _ => ?_)
  have hi : (⟨4096 * (Spec.sOf i).val + (Spec.kOf i).val,
      by have := (Spec.sOf i).isLt; have := (Spec.kOf i).isLt; omega⟩ : Fin 16777216) = i :=
    Fin.ext (Nat.div_add_mod i.val 4096)
  rw [flatEquiv_apply, lossTerms_at p x2 i]
  simp only [hi]

end Cert.ReferenceIdeal.RefRead

end
-- ==== Proof.RefFinal.lean ====
/-
  The reference program's two results, on any inputs, are the logits laid out shift-major and the weighted sum over
  the flat index: its first result read entry by entry, and its second result the sum read term by term at the first.
-/
import proofs.«418415_j74801150427885_3_alg».proof.Proof.RefTerms
import proofs.«418415_j74801150427885_3_alg».proof.Proof.Spec

noncomputable section

namespace Cert.ReferenceIdeal.RefRead

open Idealize.ShloMosaic Idealize.ShloMosaic.ValueIdx
open Cert.ReferenceIdeal Cert.ReferenceIdeal.RefValue

/-- A flat index built from a shift and a row splits back into them. -/
theorem sOf_mk (s k : Fin 4096) (h : 4096 * s.val + k.val < 16777216) : Spec.sOf ⟨4096 * s.val + k.val, h⟩ = s := by
  apply Fin.ext; show (4096 * s.val + k.val) / 4096 = s.val; have := k.isLt; omega
theorem kOf_mk (s k : Fin 4096) (h : 4096 * s.val + k.val < 16777216) : Spec.kOf ⟨4096 * s.val + k.val, h⟩ = k := by
  apply Fin.ext; show (4096 * s.val + k.val) % 4096 = k.val; have := k.isLt; omega

/-- The second result is the loss over the logits, once the first result is the logits and the sum is read term by term. -/
theorem refLoss_eq_of
    (hlog : ∀ x0 x1 : FVec Ideal S4096x256 .f32, refLogits (F := Ideal) x0 x1 = Spec.logitsFlat x0 x1)
    (hloss : ∀ (p : FVec Ideal S16777216 .f32) (x2 : FVec Ideal S4096 .f32),
      RefValue.lossOf (F := Ideal) p x2 = fun _ => Spec.rLoss
        (fun s k => Spec.lp (p (ix1 ⟨4096 * s.val + k.val, by have := s.isLt; have := k.isLt; omega⟩)))
        (fun s k => Spec.l1 (p (ix1 ⟨4096 * s.val + k.val, by have := s.isLt; have := k.isLt; omega⟩)))
        (fun k => x2 (ix1 k)))
    (x0 x1 : FVec Ideal S4096x256 .f32) (x2 : FVec Ideal S4096 .f32) :
    refLoss (F := Ideal) x0 x1 x2 = Spec.lossOf x0 x1 x2 := by
  unfold refLoss
  rw [hloss, hlog]
  unfold Spec.lossOf Spec.logitsFlat
  funext _
  congr 1
  · funext s k; show Spec.lp (Spec.logit x0 x1 (Spec.sOf _) (Spec.kOf _)) = _; rw [sOf_mk, kOf_mk]
  · funext s k; show Spec.l1 (Spec.logit x0 x1 (Spec.sOf _) (Spec.kOf _)) = _; rw [sOf_mk, kOf_mk]

end Cert.ReferenceIdeal.RefRead

end
-- ==== Proof.Finite.lean ====
/-
  From the certificate's precondition to "every input entry is a real number".  The precondition is the
  conjunction of three statements "every entry of the array has absolute value below +∞"; an extended real whose
  absolute value is below +∞ is neither infinity, hence a real.
-/
import proofs.«418415_j74801150427885_3_alg».proof.Defs
import proofs.«418415_j74801150427885_3_alg».proof.Proof.Gen.Pre_finite_inputs
import proofs.«418415_j74801150427885_3_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Proof.Finite

open Idealize.ShloMosaic Idealize.SL.Sem Cert.Pre_finite_inputs

/-- The rank-0 shape has one index. -/
instance : Subsingleton S_.Idx := ⟨fun a b => funext fun d => d.elim0⟩

/-- The pattern of +∞ denotes `⊤`. -/
theorem ofBits_inf : Ideal.ofBits .f32 0x7F800000#32 = (⊤ : EReal) := by
  simp [Ideal.ofBits, Ideal.ieee]

/-- An extended real whose absolute value `max x (-x)` compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

theorem finite_of_pre [Cert.Pre_finite_inputs.Facts] (x0 x1 : FVec Ideal ⟨2, ![4096, 256]⟩ .f32) (x2 : FVec Ideal ⟨1, ![4096]⟩ .f32)
    (h : Cert.Pre_finite_inputs.fn (F := Ideal) x0 x1 x2 = (fun _ => 1#1)) :
    Cert.Spec.FiniteOn x0 ∧ Cert.Spec.FiniteOn x1 ∧ Cert.Spec.FiniteOn x2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

/-- The statement applies to the certificate's precondition as it is written. -/
example (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.FiniteOn (m ((c.tc : Thread Cert.KernelIdeal.nD Cert.KernelIdeal.τ).loc Cert.KernelIdeal.main_arg0))
    ∧ Cert.Spec.FiniteOn (m ((c.tc : Thread Cert.KernelIdeal.nD Cert.KernelIdeal.τ).loc Cert.KernelIdeal.main_arg1))
    ∧ Cert.Spec.FiniteOn (m ((c.tc : Thread Cert.KernelIdeal.nD Cert.KernelIdeal.τ).loc Cert.KernelIdeal.main_arg2)) :=
  finite_of_pre _ _ _ (hpre c)

end Cert.Proof.Finite

end
-- ==== Proof.lean ====
/-
  The certificate: the kernel program (at the word level and idealized) and the idealized reference run to the end,
  fault nowhere and leave their arguments unchanged, and on finite inputs the idealized kernel and the idealized
  reference end with the same two results over the extended reals.

  Both programs compute, for every shift s and row k, the cosine of row k of the first matrix against row
  (k + s) mod 4096 of the second — their inner product over the larger of the product of the row norms and a small
  constant —, the logit (cos + 1) / 2, and a weighted binary cross entropy of the logits with logarithms bounded
  below by -100.  The kernel forms the cosines tile by tile from doubled copies of the second matrix and its norms
  (the cyclic shift becomes a plain offset), rotates each row of a tile into place, clamps the cosine to [-1, 1], and
  sums the loss in sixteen row blocks with a correction for shift 0; the reference gathers, does not clamp, and sums
  over the flat index.  On finite inputs the clamps are the identity by the Cauchy-Schwarz inequality and the two
  sums agree by the algebra of finite real sums.
-/
import proofs.«418415_j74801150427885_3_alg».proof.Defs
import proofs.«418415_j74801150427885_3_alg».proof.Proof.Gen.Kernel
import proofs.«418415_j74801150427885_3_alg».proof.Proof.Gen.KernelIdeal
import proofs.«418415_j74801150427885_3_alg».proof.Proof.Gen.ReferenceIdeal
import proofs.«418415_j74801150427885_3_alg».proof.Proof.Gen.Pre_finite_inputs
import proofs.«418415_j74801150427885_3_alg».proof.Proof.Bits.KRun
import proofs.«418415_j74801150427885_3_alg».proof.Proof.KRun
import proofs.«418415_j74801150427885_3_alg».proof.Proof.KValue
import proofs.«418415_j74801150427885_3_alg».proof.Proof.K0Val
import proofs.«418415_j74801150427885_3_alg».proof.Proof.K1Val
import proofs.«418415_j74801150427885_3_alg».proof.Proof.HostVals
import proofs.«418415_j74801150427885_3_alg».proof.Proof.RefRun
import proofs.«418415_j74801150427885_3_alg».proof.Proof.RefLogits
import proofs.«418415_j74801150427885_3_alg».proof.Proof.RefLoss
import proofs.«418415_j74801150427885_3_alg».proof.Proof.RefFinal
import proofs.«418415_j74801150427885_3_alg».proof.Proof.Finite

noncomputable section

namespace Cert.Proof

open Idealize.ShloMosaic Idealize.ShloMosaic.TcCoe Idealize.SL.Sem

/-- The word-level kernel program runs and keeps its arguments. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
     (h c _ (Cert.Kernel.Hand.mem_uc Cert.Kernel.main_arg1 (by decide))).trans (Cert.Kernel.Hand.W5_main_arg1 m c),
     (h c _ (Cert.Kernel.Hand.mem_uc Cert.Kernel.main_arg2 (by decide))).trans (Cert.Kernel.Hand.W5_main_arg2 m c)⟩)
    (Cert.Kernel.Hand.run_main (F := Bits) m ρ)

/-- The idealized kernel program runs and keeps its arguments. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
     (h c _ (Cert.KernelIdeal.Hand.mem_uc Cert.KernelIdeal.main_arg1 (by decide))).trans (Cert.KernelIdeal.Hand.W5_main_arg1 m c),
     (h c _ (Cert.KernelIdeal.Hand.mem_uc Cert.KernelIdeal.main_arg2 (by decide))).trans (Cert.KernelIdeal.Hand.W5_main_arg2 m c)⟩)
    (Cert.KernelIdeal.Hand.run_main (F := Ideal) m ρ)

/-- The idealized reference runs and keeps its arguments. -/
theorem frame_ri : Cert.frame_ReferenceIdeal := fun m ρ _ =>
  (θ_run (Cert.ReferenceIdeal.defs (F := Ideal)) _ _).mono (fun _ h c => (h c).2.2)
    (Cert.ReferenceIdeal.RefValue.run m ρ)

/-- The reference's second result is the loss over the logits. -/
theorem refLoss_eq (x0 x1 : FVec Ideal Cert.ReferenceIdeal.S4096x256 .f32) (x2 : FVec Ideal Cert.ReferenceIdeal.S4096 .f32) :
    Cert.ReferenceIdeal.RefValue.refLoss (F := Ideal) x0 x1 x2 = Cert.Spec.lossOf x0 x1 x2 :=
  Cert.ReferenceIdeal.RefRead.refLoss_eq_of Cert.ReferenceIdeal.RefRead.refLogits_eq Cert.ReferenceIdeal.RefRead.lossOf_eq x0 x1 x2

/-- On finite inputs, from memories agreeing on the arguments, both idealized programs end with the logits and the
    loss of the kernel's arguments. -/
theorem algebraic : Cert.algebraic_KernelIdeal_ReferenceIdeal := by
  intro m ρ m' ρ' hpre hagree
  have hfin : ∀ c : Dev Cert.KernelIdeal.nD, Cert.Spec.FiniteOn (Cert.KernelIdeal.Hand.argA m c)
      ∧ Cert.Spec.FiniteOn (Cert.KernelIdeal.Hand.argB m c) ∧ Cert.Spec.FiniteOn (Cert.KernelIdeal.Hand.argL m c) :=
    fun c => Cert.Proof.Finite.finite_of_pre _ _ _ (hpre c)
  refine ⟨fun c => Cert.Spec.logitsFlat (Cert.KernelIdeal.Hand.argA m c) (Cert.KernelIdeal.Hand.argB m c),
    fun c => Cert.Spec.lossOf (Cert.KernelIdeal.Hand.argA m c) (Cert.KernelIdeal.Hand.argB m c) (Cert.KernelIdeal.Hand.argL m c),
    ?_, ?_⟩
  · exact Cert.KernelIdeal.Hand.kernel_run_of m Cert.KernelIdeal.Hand.arr6_eq Cert.KernelIdeal.Hand.arr2_eq
      Cert.KernelIdeal.Hand.v9_apply Cert.KernelIdeal.Hand.v11_apply Cert.KernelIdeal.Hand.v3_apply Cert.KernelIdeal.Hand.v8_apply
      Cert.KernelIdeal.Hand.v13_apply Cert.KernelIdeal.Hand.v15_apply Cert.KernelIdeal.Hand.v16_apply ρ
      (Cert.KernelIdeal.Hand.run_main (F := Ideal) m ρ) Cert.KernelIdeal.Hand.mem_uc
      (Cert.KernelIdeal.Hand.W5_main_arg0 m) (Cert.KernelIdeal.Hand.W5_main_arg1 m) (Cert.KernelIdeal.Hand.W5_main_arg2 m) hfin
  · refine (θ_run (Cert.ReferenceIdeal.defs (F := Ideal)) _ _).mono (fun _ h c => ?_) (Cert.ReferenceIdeal.RefValue.run m' ρ')
    obtain ⟨h48, h68, h0, h1, h2⟩ := h c
    refine ⟨?_, ?_, h0, h1, h2⟩
    · rw [h48, (hagree c).1, (hagree c).2.1]
      exact Cert.ReferenceIdeal.RefRead.refLogits_eq _ _
    · rw [h68, (hagree c).1, (hagree c).2.1, (hagree c).2.2]
      exact refLoss_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
